-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x36 : Shape := ⟨2, ![50000, 36]⟩
abbrev S50000x5 : Shape := ⟨2, ![50000, 5]⟩
abbrev S50000x2048 : Shape := ⟨2, ![50000, 2048]⟩
abbrev S50000 : Shape := ⟨1, ![50000]⟩
abbrev S36x200 : Shape := ⟨2, ![36, 200]⟩
abbrev S4 : Shape := ⟨1, ![4]⟩
abbrev S4x128 : Shape := ⟨2, ![4, 128]⟩
abbrev S128 : Shape := ⟨1, ![128]⟩
abbrev S2376x1024 : Shape := ⟨2, ![2376, 1024]⟩
abbrev S1024 : Shape := ⟨1, ![1024]⟩
abbrev S1024x37 : Shape := ⟨2, ![1024, 37]⟩
abbrev S37 : Shape := ⟨1, ![37]⟩
abbrev S_ : Shape := ⟨0, ![]⟩

class Facts : Prop where
  bcast_S_S50000x36 : S_.BroadcastsInDim S50000x36 (![] : Fin 0 → Fin S50000x36.rank)
  reducesTo_S50000x36_S_d0_1 : S50000x36.ReducesTo [0, 1] S_
  h_S_ : 0 < S_.numel
  bcast_S_S50000x5 : S_.BroadcastsInDim S50000x5 (![] : Fin 0 → Fin S50000x5.rank)
  reducesTo_S50000x5_S_d0_1 : S50000x5.ReducesTo [0, 1] S_
  bcast_S_S50000x2048 : S_.BroadcastsInDim S50000x2048 (![] : Fin 0 → Fin S50000x2048.rank)
  reducesTo_S50000x2048_S_d0_1 : S50000x2048.ReducesTo [0, 1] S_
  bcast_S_S36x200 : S_.BroadcastsInDim S36x200 (![] : Fin 0 → Fin S36x200.rank)
  reducesTo_S36x200_S_d0_1 : S36x200.ReducesTo [0, 1] S_
  bcast_S_S4 : S_.BroadcastsInDim S4 (![] : Fin 0 → Fin S4.rank)
  reducesTo_S4_S_d0 : S4.ReducesTo [0] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S2376x1024 : S_.BroadcastsInDim S2376x1024 (![] : Fin 0 → Fin S2376x1024.rank)
  reducesTo_S2376x1024_S_d0_1 : S2376x1024.ReducesTo [0, 1] S_
  bcast_S_S1024 : S_.BroadcastsInDim S1024 (![] : Fin 0 → Fin S1024.rank)
  reducesTo_S1024_S_d0 : S1024.ReducesTo [0] S_
  bcast_S_S1024x37 : S_.BroadcastsInDim S1024x37 (![] : Fin 0 → Fin S1024x37.rank)
  reducesTo_S1024x37_S_d0_1 : S1024x37.ReducesTo [0, 1] S_
  bcast_S_S37 : S_.BroadcastsInDim S37 (![] : Fin 0 → Fin S37.rank)
  reducesTo_S37_S_d0 : S37.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S1024 .f32) (main_arg13 : FVec F S1024x37 .f32) (main_arg14 : FVec F S37 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg12
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x37 .f32 := Host.absf main_arg13
  let main_cst_22 : FVec F S_ .f32 := constant S_ .f32 0x7F800000#32
  let main_v60 : FVec F S1024x37 .f32 := broadcastInDim S1024x37 ![] bcast_S_S1024x37 main_cst_22
  let main_v61 : IVec S1024x37 1 := cmpf .olt main_v59 main_v60
  let main_c_23 : IVec S_ 1 := constantI S_ 1 1#1
  let main_v62 : IVec S_ 1 := (fun x v => Host.reduce IntOp.andi x v reducesTo_S1024x37_S_d0_1 h_S_) main_v61 main_c_23
  let main_v63 : IVec S_ 1 := andi main_v58 main_v62
  let main_v64 : FVec F S37 .f32 := Host.absf main_arg14
  let main_cst_24 : FVec F S_ .f32 := constant S_ .f32 0x7F800000#32
  let main_v65 : FVec F S37 .f32 := broadcastInDim S37 ![] bcast_S_S37 main_cst_24
  let main_v66 : IVec S37 1 := cmpf .olt main_v64 main_v65
  let main_c_25 : IVec S_ 1 := constantI S_ 1 1#1
  let main_v67 : IVec S_ 1 := (fun x v => Host.reduce IntOp.andi x v reducesTo_S37_S_d0 h_S_) main_v66 main_c_25
  fn_part4 (F := F) main_v63 main_v67

def fn_part2 {F : FTy → Type} [FloatOps F] (main_arg8 : FVec F S128 .f32) (main_arg9 : FVec F S2376x1024 .f32) (main_arg10 : FVec F S1024 .f32) (main_arg11 : FVec F S1024 .f32) (main_arg12 : FVec F S1024 .f32) (main_arg13 : FVec F S1024x37 .f32) (main_arg14 : FVec F S37 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2376x1024 .f32 := Host.absf main_arg9
  let main_cst_14 : FVec F S_ .f32 := constant S_ .f32 0x7F800000#32
  let main_v40 : FVec F S2376x1024 .f32 := broadcastInDim S2376x1024 ![] bcast_S_S2376x1024 main_cst_14
  let main_v41 : IVec S2376x1024 1 := cmpf .olt main_v39 main_v40
  let main_c_15 : IVec S_ 1 := constantI S_ 1 1#1
  let main_v42 : IVec S_ 1 := (fun x v => Host.reduce IntOp.andi x v reducesTo_S2376x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_arg14 main_v48 main_v49 main_v50

def fn_part1 {F : FTy → Type} [FloatOps F] (main_arg5 : FVec F S4 .f32) (main_arg6 : FVec F S4 .f32) (main_arg7 : FVec F S4x128 .f32) (main_arg8 : FVec F S128 .f32) (main_arg9 : FVec F S2376x1024 .f32) (main_arg10 : FVec F S1024 .f32) (main_arg11 : FVec F S1024 .f32) (main_arg12 : FVec F S1024 .f32) (main_arg13 : FVec F S1024x37 .f32) (main_arg14 : FVec F S37 .f32) (main_v13 : IVec S_ 1) (main_v16 : IVec S36x200 1) : IVec S_ 1 :=
  let main_c_5 : IVec S_ 1 := constantI S_ 1 1#1
  let main_v17 : IVec S_ 1 := (fun x v => Host.reduce IntOp.andi x v reducesTo_S36x200_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x36 .f32) (main_arg1 : FVec F S50000x5 .f32) (main_arg2 : FVec F S50000x2048 .f32) (main_arg3 : IVec S50000 32) (main_arg4 : FVec F S36x200 .f32) (main_arg5 : FVec F S4 .f32) (main_arg6 : FVec F S4 .f32) (main_arg7 : FVec F S4x128 .f32) (main_arg8 : FVec F S128 .f32) (main_arg9 : FVec F S2376x1024 .f32) (main_arg10 : FVec F S1024 .f32) (main_arg11 : FVec F S1024 .f32) (main_arg12 : FVec F S1024 .f32) (main_arg13 : FVec F S1024x37 .f32) (main_arg14 : FVec F S37 .f32) : IVec S_ 1 :=
  let main_v0 : FVec F S50000x36 .f32 := Host.absf main_arg0
  let main_cst : FVec F S_ .f32 := constant S_ .f32 0x7F800000#32
  let main_v1 : FVec F S50000x36 .f32 := broadcastInDim S50000x36 ![] bcast_S_S50000x36 main_cst
  let main_v2 : IVec S50000x36 1 := cmpf .olt main_v0 main_v1
  let main_c : IVec S_ 1 := constantI S_ 1 1#1
  let main_v3 : IVec S_ 1 := (fun x v => Host.reduce IntOp.andi x v reducesTo_S50000x36_S_d0_1 h_S_) main_v2 main_c
  let main_v4 : FVec F S50000x5 .f32 := Host.absf main_arg1
  let main_cst_0 : FVec F S_ .f32 := constant S_ .f32 0x7F800000#32
  let main_v5 : FVec F S50000x5 .f32 := broadcastInDim S50000x5 ![] bcast_S_S50000x5 main_cst_0
  let main_v6 : IVec S50000x5 1 := cmpf .olt main_v4 main_v5
  let main_c_1 : IVec S_ 1 := constantI S_ 1 1#1
  let main_v7 : IVec S_ 1 := (fun x v => Host.reduce IntOp.andi x v reducesTo_S50000x5_S_d0_1 h_S_) main_v6 main_c_1
  let main_v8 : IVec S_ 1 := andi main_v3 main_v7
  let main_v9 : FVec F S50000x2048 .f32 := Host.absf main_arg2
  let main_cst_2 : FVec F S_ .f32 := constant S_ .f32 0x7F800000#32
  let main_v10 : FVec F S50000x2048 .f32 := broadcastInDim S50000x2048 ![] bcast_S_S50000x2048 main_cst_2
  let main_v11 : IVec S50000x2048 1 := cmpf .olt main_v9 main_v10
  let main_c_3 : IVec S_ 1 := constantI S_ 1 1#1
  let main_v12 : IVec S_ 1 := (fun x v => Host.reduce IntOp.andi x v reducesTo_S50000x2048_S_d0_1 h_S_) main_v11 main_c_3
  let main_v13 : IVec S_ 1 := andi main_v8 main_v12
  let main_v14 : FVec F S36x200 .f32 := Host.absf main_arg4
  let main_cst_4 : FVec F S_ .f32 := constant S_ .f32 0x7F800000#32
  let main_v15 : FVec F S36x200 .f32 := broadcastInDim S36x200 ![] bcast_S_S36x200 main_cst_4
  let main_v16 : IVec S36x200 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x36 : Shape := ⟨2, ![50000, 36]⟩
abbrev S50000x5 : Shape := ⟨2, ![50000, 5]⟩
abbrev S50000x2048 : Shape := ⟨2, ![50000, 2048]⟩
abbrev S50000 : Shape := ⟨1, ![50000]⟩
abbrev S36x200 : Shape := ⟨2, ![36, 200]⟩
abbrev S4 : Shape := ⟨1, ![4]⟩
abbrev S4x128 : Shape := ⟨2, ![4, 128]⟩
abbrev S128 : Shape := ⟨1, ![128]⟩
abbrev S2376x1024 : Shape := ⟨2, ![2376, 1024]⟩
abbrev S1024 : Shape := ⟨1, ![1024]⟩
abbrev S1024x37 : Shape := ⟨2, ![1024, 37]⟩
abbrev S37 : Shape := ⟨1, ![37]⟩
abbrev S50000x4 : Shape := ⟨2, ![50000, 4]⟩
abbrev S50000x2 : Shape := ⟨2, ![50000, 2]⟩
abbrev S_ : Shape := ⟨0, ![]⟩
abbrev S1x4 : Shape := ⟨2, ![1, 4]⟩
abbrev S2048x1024 : Shape := ⟨2, ![2048, 1024]⟩
abbrev S200x1024 : Shape := ⟨2, ![200, 1024]⟩
abbrev S128x1024 : Shape := ⟨2, ![128, 1024]⟩
abbrev S1x128 : Shape := ⟨2, ![1, 128]⟩
abbrev S1x1024 : Shape := ⟨2, ![1, 1024]⟩
abbrev S1x37 : Shape := ⟨2, ![1, 37]⟩
abbrev S50000x1024 : Shape := ⟨2, ![50000, 1024]⟩
abbrev S400x36 : Shape := ⟨2, ![400, 36]⟩
abbrev S400x4 : Shape := ⟨2, ![400, 4]⟩
abbrev S400x2048 : Shape := ⟨2, ![400, 2048]⟩
abbrev S400x1024 : Shape := ⟨2, ![400, 1024]⟩
abbrev S400x200 : Shape := ⟨2, ![400, 200]⟩
abbrev S400x128 : Shape := ⟨2, ![400, 128]⟩
abbrev S50000x37 : Shape := ⟨2, ![50000, 37]⟩
abbrev S2000x1024 : Shape := ⟨2, ![2000, 1024]⟩
abbrev S2000x37 : Shape := ⟨2, ![2000, 37]⟩

abbrev nBuf : Space → Nat
  | .hbm => 103
  | .vmem => 29
  | .smem => 0
  | _ => 0

abbrev bufTy : (tb : Table) → Fin (tcTables nBuf tb) → BufTy
  | .hbm, ⟨0, _⟩ => ⟨S50000x36, .f32⟩
  | .hbm, ⟨1, _⟩ => ⟨S50000x5, .f32⟩
  | .hbm, ⟨2, _⟩ => ⟨S50000x2048, .f32⟩
  | .hbm, ⟨3, _⟩ => ⟨S50000, .i32⟩
  | .hbm, ⟨4, _⟩ => ⟨S36x200, .f32⟩
  | .hbm, ⟨5, _⟩ => ⟨S4, .f32⟩
  | .hbm, ⟨6, _⟩ => ⟨S4, .f32⟩
  | .hbm, ⟨7, _⟩ => ⟨S4x128, .f32⟩
  | .hbm, ⟨8, _⟩ => ⟨S128, .f32⟩
  | .hbm, ⟨9, _⟩ => ⟨S2376x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x37, .f32⟩
  | .hbm, ⟨14, _⟩ => ⟨S37, .f32⟩
  | .hbm, ⟨15, _⟩ => ⟨S50000x4, .f32⟩
  | .hbm, ⟨16, _⟩ => ⟨S50000x2, .f32⟩
  | .hbm, ⟨17, _⟩ => ⟨S50000x2, .f32⟩
  | .hbm, ⟨18, _⟩ => ⟨S50000x2, .f32⟩
  | .hbm, ⟨19, _⟩ => ⟨S_, .f32⟩
  | .hbm, ⟨20, _⟩ => ⟨S50000x2, .f32⟩
  | .hbm, ⟨21, _⟩ => ⟨S50000x2, .f32⟩
  | .hbm, ⟨22, _⟩ => ⟨S50000x2, .f32⟩
  | .hbm, ⟨23, _⟩ => ⟨S_, .f32⟩
  | .hbm, ⟨24, _⟩ => ⟨S50000x2, .f32⟩
  | .hbm, ⟨25, _⟩ => ⟨S50000x2, .f32⟩
  | .hbm, ⟨26, _⟩ => ⟨S50000x4, .f32⟩
  | .hbm, ⟨27, _⟩ => ⟨S_, .f32⟩
  | .hbm, ⟨28, _⟩ => ⟨S4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S_, .i32⟩
  | .hbm, ⟨34, _⟩ => ⟨S_, .f32⟩
  | .hbm, ⟨35, _⟩ => ⟨S4, .f32⟩
  | .hbm, ⟨36, _⟩ => ⟨S1x4, .f32⟩
  | .hbm, ⟨37, _⟩ => ⟨S_, .f32⟩
  | .hbm, ⟨38, _⟩ => ⟨S1x4, .f32⟩
  | .hbm, ⟨39, _⟩ => ⟨S1x4, .f32⟩
  | .hbm, ⟨40, _⟩ => ⟨S50000x4, .f32⟩
  | .hbm, ⟨41, _⟩ => ⟨S50000x4, .f32⟩
  | .hbm, ⟨42, _⟩ => ⟨S50000x4, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4, .f32⟩
  | .hbm, ⟨48, _⟩ => ⟨S1x4, .f32⟩
  | .hbm, ⟨49, _⟩ => ⟨S1x4, .f32⟩
  | .hbm, ⟨50, _⟩ => ⟨S1x4, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S1x4, .f32⟩
  | .hbm, ⟨56, _⟩ => ⟨S1x4, .f32⟩
  | .hbm, ⟨57, _⟩ => ⟨S36x200, .bf16⟩
  | .hbm, ⟨58, _⟩ => ⟨S4x128, .bf16⟩
  | .hbm, ⟨59, _⟩ => ⟨S2376x1024, .bf16⟩
  | .hbm, ⟨60, _⟩ => ⟨S2048x1024, .bf16⟩
  | .hbm, ⟨61, _⟩ => ⟨S200x1024, .bf16⟩
  | .hbm, ⟨62, _⟩ => ⟨S128x1024, .bf16⟩
  | .hbm, ⟨63, _⟩ => ⟨S1024x37, .bf16⟩
  | .hbm, ⟨64, _⟩ => ⟨S1x4, .f32⟩
  | .hbm, ⟨65, _⟩ => ⟨S1x4, .f32⟩
  | .hbm, ⟨66, _⟩ => ⟨S1x128, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x37, .f32⟩
  | .hbm, ⟨71, _⟩ => ⟨S50000x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .i32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S50000x1024, .f32⟩
  | .hbm, ⟨86, _⟩ => ⟨S50000x1024, .f32⟩
  | .hbm, ⟨87, _⟩ => ⟨S50000x1024, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S1x1024, .f32⟩
  | .hbm, ⟨101, _⟩ => ⟨S1x1024, .f32⟩
  | .hbm, ⟨102, _⟩ => ⟨S50000x37, .f32⟩
  | .local _ .vmem, ⟨0, _⟩ => ⟨S400x36, .f32⟩
  | .local _ .vmem, ⟨1, _⟩ => ⟨S400x36, .f32⟩
  | .local _ .vmem, ⟨2, _⟩ => ⟨S400x4, .f32⟩
  | .local _ .vmem, ⟨3, _⟩ => ⟨S400x4, .f32⟩
  | .local _ .vmem, ⟨4, _⟩ => ⟨S400x2048, .f32⟩
  | .local _ .vmem, ⟨5, _⟩ => ⟨S400x2048, .f32⟩
  | .local _ .vmem, ⟨6, _⟩ => ⟨S36x200, .bf16⟩
  | .local _ .vmem, ⟨7, _⟩ => ⟨S1x4, .f32⟩
  | .local _ .vmem, ⟨8, _⟩ => ⟨S1x4, .f32⟩
  | .local _ .vmem, ⟨9, _⟩ => ⟨S4x128, .bf16⟩
  | .local _ .vmem, ⟨10, _⟩ => ⟨S1x128, .f32⟩
  | .local _ .vmem, ⟨11, _⟩ => ⟨S1x4, .f32⟩
  | .local _ .vmem, ⟨12, _⟩ => ⟨S1x4, .f32⟩
  | .local _ .vmem, ⟨13, _⟩ => ⟨S2048x1024, .bf16⟩
  | .local _ .vmem, ⟨14, _⟩ => ⟨S200x1024, .bf16⟩
  | .local _ .vmem, ⟨15, _⟩ => ⟨S128x1024, .bf16⟩
  | .local _ .vmem, ⟨16, _⟩ => ⟨S1x1024, .f32⟩
  | .local _ .vmem, ⟨17, _⟩ => ⟨S400x1024, .f32⟩
  | .local _ .vmem, ⟨18, _⟩ => ⟨S400x1024, .f32⟩
  | .local _ .vmem, ⟨19, _⟩ => ⟨S2000x1024, .f32⟩
  | .local _ .vmem, ⟨20, _⟩ => ⟨S2000x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1024x37, .bf16⟩
  | .local _ .vmem, ⟨26, _⟩ => ⟨S1x37, .f32⟩
  | .local _ .vmem, ⟨27, _⟩ => ⟨S2000x37, .f32⟩
  | .local _ .vmem, ⟨28, _⟩ => ⟨S2000x37, .f32⟩
  | _, _ => ⟨S50000x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_3 : Ref sig .tc := ⟨.hbm, 72, rfl⟩
abbrev main_v30 : Ref sig .tc := ⟨.hbm, 73, rfl⟩
abbrev main_v31 : Ref sig .tc := ⟨.hbm, 74, rfl⟩
abbrev main_cst_4 : Ref sig .tc := ⟨.hbm, 75, rfl⟩
abbrev main_v32 : Ref sig .tc := ⟨.hbm, 76, rfl⟩
abbrev main_v33 : Ref sig .tc := ⟨.hbm, 77, rfl⟩
abbrev main_c_5 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_cst_3 : Ref sig .tc := ⟨.hbm, 96, rfl⟩
abbrev main_call1_v13 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v34 : Ref sig .tc := ⟨.hbm, 101, rfl⟩
abbrev main_v35 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S36x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S200x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S400x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x37 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x37 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x37 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S50000x5_S50000x4_0_1 : S50000x5.Slices ![0, 1] S50000x4
  slices_S50000x4_S50000x2_0_0 : S50000x4.Slices ![0, 0] S50000x2
  slices_S50000x4_S50000x2_0_2 : S50000x4.Slices ![0, 2] S50000x2
  bcast_S_S50000x2 : S_.BroadcastsInDim S50000x2 (![] : Fin 0 → Fin S50000x2.rank)
  concatenates_S50000x2_S50000x2_S50000x4_d1 : Shape.Concatenates [S50000x2, S50000x2] S50000x4 1
  reducesTo_S50000x4_S4_d0 : S50000x4.ReducesTo [0] S4
  h_S_ : 0 < S_.numel
  bcast_S4_S1x4_1 : S4.BroadcastsInDim S1x4 (![1] : Fin 1 → Fin S1x4.rank)
  bcast_S_S1x4 : S_.BroadcastsInDim S1x4 (![] : Fin 0 → Fin S1x4.rank)
  bcast_S1x4_S50000x4_0_1 : S1x4.BroadcastsInDim S50000x4 (![0, 1] : Fin 2 → Fin S50000x4.rank)
  bitsLt_bf16_f32 : FTy.bits .bf16 < FTy.bits .f32
  slices_S2376x1024_S2048x1024_0_0 : S2376x1024.Slices ![0, 0] S2048x1024
  slices_S2376x1024_S200x1024_2048_0 : S2376x1024.Slices ![2048, 0] S200x1024
  slices_S2376x1024_S128x1024_2248_0 : S2376x1024.Slices ![2248, 0] S128x1024
  shapeCasts_S4_S1x4 : S4.ShapeCasts S1x4
  shapeCasts_S128_S1x128 : S128.ShapeCasts S1x128
  shapeCasts_S1024_S1x1024 : S1024.ShapeCasts S1x1024
  shapeCasts_S37_S1x37 : S37.ShapeCasts S1x37
  inb_S400x36_S400x36_0_0 : ∀ a, (![0, 0] : Fin 2 → Nat) a + S400x36.size a ≤ S400x36.size a
  h_S400x36 : 0 < S400x36.numel
  inb_S36x200_S36x200_0_0 : ∀ a, (![0, 0] : Fin 2 → Nat) a + S36x200.size a ≤ S36x200.size a
  h_S36x200 : 0 < S36x200.numel
  shapeCasts_S36x200_S36x200 : S36x200.ShapeCasts S36x200
  inb_S400x4_S400x4_0_0 : ∀ a, (![0, 0] : Fin 2 → Nat) a + S400x4.size a ≤ S400x4.size a
  h_S400x4 : 0 < S400x4.numel
  shapeCasts_S400x4_S400x4 : S400x4.ShapeCasts S400x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S400x4 : S1x4.Broadcasts S400x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x2048_S400x2048_0_0 : ∀ a, (![0, 0] : Fin 2 → Nat) a + S400x2048.size a ≤ S400x2048.size a
  h_S400x2048 : 0 < S400x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S200x1024_S200x1024_0_0 : ∀ a, (![0, 0] : Fin 2 → Nat) a + S200x1024.size a ≤ S200x1024.size a
  h_S200x1024 : 0 < S200x1024.numel
  shapeCasts_S200x1024_S200x1024 : S200x1024.ShapeCasts S200x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S400x1024 : S1x1024.Broadcasts S400x1024
  inb_S400x1024_S400x1024_0_0 : ∀ a, (![0, 0] : Fin 2 → Nat) a + S400x1024.size a ≤ S400x1024.size a
  h_S400x1024 : 0 < S400x1024.numel
  reducesTo_S50000x1024_S1024_d0 : S50000x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S50000x1024_0_1 : S1x1024.BroadcastsInDim S50000x1024 (![0, 1] : Fin 2 → Fin S50000x1024.rank)
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  broadcasts_S1x1024_S2000x1024 : S1x1024.Broadcasts S2000x1024
  inb_S1024x37_S1024x37_0_0 : ∀ a, (![0, 0] : Fin 2 → Nat) a + S1024x37.size a ≤ S1024x37.size a
  h_S1024x37 : 0 < S1024x37.numel
  shapeCasts_S1024x37_S1024x37 : S1024x37.ShapeCasts S1024x37
  inb_S1x37_S1x37_0_0 : ∀ a, (![0, 0] : Fin 2 → Nat) a + S1x37.size a ≤ S1x37.size a
  h_S1x37 : 0 < S1x37.numel
  shapeCasts_S1x37_S1x37 : S1x37.ShapeCasts S1x37
  broadcasts_S1x37_S2000x37 : S1x37.Broadcasts S2000x37
  inb_S2000x37_S2000x37_0_0 : ∀ a, (![0, 0] : Fin 2 → Nat) a + S2000x37.size a ≤ S2000x37.size a
  h_S2000x37 : 0 < S2000x37.numel
  dot_S400x36_S36x200_S400x200_1_0_0_1_n_n_wf : DotDims.WF S400x36 S36x200 S400x200 [1] [0] [0] [1] [] []
  dot_S400x4_S4x128_S400x128_1_0_0_1_n_n_wf : DotDims.WF S400x4 S4x128 S400x128 [1] [0] [0] [1] [] []
  dot_S400x2048_S2048x1024_S400x1024_1_0_0_1_n_n_wf : DotDims.WF S400x2048 S2048x1024 S400x1024 [1] [0] [0] [1] [] []
  dot_S400x200_S200x1024_S400x1024_1_0_0_1_n_n_wf : DotDims.WF S400x200 S200x1024 S400x1024 [1] [0] [0] [1] [] []
  dot_S400x128_S128x1024_S400x1024_1_0_0_1_n_n_wf : DotDims.WF S400x128 S128x1024 S400x1024 [1] [0] [0] [1] [] []
  dot_S2000x1024_S1024x37_S2000x37_1_0_0_1_n_n_wf : DotDims.WF S2000x1024 S1024x37 S2000x37 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x36.size a ≤ S50000x36.size a
  hwx0_0 : ∀ i : grid0.Coords, EltTy.bits .f32 = 32 ∨ (Rect.block (s := S50000x36) S400x36.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4.size a ≤ S50000x4.size a
  hwx0_1 : ∀ i : grid0.Coords, EltTy.bits .f32 = 32 ∨ (Rect.block (s := S50000x4) S400x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x2048.size a ≤ S50000x2048.size a
  hwx0_2 : ∀ i : grid0.Coords, EltTy.bits .f32 = 32 ∨ (Rect.block (s := S50000x2048) S400x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S36x200.size a ≤ S36x200.size a
  hwx0_3 : ∀ i : grid0.Coords, EltTy.bits .bf16 = 32 ∨ (Rect.block (s := S36x200) S36x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x128.size a
  hwx0_6 : ∀ i : grid0.Coords, EltTy.bits .bf16 = 32 ∨ (Rect.block (s := S4x128) S4x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4.size a ≤ S1x4.size a
  hwx0_8 : ∀ i : grid0.Coords, EltTy.bits .f32 = 32 ∨ (Rect.block (s := S1x4) S1x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4.size a ≤ S1x4.size a
  hwx0_9 : ∀ i : grid0.Coords, EltTy.bits .f32 = 32 ∨ (Rect.block (s := S1x4) S1x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x1024.size a ≤ S2048x1024.size a
  hwx0_10 : ∀ i : grid0.Coords, EltTy.bits .bf16 = 32 ∨ (Rect.block (s := S2048x1024) S2048x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S200x1024.size a ≤ S200x1024.size a
  hwx0_11 : ∀ i : grid0.Coords, EltTy.bits .bf16 = 32 ∨ (Rect.block (s := S200x1024) S200x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S128x1024.size a
  hwx0_12 : ∀ i : grid0.Coords, EltTy.bits .bf16 = 32 ∨ (Rect.block (s := S128x1024) S128x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S400x1024.size a ≤ S50000x1024.size a
  hwx0_14 : ∀ i : grid0.Coords, EltTy.bits .f32 = 32 ∨ (Rect.block (s := S50000x1024) S400x1024.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S50000x1024.size a
  hwx1_0 : ∀ i : grid1.Coords, EltTy.bits .f32 = 32 ∨ (Rect.block (s := S50000x1024) S2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x37.size a ≤ S1024x37.size a
  hwx1_5 : ∀ i : grid1.Coords, EltTy.bits .bf16 = 32 ∨ (Rect.block (s := S1024x37) S1024x37.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x37.size a ≤ S1x37.size a
  hwx1_6 : ∀ i : grid1.Coords, EltTy.bits .f32 = 32 ∨ (Rect.block (s := S1x37) S1x37.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x37.size a ≤ S50000x37.size a
  hwx1_7 : ∀ i : grid1.Coords, EltTy.bits .f32 = 32 ∨ (Rect.block (s := S50000x37) S2000x37.size (cc1_transform_7 i) (hinb1_7 i)).WholeWords (EltTy.packing .f32)

variable [Facts₀]

def dot_S400x36_S36x200_S400x200_1_0_0_1_n_n : DotDims S400x36 S36x200 S400x200 where
  lhsContracting := [1]
  rhsContracting := [0]
  lhsNonContracting := [0]
  rhsNonContracting := [1]
  lhsBatch := []
  rhsBatch := []
  wf := dot_S400x36_S36x200_S400x200_1_0_0_1_n_n_wf
def dot_S400x4_S4x128_S400x128_1_0_0_1_n_n : DotDims S400x4 S4x128 S400x128 where
  lhsContracting := [1]
  rhsContracting := [0]
  lhsNonContracting := [0]
  rhsNonContracting := [1]
  lhsBatch := []
  rhsBatch := []
  wf := dot_S400x4_S4x128_S400x128_1_0_0_1_n_n_wf
def dot_S400x2048_S2048x1024_S400x1024_1_0_0_1_n_n : DotDims S400x2048 S2048x1024 S400x1024 where
  lhsContracting := [1]
  rhsContracting := [0]
  lhsNonContracting := [0]
  rhsNonContracting := [1]
  lhsBatch := []
  rhsBatch := []
  wf := dot_S400x2048_S2048x1024_S400x1024_1_0_0_1_n_n_wf
def dot_S400x200_S200x1024_S400x1024_1_0_0_1_n_n : DotDims S400x200 S200x1024 S400x1024 where
  lhsContracting := [1]
  rhsContracting := [0]
  lhsNonContracting := [0]
  rhsNonContracting := [1]
  lhsBatch := []
  rhsBatch := []
  wf := dot_S400x200_S200x1024_S400x1024_1_0_0_1_n_n_wf
def dot_S400x128_S128x1024_S400x1024_1_0_0_1_n_n : DotDims S400x128 S128x1024 S400x1024 where
  lhsContracting := [1]
  rhsContracting := [0]
  lhsNonContracting := [0]
  rhsNonContracting := [1]
  lhsBatch := []
  rhsBatch := []
  wf := dot_S400x128_S128x1024_S400x1024_1_0_0_1_n_n_wf
def dot_S2000x1024_S1024x37_S2000x37_1_0_0_1_n_n : DotDims S2000x1024 S1024x37 S2000x37 where
  lhsContracting := [1]
  rhsContracting := [0]
  lhsNonContracting := [0]
  rhsNonContracting := [1]
  lhsBatch := []
  rhsBatch := []
  wf := dot_S2000x1024_S1024x37_S2000x37_1_0_0_1_n_n_wf

abbrev win0_0 : Pipeline.Window sig grid0 :=
  Pipeline.Window.ofSpec (Memref.whole main_arg0) S400x36.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S36x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S2048x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S200x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S128x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v29) S400x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v29) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x37.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x37.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S2000x37.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x36 : Shape := ⟨2, ![50000, 36]⟩
abbrev S50000x5 : Shape := ⟨2, ![50000, 5]⟩
abbrev S50000x2048 : Shape := ⟨2, ![50000, 2048]⟩
abbrev S50000 : Shape := ⟨1, ![50000]⟩
abbrev S36x200 : Shape := ⟨2, ![36, 200]⟩
abbrev S4 : Shape := ⟨1, ![4]⟩
abbrev S4x128 : Shape := ⟨2, ![4, 128]⟩
abbrev S128 : Shape := ⟨1, ![128]⟩
abbrev S2376x1024 : Shape := ⟨2, ![2376, 1024]⟩
abbrev S1024 : Shape := ⟨1, ![1024]⟩
abbrev S1024x37 : Shape := ⟨2, ![1024, 37]⟩
abbrev S37 : Shape := ⟨1, ![37]⟩
abbrev S50000x200 : Shape := ⟨2, ![50000, 200]⟩
abbrev S50000x4 : Shape := ⟨2, ![50000, 4]⟩
abbrev S50000x2 : Shape := ⟨2, ![50000, 2]⟩
abbrev S_ : Shape := ⟨0, ![]⟩
abbrev S1x4 : Shape := ⟨2, ![1, 4]⟩
abbrev S50000x128 : Shape := ⟨2, ![50000, 128]⟩
abbrev S1x128 : Shape := ⟨2, ![1, 128]⟩
abbrev S50000x2376 : Shape := ⟨2, ![50000, 2376]⟩
abbrev S50000x1024 : Shape := ⟨2, ![50000, 1024]⟩
abbrev S1x1024 : Shape := ⟨2, ![1, 1024]⟩
abbrev S50000x37 : Shape := ⟨2, ![50000, 37]⟩
abbrev S1x37 : Shape := ⟨2, ![1, 37]⟩

abbrev nBuf : Space → Nat
  | .hbm => 135
  | .vmem => 0
  | .smem => 0
  | _ => 0

abbrev hbmTy0_0 (i : Nat) : BufTy := match i % 128 with
  | 0 => ⟨S50000x36, .f32⟩
  | 1 => ⟨S50000x5, .f32⟩
  | 2 => ⟨S50000x2048, .f32⟩
  | 3 => ⟨S50000, .i32⟩
  | 4 => ⟨S36x200, .f32⟩
  | 5 => ⟨S4, .f32⟩
  | 6 => ⟨S4, .f32⟩
  | 7 => ⟨S4x128, .f32⟩
  | 8 => ⟨S128, .f32⟩
  | 9 => ⟨S2376x1024, .f32⟩
  | 10 => ⟨S1024, .f32⟩
  | 11 => ⟨S1024, .f32⟩
  | 12 => ⟨S1024, .f32⟩
  | 13 => ⟨S1024x37, .f32⟩
  | 14 => ⟨S37, .f32⟩
  | 15 => ⟨S50000x200, .f32⟩
  | 16 => ⟨S50000x4, .f32⟩
  | 17 => ⟨S50000x2, .f32⟩
  | 18 => ⟨S50000x2, .f32⟩
  | 19 => ⟨S50000x2, .f32⟩
  | 20 => ⟨S_, .f32⟩
  | 21 => ⟨S50000x2, .f32⟩
  | 22 => ⟨S50000x2, .f32⟩
  | 23 => ⟨S50000x2, .f32⟩
  | 24 => ⟨S_, .f32⟩
  | 25 => ⟨S50000x2, .f32⟩
  | 26 => ⟨S50000x2, .f32⟩
  | 27 => ⟨S50000x4, .f32⟩
  | 28 => ⟨S_, .f32⟩
  | 29 => ⟨S4, .f32⟩
  | 30 => ⟨S1x4, .f32⟩
  | 31 => ⟨S_, .f32⟩
  | 32 => ⟨S1x4, .f32⟩
  | 33 => ⟨S1x4, .f32⟩
  | 34 => ⟨S_, .i32⟩
  | 35 => ⟨S_, .f32⟩
  | 36 => ⟨S4, .f32⟩
  | 37 => ⟨S1x4, .f32⟩
  | 38 => ⟨S_, .f32⟩
  | 39 => ⟨S1x4, .f32⟩
  | 40 => ⟨S1x4, .f32⟩
  | 41 => ⟨S50000x4, .f32⟩
  | 42 => ⟨S50000x4, .f32⟩
  | 43 => ⟨S50000x4, .f32⟩
  | 44 => ⟨S_, .f32⟩
  | 45 => ⟨S_, .f32⟩
  | 46 => ⟨S_, .f32⟩
  | 47 => ⟨S_, .f32⟩
  | 48 => ⟨S4, .f32⟩
  | 49 => ⟨S1x4, .f32⟩
  | 50 => ⟨S1x4, .f32⟩
  | 51 => ⟨S1x4, .f32⟩
  | 52 => ⟨S_, .f32⟩
  | 53 => ⟨S_, .i1⟩
  | 54 => ⟨S_, .f32⟩
  | 55 => ⟨S_, .f32⟩
  | 56 => ⟨S1x4, .f32⟩
  | 57 => ⟨S1x4, .f32⟩
  | 58 => ⟨S50000x4, .f32⟩
  | 59 => ⟨S50000x4, .f32⟩
  | 60 => ⟨S_, .f32⟩
  | 61 => ⟨S1x4, .f32⟩
  | 62 => ⟨S1x4, .f32⟩
  | 63 => ⟨S1x4, .f32⟩
  | 64 => ⟨S50000x4, .f32⟩
  | 65 => ⟨S50000x4, .f32⟩
  | 66 => ⟨S1x4, .f32⟩
  | 67 => ⟨S50000x4, .f32⟩
  | 68 => ⟨S50000x4, .f32⟩
  | 69 => ⟨S1x4, .f32⟩
  | 70 => ⟨S50000x4, .f32⟩
  | 71 => ⟨S50000x4, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x2376, .f32⟩
  | 80 => ⟨S50000x1024, .f32⟩
  | 81 => ⟨S1x1024, .f32⟩
  | 82 => ⟨S50000x1024, .f32⟩
  | 83 => ⟨S50000x1024, .f32⟩
  | 84 => ⟨S_, .f32⟩
  | 85 => ⟨S1024, .f32⟩
  | 86 => ⟨S1x1024, .f32⟩
  | 87 => ⟨S_, .f32⟩
  | 88 => ⟨S1x1024, .f32⟩
  | 89 => ⟨S1x1024, .f32⟩
  | 90 => ⟨S_, .i32⟩
  | 91 => ⟨S_, .f32⟩
  | 92 => ⟨S1024, .f32⟩
  | 93 => ⟨S1x1024, .f32⟩
  | 94 => ⟨S_, .f32⟩
  | 95 => ⟨S1x1024, .f32⟩
  | 96 => ⟨S1x1024, .f32⟩
  | 97 => ⟨S50000x1024, .f32⟩
  | 98 => ⟨S50000x1024, .f32⟩
  | 99 => ⟨S50000x1024, .f32⟩
  | 100 => ⟨S_, .f32⟩
  | 101 => ⟨S_, .f32⟩
  | 102 => ⟨S_, .f32⟩
  | 103 => ⟨S_, .f32⟩
  | 104 => ⟨S1024, .f32⟩
  | 105 => ⟨S1x1024, .f32⟩
  | 106 => ⟨S1x1024, .f32⟩
  | 107 => ⟨S1x1024, .f32⟩
  | 108 => ⟨S_, .f32⟩
  | 109 => ⟨S_, .i1⟩
  | 110 => ⟨S_, .f32⟩
  | 111 => ⟨S_, .f32⟩
  | 112 => ⟨S1x1024, .f32⟩
  | 113 => ⟨S1x1024, .f32⟩
  | 114 => ⟨S50000x1024, .f32⟩
  | 115 => ⟨S50000x1024, .f32⟩
  | 116 => ⟨S_, .f32⟩
  | 117 => ⟨S1x1024, .f32⟩
  | 118 => ⟨S1x1024, .f32⟩
  | 119 => ⟨S1x1024, .f32⟩
  | 120 => ⟨S50000x1024, .f32⟩
  | 121 => ⟨S50000x1024, .f32⟩
  | 122 => ⟨S1x1024, .f32⟩
  | 123 => ⟨S50000x1024, .f32⟩
  | 124 => ⟨S50000x1024, .f32⟩
  | 125 => ⟨S1x1024, .f32⟩
  | 126 => ⟨S50000x1024, .f32⟩
  | 127 => ⟨S50000x1024, .f32⟩
  | _ => ⟨S50000x36, .f32⟩

abbrev hbmTy0_1 (i : Nat) : BufTy := match i % 128 with
  | 0 => ⟨S_, .f32⟩
  | 1 => ⟨S50000x1024, .f32⟩
  | 2 => ⟨S50000x1024, .f32⟩
  | 3 => ⟨S50000x37, .f32⟩
  | 4 => ⟨S1x37, .f32⟩
  | 5 => ⟨S50000x37, .f32⟩
  | 6 => ⟨S50000x37, .f32⟩
  | _ => ⟨S50000x36, .f32⟩

abbrev hbmTy (i : Nat) : BufTy := match i / 128 with
  | 0 => hbmTy0_0 i
  | 1 => hbmTy0_1 i
  | _ => ⟨S50000x36, .f32⟩

abbrev bufTy : (tb : Table) → Fin (tcTables nBuf tb) → BufTy
  | .hbm, ⟨i, _⟩ => hbmTy i
  | _, _ => ⟨S50000x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_cst_3 : Ref sig .tc := ⟨.hbm, 52, rfl⟩
abbrev main_call0_v13 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_3 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call1_cst : Ref sig .tc := ⟨.hbm, 76, rfl⟩
abbrev main_call1_v0 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_4 : Ref sig .tc := ⟨.hbm, 84, rfl⟩
abbrev main_v39 : Ref sig .tc := ⟨.hbm, 85, rfl⟩
abbrev main_v40 : Ref sig .tc := ⟨.hbm, 86, rfl⟩
abbrev main_cst_5 : Ref sig .tc := ⟨.hbm, 87, rfl⟩
abbrev main_v41 : Ref sig .tc := ⟨.hbm, 88, rfl⟩
abbrev main_v42 : Ref sig .tc := ⟨.hbm, 89, rfl⟩
abbrev main_c_6 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_cst_3 : Ref sig .tc := ⟨.hbm, 108, rfl⟩
abbrev main_call2_v13 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_cst_7 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_call3_cst : Ref sig .tc := ⟨.hbm, 128, rfl⟩
abbrev main_call3_v0 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩

abbrev nD : Nat := 1
abbrev τ : Topo := Topo.v7x

variable {F : FTy → Type} [FloatOps F]

class Facts₀ : Prop where
  slices_S50000x5_S50000x4_0_1 : S50000x5.Slices ![0, 1] S50000x4
  slices_S50000x4_S50000x2_0_0 : S50000x4.Slices ![0, 0] S50000x2
  slices_S50000x4_S50000x2_0_2 : S50000x4.Slices ![0, 2] S50000x2
  bcast_S_S50000x2 : S_.BroadcastsInDim S50000x2 (![] : Fin 0 → Fin S50000x2.rank)
  concatenates_S50000x2_S50000x2_S50000x4_d1 : Shape.Concatenates [S50000x2, S50000x2] S50000x4 1
  reducesTo_S50000x4_S4_d0 : S50000x4.ReducesTo [0] S4
  h_S_ : 0 < S_.numel
  bcast_S4_S1x4_1 : S4.BroadcastsInDim S1x4 (![1] : Fin 1 → Fin S1x4.rank)
  bcast_S_S1x4 : S_.BroadcastsInDim S1x4 (![] : Fin 0 → Fin S1x4.rank)
  bcast_S1x4_S50000x4_0_1 : S1x4.BroadcastsInDim S50000x4 (![0, 1] : Fin 2 → Fin S50000x4.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S50000x2048_S50000x200_S50000x128_S50000x2376_d1 : Shape.Concatenates [S50000x2048, S50000x200, S50000x128] S50000x2376 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  reducesTo_S50000x1024_S1024_d0 : S50000x1024.ReducesTo [0] S1024
  bcast_S_S1x1024 : S_.BroadcastsInDim S1x1024 (![] : Fin 0 → Fin S1x1024.rank)
  bcast_S_S50000x1024 : S_.BroadcastsInDim S50000x1024 (![] : Fin 0 → Fin S50000x1024.rank)
  bcast_S37_S1x37_1 : S37.BroadcastsInDim S1x37 (![1] : Fin 1 → Fin S1x37.rank)
  bcast_S1x37_S50000x37_0_1 : S1x37.BroadcastsInDim S50000x37 (![0, 1] : Fin 2 → Fin S50000x37.rank)
  dot_S50000x36_S36x200_S50000x200_1_0_0_1_n_n_wf : DotDims.WF S50000x36 S36x200 S50000x200 [1] [0] [0] [1] [] []
  dot_S50000x4_S4x128_S50000x128_1_0_0_1_n_n_wf : DotDims.WF S50000x4 S4x128 S50000x128 [1] [0] [0] [1] [] []
  dot_S50000x2376_S2376x1024_S50000x1024_1_0_0_1_n_n_wf : DotDims.WF S50000x2376 S2376x1024 S50000x1024 [1] [0] [0] [1] [] []
  dot_S50000x1024_S1024x37_S50000x37_1_0_0_1_n_n_wf : DotDims.WF S50000x1024 S1024x37 S50000x37 [1] [0] [0] [1] [] []

variable [Facts₀]

def dot_S50000x36_S36x200_S50000x200_1_0_0_1_n_n : DotDims S50000x36 S36x200 S50000x200 where
  lhsContracting := [1]
  rhsContracting := [0]
  lhsNonContracting := [0]
  rhsNonContracting := [1]
  lhsBatch := []
  rhsBatch := []
  wf := dot_S50000x36_S36x200_S50000x200_1_0_0_1_n_n_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def dot_S50000x2376_S2376x1024_S50000x1024_1_0_0_1_n_n : DotDims S50000x2376 S2376x1024 S50000x1024 where
  lhsContracting := [1]
  rhsContracting := [0]
  lhsNonContracting := [0]
  rhsNonContracting := [1]
  lhsBatch := []
  rhsBatch := []
  wf := dot_S50000x2376_S2376x1024_S50000x1024_1_0_0_1_n_n_wf
def dot_S50000x1024_S1024x37_S50000x37_1_0_0_1_n_n : DotDims S50000x1024 S1024x37 S50000x37 where
  lhsContracting := [1]
  rhsContracting := [0]
  lhsNonContracting := [0]
  rhsNonContracting := [1]
  lhsBatch := []
  rhsBatch := []
  wf := dot_S50000x1024_S1024x37_S50000x37_1_0_0_1_n_n_wf

class Facts : Prop extends Facts₀ where

variable [Facts]
-- ==== Proof.Spec.lean ====
/-
  The mathematics of the object classifier's two stages, as functions of arrays read index by index on the
  extended reals. Nothing here mentions a program.

  Stage one (a block of R rows at a time): for row r and hidden column j,
      u[r, j] = ( Σ_{k<2048} feat[r,k]·W1[k,j] + Σ_{k<200} emb[r,k]·W2[k,j] ) + Σ_{k<128} pos[r,k]·W3[k,j] + b[j],
  with  emb[r,k] = Σ_{l<36} dist[r,l]·We[l,k]  (the class-distribution embedding) and
        pos[r,k] = max( Σ_{l<4} n[r,l]·Wp[l,k] + bp[k], 0 ),  n[r,l] = ((P[r,l] − μ[l])·rsqrt(σ²[l] + ε))·γ[l] + β[l]
  (the box geometry P normalised by GIVEN column statistics μ, σ², then a linear layer and a rectifier).
  W1, W2, W3 are the three row bands of the hidden layer's weight matrix that meet the three column bands
  [feat | emb | pos] of the concatenated feature row.

  Stage two: for row r and class j,
      out[r, j] = Σ_{k<1024} max( ((u[r,k] − μh[k])·rsqrt(σh²[k] + ε))·γh[k] + βh[k], 0 )·Wd[k,j] + bd[j].

  Both depend on row r of their row-indexed operands only: that is what lets a row block's value be the
  whole array's value at the block's rows.
-/
import Idealize.ShloMosaic.PureOps.Ideal
import Idealize.ShloMosaic.Lib.ValueIdx

noncomputable section

namespace Cert.Spec

open Idealize.ShloMosaic Idealize.ShloMosaic.ValueIdx

/-- The stabiliser ε under both square roots, as the float word both programs carry. -/
abbrev eps : EReal := Ideal.ofBits .f32 0x3727C5AC#32
/-- The rectifier's floor, as the float word both programs carry (it is 0). -/
abbrev floor0 : EReal := Ideal.ofBits .f32 0x00000000#32

abbrev Rx (R C : Nat) : Shape := ⟨2, ![R, C]⟩

/-- emb[r,k]: row r of the class distribution against column k of the embedding table. -/
def embed {R : Nat} (dist : FVec Ideal (Rx R 36) .f32) (We : FVec Ideal (Rx 36 200) .bf16) (r : Fin R) (k : Fin 200) : EReal :=
  ∑ l : Fin 36, dist (ix2 r l) * We (ix2 l k)

/-- n[r,l]: the box geometry normalised by the given column statistics, scaled and shifted. -/
def posNorm {R : Nat} (P : FVec Ideal (Rx R 4) .f32) (γ β μ σ : FVec Ideal (Rx 1 4) .f32) (r : Fin R) (l : Fin 4) : EReal :=
  ((P (ix2 r l) - μ (ix2 0 l)) * Ideal.rsqrt (σ (ix2 0 l) + eps)) * γ (ix2 0 l) + β (ix2 0 l)

/-- pos[r,k]: the rectified linear image of the normalised geometry. -/
def posFeat {R : Nat} (P : FVec Ideal (Rx R 4) .f32) (γ β : FVec Ideal (Rx 1 4) .f32) (Wp : FVec Ideal (Rx 4 128) .bf16)
    (bp : FVec Ideal (Rx 1 128) .f32) (μ σ : FVec Ideal (Rx 1 4) .f32) (r : Fin R) (k : Fin 128) : EReal :=
  max ((∑ l : Fin 4, posNorm P γ β μ σ r l * Wp (ix2 l k)) + bp (ix2 0 k)) floor0

/-- u[r,j]: the hidden pre-activation at row r and column j, as three partial products and the bias. The operands come
    in the order the first kernel takes them. -/
def projAt {R : Nat} (dist : FVec Ideal (Rx R 36) .f32) (P : FVec Ideal (Rx R 4) .f32) (feat : FVec Ideal (Rx R 2048) .f32)
    (We : FVec Ideal (Rx 36 200) .bf16) (γ β : FVec Ideal (Rx 1 4) .f32) (Wp : FVec Ideal (Rx 4 128) .bf16)
    (bp : FVec Ideal (Rx 1 128) .f32) (μ σ : FVec Ideal (Rx 1 4) .f32)
    (W1 : FVec Ideal (Rx 2048 1024) .bf16) (W2 : FVec Ideal (Rx 200 1024) .bf16) (W3 : FVec Ideal (Rx 128 1024) .bf16)
    (b : FVec Ideal (Rx 1 1024) .f32) (r : Fin R) (j : Fin 1024) : EReal :=
  (((∑ k : Fin 2048, feat (ix2 r k) * W1 (ix2 k j))
      + ∑ k : Fin 200, embed dist We r k * W2 (ix2 k j))
    + ∑ k : Fin 128, posFeat P γ β Wp bp μ σ r k * W3 (ix2 k j))
  + b (ix2 0 j)

/-- Stage one on R rows, as an array. -/
def projW (R : Nat) (dist : FVec Ideal (Rx R 36) .f32) (P : FVec Ideal (Rx R 4) .f32) (feat : FVec Ideal (Rx R 2048) .f32)
    (We : FVec Ideal (Rx 36 200) .bf16) (γ β : FVec Ideal (Rx 1 4) .f32) (Wp : FVec Ideal (Rx 4 128) .bf16)
    (bp : FVec Ideal (Rx 1 128) .f32) (μ σ : FVec Ideal (Rx 1 4) .f32)
    (W1 : FVec Ideal (Rx 2048 1024) .bf16) (W2 : FVec Ideal (Rx 200 1024) .bf16) (W3 : FVec Ideal (Rx 128 1024) .bf16)
    (b : FVec Ideal (Rx 1 1024) .f32) : FVec Ideal (Rx R 1024) .f32 := fun i =>
  projAt dist P feat We γ β Wp bp μ σ W1 W2 W3 b (i 0) (i 1)

/-- h[r,k]: the hidden unit normalised by the given column statistics, scaled, shifted and rectified. -/
def hidden {R : Nat} (U : FVec Ideal (Rx R 1024) .f32) (μh σh γh βh : FVec Ideal (Rx 1 1024) .f32) (r : Fin R) (k : Fin 1024) : EReal :=
  max (((U (ix2 r k) - μh (ix2 0 k)) * Ideal.rsqrt (σh (ix2 0 k) + eps)) * γh (ix2 0 k) + βh (ix2 0 k)) floor0

/-- out[r,j]: the class score at row r and class j. The operands come in the order the second kernel takes them. -/
def decAt {R : Nat} (U : FVec Ideal (Rx R 1024) .f32) (μh σh γh βh : FVec Ideal (Rx 1 1024) .f32)
    (Wd : FVec Ideal (Rx 1024 37) .bf16) (bd : FVec Ideal (Rx 1 37) .f32) (r : Fin R) (j : Fin 37) : EReal :=
  (∑ k : Fin 1024, hidden U μh σh γh βh r k * Wd (ix2 k j)) + bd (ix2 0 j)

/-- Stage two on R rows, as an array. -/
def bnDecW (R : Nat) (U : FVec Ideal (Rx R 1024) .f32) (μh σh γh βh : FVec Ideal (Rx 1 1024) .f32)
    (Wd : FVec Ideal (Rx 1024 37) .bf16) (bd : FVec Ideal (Rx 1 37) .f32) : FVec Ideal (Rx R 37) .f32 := fun i =>
  decAt U μh σh γh βh Wd bd (i 0) (i 1)

theorem projW_apply {R : Nat} (dist : FVec Ideal (Rx R 36) .f32) (P : FVec Ideal (Rx R 4) .f32) (feat : FVec Ideal (Rx R 2048) .f32)
    (We : FVec Ideal (Rx 36 200) .bf16) (γ β : FVec Ideal (Rx 1 4) .f32) (Wp : FVec Ideal (Rx 4 128) .bf16)
    (bp : FVec Ideal (Rx 1 128) .f32) (μ σ : FVec Ideal (Rx 1 4) .f32)
    (W1 : FVec Ideal (Rx 2048 1024) .bf16) (W2 : FVec Ideal (Rx 200 1024) .bf16) (W3 : FVec Ideal (Rx 128 1024) .bf16)
    (b : FVec Ideal (Rx 1 1024) .f32) (r : Fin R) (j : Fin 1024) :
    projW R dist P feat We γ β Wp bp μ σ W1 W2 W3 b (ix2 r j) = projAt dist P feat We γ β Wp bp μ σ W1 W2 W3 b r j := rfl

theorem bnDecW_apply {R : Nat} (U : FVec Ideal (Rx R 1024) .f32) (μh σh γh βh : FVec Ideal (Rx 1 1024) .f32)
    (Wd : FVec Ideal (Rx 1024 37) .bf16) (bd : FVec Ideal (Rx 1 37) .f32) (r : Fin R) (j : Fin 37) :
    bnDecW R U μh σh γh βh Wd bd (ix2 r j) = decAt U μh σh γh βh Wd bd r j := rfl

/-- Stage one sees row r of its three row-indexed operands only: a block whose rows are rows of the whole arrays
    computes the whole arrays' value at those rows. -/
theorem projAt_rows {R R' : Nat} (dist : FVec Ideal (Rx R 36) .f32) (P : FVec Ideal (Rx R 4) .f32) (feat : FVec Ideal (Rx R 2048) .f32)
    (dist' : FVec Ideal (Rx R' 36) .f32) (P' : FVec Ideal (Rx R' 4) .f32) (feat' : FVec Ideal (Rx R' 2048) .f32)
    (We : FVec Ideal (Rx 36 200) .bf16) (γ β : FVec Ideal (Rx 1 4) .f32) (Wp : FVec Ideal (Rx 4 128) .bf16)
    (bp : FVec Ideal (Rx 1 128) .f32) (μ σ : FVec Ideal (Rx 1 4) .f32)
    (W1 : FVec Ideal (Rx 2048 1024) .bf16) (W2 : FVec Ideal (Rx 200 1024) .bf16) (W3 : FVec Ideal (Rx 128 1024) .bf16)
    (b : FVec Ideal (Rx 1 1024) .f32) (p : Fin R) (r : Fin R') (q : Fin 1024)
    (hd : ∀ l, dist (ix2 p l) = dist' (ix2 r l)) (hP : ∀ l, P (ix2 p l) = P' (ix2 r l)) (hf : ∀ k, feat (ix2 p k) = feat' (ix2 r k)) :
    projAt dist P feat We γ β Wp bp μ σ W1 W2 W3 b p q = projAt dist' P' feat' We γ β Wp bp μ σ W1 W2 W3 b r q := by
  simp only [projAt, embed, posFeat, posNorm, hd, hP, hf]

/-- Stage two sees row r of the hidden pre-activation only. -/
theorem decAt_rows {R R' : Nat} (U : FVec Ideal (Rx R 1024) .f32) (U' : FVec Ideal (Rx R' 1024) .f32)
    (μh σh γh βh : FVec Ideal (Rx 1 1024) .f32) (Wd : FVec Ideal (Rx 1024 37) .bf16) (bd : FVec Ideal (Rx 1 37) .f32)
    (p : Fin R) (r : Fin R') (q : Fin 37) (hU : ∀ k, U (ix2 p k) = U' (ix2 r k)) :
    decAt U μh σh γh βh Wd bd p q = decAt U' μh σh γh βh Wd bd r q := by
  simp only [decAt, hidden, hU]

end Cert.Spec

end
-- ==== Proof.LibPlainDot.lean ====
/-
  A plain matrix product read at an entry, on the extended reals.

  For a product of an M×K array by a K×N array whose dimension numbers contract the left operand's second axis with
  the right operand's first, keep the other two axes free and batch nothing, the sum over the contraction's own index
  type is the ordinary sum over k < K of left[a,k]·right[k,b]. The contraction index of such a product is a one-axis
  index of extent K; re-indexing the sum through that bijection and reading the two operand indices axis by axis
  (the free axis from the output index, the contracted axis from k) gives the statement. It is stated for ANY such
  dimension record, by hypotheses on its six axis lists, so that one lemma serves every printed record of this form
  (for a printed record each hypothesis is `rfl`). Two corollaries: a kernel's matrix unit product into a zero
  accumulator, and the host's general dot product, each read at an entry.
-/
import Idealize.ShloMosaic.PureOps.Ideal.Laws
import Idealize.ShloMosaic.Lib.ValueIdx

noncomputable section

namespace Cert.LibPlainDot

open Idealize.ShloMosaic Idealize.ShloMosaic.ValueIdx

/-- The contraction sum of a plain M×K by K×N product at output index j is Σ_{k<K} l[j₀,k]·r[k,j₁]. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (DotDims.mk [1] [0] [0] [1] [] [] wf : DotDims ⟨2, ![M, K]⟩ ⟨2, ![K, N]⟩ ⟨2, ![M, N]⟩) = d
  have e1 : d.lhsContracting = [1] := by rw [← hd]
  have e2 : d.rhsContracting = [0] := by rw [← hd]
  have e3 : d.lhsNonContracting = [0] := by rw [← hd]
  have e4 : d.rhsNonContracting = [1] := by rw [← hd]
  have e5 : d.lhsBatch = [] := by rw [← hd]
  have e6 : d.rhsBatch = [] := by rw [← hd]
  have hr : d.contr.rank = 1 := by rw [← hd]; rfl
  have hs : d.contr.size ⟨0, by omega⟩ = K := by subst hd; rfl
  have lhs0 : ∀ q : d.contr.Idx, (d.lhsIdx j q 0).val = (j 0).val := by
    intro q
    unfold DotDims.lhsIdx
    rw [dif_neg (show ¬(0 : Fin (⟨2, ![M, K]⟩ : Shape).rank) ∈ d.lhsBatch by rw [e5]; exact List.not_mem_nil),
      dif_pos (show (0 : Fin (⟨2, ![M, K]⟩ : Shape).rank) ∈ d.lhsNonContracting by rw [e3]; exact List.mem_singleton.mpr rfl)]
    subst hd
    rfl
  have lhs1 : ∀ q : d.contr.Idx, (d.lhsIdx j q 1).val = (q ⟨0, by omega⟩).val := fun q => d.lhsIdx_val_of_single e1 j q
  have rhs0 : ∀ q : d.contr.Idx, (d.rhsIdx j q 0).val = (q ⟨0, by omega⟩).val := fun q => d.rhsIdx_val_of_single e2 j q
  have rhs1 : ∀ q : d.contr.Idx, (d.rhsIdx j q 1).val = (j 1).val := by
    intro q
    unfold DotDims.rhsIdx
    rw [dif_neg (show ¬(1 : Fin (⟨2, ![K, N]⟩ : Shape).rank) ∈ d.rhsBatch by rw [e6]; exact List.not_mem_nil),
      dif_pos (show (1 : Fin (⟨2, ![K, N]⟩ : Shape).rank) ∈ d.rhsNonContracting by rw [e4]; exact List.mem_singleton.mpr rfl)]
    subst hd
    rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact lhs0 _
    | ⟨1, _⟩ => exact (lhs1 _).trans hk)
  have er : d.rhsIdx j ((contrEquiv1 d K hr hs).symm k) = ix2 k (j 1) := funext fun a => Fin.ext (by
    match a with
    | ⟨0, _⟩ => exact (rhs0 _).trans hk
    | ⟨1, _⟩ => exact rhs1 _)
  rw [el, er]
  rfl

/-- A matrix-unit product into the zero accumulator, read at entry (a, b): Σ_{k<K} lhs[a,k]·rhs[k,b]. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂)
    (a : Fin M) (b : Fin N) :
    matmul d prec lhs rhs (constant (F := Ideal) ⟨2, ![M, N]⟩ .f32 0x00000000#32) (ix2 a b)
      = ∑ k : Fin K, lhs (ix2 a k) * rhs (ix2 k b) :=
  (Ideal.matmul_constant_zero_apply d prec lhs rhs (ix2 a b)).trans
    (plain_sum d h1 h2 h3 h4 h5 h6 lhs rhs (ix2 a b))

/-- The host's general dot product, read at entry (a, b): Σ_{k<K} lhs[a,k]·rhs[k,b]. -/
theorem dotGeneral_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂)
    (a : Fin M) (b : Fin N) :
    Host.dotGeneral d prec lhs rhs (ix2 a b) = ∑ k : Fin K, lhs (ix2 a k) * rhs (ix2 k b) :=
  (Ideal.dotGeneral_apply d prec .single lhs rhs (ix2 a b)).trans
    (plain_sum d h1 h2 h3 h4 h5 h6 lhs rhs (ix2 a b))

end Cert.LibPlainDot

end
-- ==== Proof.K0.lean ====
/-
  The first kernel region, read as values on the extended reals.
  (1) One grid point: what the body stores into the output block is stage one of Spec on the point's 400 rows.
  (2) The whole region: grid point t handles rows 400·t .. 400·t+399 (the three row-indexed operands and the output are
      cut into 125 row blocks; every other operand is whole at every point), stage one sees only row r of its row-indexed
      operands, and the 125 output blocks tile the output array: so the output array after the region is stage one of
      Spec on all 50000 rows of the arrays the region was entered with.
-/
import proofs.«154883_j74363063763324_1_alg».proof.Proof.Gen.KernelIdeal.Frame
import proofs.«154883_j74363063763324_1_alg».proof.Proof.Spec
import proofs.«154883_j74363063763324_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offset of a two-axis rectangle, however it is spelt. -/
theorem hz2 : (![0, 0] : Fin 2 → Nat) = fun _ => 0 := funext fun a => by
  match a with
  | ⟨0, _⟩ => rfl
  | ⟨1, _⟩ => rfl

/-- The class-distribution embedding block, entry by entry: row p of the distribution against column k of the table. -/
theorem pay2_apply (v0 : Vec Ideal S400x36 .f32) (v2 : Vec Ideal S36x200 .bf16) (p : Fin 400) (k : Fin 200) :
    k0_pay2 (F := Ideal) v0 v2 (ix2 p k) = Cert.Spec.embed v0 v2 p k := by
  unfold k0_pay2
  refine (Cert.LibPlainDot.matmul_zero_apply _ rfl rfl rfl rfl rfl rfl none _ _ p k).trans ?_
  unfold Cert.Spec.embed
  refine Finset.sum_congr rfl fun l _ => ?_
  rw [shapeCast_self]
  rfl

/-- The rectified linear image of the normalised geometry, entry by entry. -/
theorem pay3_apply (v5 : Vec Ideal S400x4 .f32) (v7 v11 v18 v22 : Vec Ideal S1x4 .f32) (v27 : Vec Ideal S4x128 .bf16)
    (v30 : Vec Ideal S1x128 .f32) (p : Fin 400) (k : Fin 128) :
    k0_pay3 (F := Ideal) v5 v7 v11 v18 v22 v27 v30 (ix2 p k) = Cert.Spec.posFeat v5 v18 v22 v27 v30 v7 v11 p k := by
  unfold k0_pay3
  simp only [shapeCast_self]
  rw [maximumf_apply, addf_apply]
  unfold Cert.Spec.posFeat
  refine congrArg₂ max (congrArg₂ (· + ·) ?_ ?_) rfl
  · refine (Cert.LibPlainDot.matmul_zero_apply (φ₁ := .bf16) (φ₂ := .bf16) _ rfl rfl rfl rfl rfl rfl none _ _ p k).trans ?_
    refine Finset.sum_congr rfl fun l _ => ?_
    refine congrArg (· * v27 (ix2 l k)) ?_
    rw [truncf_apply, addf_apply, mulf_apply, mulf_apply, subf_apply]
    rw [broadcastTo_1b_ab_apply, broadcastTo_1b_ab_apply, broadcastTo_1b_ab_apply, broadcastTo_1b_ab_apply]
    rfl
  · rw [broadcastTo_1b_ab_apply]

/-- The hidden pre-activation block, entry by entry: the three partial products over the three column bands, and the bias. -/
theorem pay1_apply (v4 : FVec Ideal S400x200 .f32) (v35 : FVec Ideal S400x128 .f32) (v36 : Vec Ideal S400x2048 .f32)
    (v38 : Vec Ideal S2048x1024 .bf16) (v42 : Vec Ideal S200x1024 .bf16) (v46 : Vec Ideal S128x1024 .bf16)
    (v51 : Vec Ideal S1x1024 .f32) (p : Fin 400) (q : Fin 1024) :
    k0_pay1 (F := Ideal) v4 v35 v36 v38 v42 v46 v51 (ix2 p q)
      = (((∑ k : Fin 2048, v36 (ix2 p k) * v38 (ix2 k q)) + ∑ k : Fin 200, v4 (ix2 p k) * v42 (ix2 k q))
          + ∑ k : Fin 128, v35 (ix2 p k) * v46 (ix2 k q)) + v51 (ix2 0 q) := by
  unfold k0_pay1
  simp only [shapeCast_self]
  rw [addf_apply, addf_apply, addf_apply, broadcastTo_1b_ab_apply]
  refine congrArg₂ (· + ·) (congrArg₂ (· + ·) (congrArg₂ (· + ·) ?_ ?_) ?_) rfl
  · exact Cert.LibPlainDot.matmul_zero_apply (φ₁ := .bf16) (φ₂ := .bf16) _ rfl rfl rfl rfl rfl rfl none _ _ p q
  · exact Cert.LibPlainDot.matmul_zero_apply (φ₁ := .bf16) (φ₂ := .bf16) _ rfl rfl rfl rfl rfl rfl none _ _ p q
  · exact Cert.LibPlainDot.matmul_zero_apply (φ₁ := .bf16) (φ₂ := .bf16) _ rfl rfl rfl rfl rfl rfl none _ _ p q

/-- The output block a grid point stores, as a function of the point's input blocks. -/
theorem out0_14_eq (x0 : Vec Ideal S400x36 .f32) (x1 : Vec Ideal S400x4 .f32) (x2 : Vec Ideal S400x2048 .f32) (x3 : Vec Ideal S36x200 .bf16)
    (x4 : Vec Ideal S1x4 .f32) (x5 : Vec Ideal S1x4 .f32) (x6 : Vec Ideal S4x128 .bf16) (x7 : Vec Ideal S1x128 .f32) (x8 : Vec Ideal S1x4 .f32)
    (x9 : Vec Ideal S1x4 .f32) (x10 : Vec Ideal S2048x1024 .bf16) (x11 : Vec Ideal S200x1024 .bf16) (x12 : Vec Ideal S128x1024 .bf16)
    (x13 : Vec Ideal S1x1024 .f32) :
    out0_14 (F := Ideal) x0 x1 x2 x3 x4 x5 x6 x7 x8 x9 x10 x11 x12 x13
      = Cert.Spec.projW 400 x0 x1 x2 x3 x4 x5 x6 x7 x8 x9 x10 x11 x12 x13 := by
  funext j
  obtain ⟨p, q, rfl⟩ : ∃ (p : Fin 400) (q : Fin 1024), j = ix2 p q := ⟨j 0, j 1, eq_ix2 j⟩
  unfold out0_14
  rw [View.canon_unit_zero hz2]
  simp only [View.ld_unit_zero (S := S400x36) hz2, View.ld_unit_zero (S := S36x200) hz2, View.ld_unit_zero (S := S400x4) hz2,
    View.ld_unit_zero (S := S1x4) hz2, View.ld_unit_zero (S := S4x128) hz2, View.ld_unit_zero (S := S1x128) hz2,
    View.ld_unit_zero (S := S400x2048) hz2, View.ld_unit_zero (S := S2048x1024) hz2, View.ld_unit_zero (S := S200x1024) hz2,
    View.ld_unit_zero (S := S128x1024) hz2, View.ld_unit_zero (S := S1x1024) hz2]
  rw [pay1_apply, Cert.Spec.projW_apply]
  unfold Cert.Spec.projAt
  simp only [pay2_apply, pay3_apply]

section Region

variable (V : (c : Dev nD) → (b : Ref sig .tc) → Buf (Elt Ideal) ((c : Thread nD τ).loc b))

/-- The fourteen arrays the region is entered with, each under its literal type. -/
abbrev distArr (c : Dev nD) : FVec Ideal S50000x36 .f32 := V c (Pipeline.arrRef spec0 0)
abbrev boxArr (c : Dev nD) : FVec Ideal S50000x4 .f32 := V c (Pipeline.arrRef spec0 1)
abbrev featArr (c : Dev nD) : FVec Ideal S50000x2048 .f32 := V c (Pipeline.arrRef spec0 2)
abbrev embTab (c : Dev nD) : FVec Ideal S36x200 .bf16 := V c (Pipeline.arrRef spec0 3)
abbrev posScale (c : Dev nD) : FVec Ideal S1x4 .f32 := V c (Pipeline.arrRef spec0 4)
abbrev posShift (c : Dev nD) : FVec Ideal S1x4 .f32 := V c (Pipeline.arrRef spec0 5)
abbrev posW (c : Dev nD) : FVec Ideal S4x128 .bf16 := V c (Pipeline.arrRef spec0 6)
abbrev posB (c : Dev nD) : FVec Ideal S1x128 .f32 := V c (Pipeline.arrRef spec0 7)
abbrev posMean (c : Dev nD) : FVec Ideal S1x4 .f32 := V c (Pipeline.arrRef spec0 8)
abbrev posVar (c : Dev nD) : FVec Ideal S1x4 .f32 := V c (Pipeline.arrRef spec0 9)
abbrev band1 (c : Dev nD) : FVec Ideal S2048x1024 .bf16 := V c (Pipeline.arrRef spec0 10)
abbrev band2 (c : Dev nD) : FVec Ideal S200x1024 .bf16 := V c (Pipeline.arrRef spec0 11)
abbrev band3 (c : Dev nD) : FVec Ideal S128x1024 .bf16 := V c (Pipeline.arrRef spec0 12)
abbrev hidB (c : Dev nD) : FVec Ideal S1x1024 .f32 := V c (Pipeline.arrRef spec0 13)

/-- Stage one of Spec on all 50000 rows of those arrays. -/
abbrev preacts (c : Dev nD) : FVec Ideal S50000x1024 .f32 :=
  Cert.Spec.projW 50000 (distArr V c) (boxArr V c) (featArr V c) (embTab V c) (posScale V c) (posShift V c) (posW V c) (posB V c) (posMean V c) (posVar V c) (band1 V c) (band2 V c) (band3 V c) (hidB V c)

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = 0 ∧ win0_6.index t (1 : Fin 2) = 0 :=
  (by decide +kernel : ∀ t : Fin grid0.N, _)

theorem idx0_7 : ∀ t : Fin cfg0.N, win0_7.index t (0 : Fin 2) = 0 ∧ win0_7.index t (1 : Fin 2) = 0 :=
  (by decide +kernel : ∀ t : Fin grid0.N, _)

theorem idx0_8 : ∀ t : Fin cfg0.N, win0_8.index t (0 : Fin 2) = 0 ∧ win0_8.index t (1 : Fin 2) = 0 :=
  (by decide +kernel : ∀ t : Fin grid0.N, _)

theorem idx0_9 : ∀ t : Fin cfg0.N, win0_9.index t (0 : Fin 2) = 0 ∧ win0_9.index t (1 : Fin 2) = 0 :=
  (by decide +kernel : ∀ t : Fin grid0.N, _)

theorem idx0_10 : ∀ t : Fin cfg0.N, win0_10.index t (0 : Fin 2) = 0 ∧ win0_10.index t (1 : Fin 2) = 0 :=
  (by decide +kernel : ∀ t : Fin grid0.N, _)

theorem idx0_11 : ∀ t : Fin cfg0.N, win0_11.index t (0 : Fin 2) = 0 ∧ win0_11.index t (1 : Fin 2) = 0 :=
  (by decide +kernel : ∀ t : Fin grid0.N, _)

theorem idx0_12 : ∀ t : Fin cfg0.N, win0_12.index t (0 : Fin 2) = 0 ∧ win0_12.index t (1 : Fin 2) = 0 :=
  (by decide +kernel : ∀ t : Fin grid0.N, _)

theorem idx0_13 : ∀ t : Fin cfg0.N, win0_13.index t (0 : Fin 2) = 0 ∧ win0_13.index t (1 : Fin 2) = 0 :=
  (by decide +kernel : ∀ t : Fin grid0.N, _)

theorem idx0_14 : ∀ t : Fin cfg0.N, win0_14.index t (0 : Fin 2) = t.val ∧ win0_14.index t (1 : Fin 2) = 0 :=
  (by decide +kernel : ∀ t : Fin grid0.N, _)

/-- Row p of window 0's block at point t is row 400·t + p of its array. -/
theorem rows0_apply (c : Dev nD) (t : Fin cfg0.N) (p : Fin 400) (k : Fin 36) (r : Fin 50000) (hr : r.val = 400 * t.val + p.val) :
    (iblk0 V c 0 t : Vec Ideal S400x36 .f32) (ix2 p k) = distArr V c (ix2 r k) := by
  obtain ⟨e0, e1⟩ := idx0_0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 400 + 1 * p.val = r.val; rw [e0, hr]; omega
  | ⟨1, _⟩ => show win0_0.index t (1 : Fin 2) * 36 + 1 * k.val = k.val; rw [e1]; omega

/-- Row p of window 1's block at point t is row 400·t + p of its array. -/
theorem rows1_apply (c : Dev nD) (t : Fin cfg0.N) (p : Fin 400) (k : Fin 4) (r : Fin 50000) (hr : r.val = 400 * t.val + p.val) :
    (iblk0 V c 1 t : Vec Ideal S400x4 .f32) (ix2 p k) = boxArr V c (ix2 r k) := by
  obtain ⟨e0, e1⟩ := idx0_1 t
  show V c (Pipeline.arrRef spec0 1) (((cfg0.win 1).blk t).view.emb (ix2 p k)) = V c (Pipeline.arrRef spec0 1) (ix2 r k)
  refine congrArg _ (funext fun a => Fin.ext ?_)
  match a with
  | ⟨0, _⟩ => show win0_1.index t (0 : Fin 2) * 400 + 1 * p.val = r.val; rw [e0, hr]; omega
  | ⟨1, _⟩ => show win0_1.index t (1 : Fin 2) * 4 + 1 * k.val = k.val; rw [e1]; omega

/-- Row p of window 2's block at point t is row 400·t + p of its array. -/
theorem rows2_apply (c : Dev nD) (t : Fin cfg0.N) (p : Fin 400) (k : Fin 2048) (r : Fin 50000) (hr : r.val = 400 * t.val + p.val) :
    (iblk0 V c 2 t : Vec Ideal S400x2048 .f32) (ix2 p k) = featArr V c (ix2 r k) := by
  obtain ⟨e0, e1⟩ := idx0_2 t
  show V c (Pipeline.arrRef spec0 2) (((cfg0.win 2).blk t).view.emb (ix2 p k)) = V c (Pipeline.arrRef spec0 2) (ix2 r k)
  refine congrArg _ (funext fun a => Fin.ext ?_)
  match a with
  | ⟨0, _⟩ => show win0_2.index t (0 : Fin 2) * 400 + 1 * p.val = r.val; rw [e0, hr]; omega
  | ⟨1, _⟩ => show win0_2.index t (1 : Fin 2) * 2048 + 1 * k.val = k.val; rw [e1]; omega

/-- Window 3 (the embedding table) is whole at every point: its block is the array. -/
theorem whole3_eq (c : Dev nD) (t : Fin cfg0.N) : (iblk0 V c 3 t : Vec Ideal S36x200 .bf16) = embTab V c := by
  obtain ⟨e0, e1⟩ := idx0_3 t
  funext j
  show V c (Pipeline.arrRef spec0 3) (((cfg0.win 3).blk t).view.emb j) = V c (Pipeline.arrRef spec0 3) j
  refine congrArg _ (funext fun a => Fin.ext ?_)
  match a with
  | ⟨0, _⟩ => show win0_3.index t (0 : Fin 2) * 36 + 1 * (j 0).val = (j 0).val; rw [e0]; omega
  | ⟨1, _⟩ => show win0_3.index t (1 : Fin 2) * 200 + 1 * (j 1).val = (j 1).val; rw [e1]; omega

/-- Window 4 (the geometry's scale row) is whole at every point: its block is the array. -/
theorem whole4_eq (c : Dev nD) (t : Fin cfg0.N) : (iblk0 V c 4 t : Vec Ideal S1x4 .f32) = posScale V c := by
  obtain ⟨e0, e1⟩ := idx0_4 t
  funext j
  show V c (Pipeline.arrRef spec0 4) (((cfg0.win 4).blk t).view.emb j) = V c (Pipeline.arrRef spec0 4) j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 4 + 1 * (j 1).val = (j 1).val; rw [e1]; omega

/-- Window 5 (the geometry's shift row) is whole at every point: its block is the array. -/
theorem whole5_eq (c : Dev nD) (t : Fin cfg0.N) : (iblk0 V c 5 t : Vec Ideal S1x4 .f32) = posShift V c := by
  obtain ⟨e0, e1⟩ := idx0_5 t
  funext j
  show V c (Pipeline.arrRef spec0 5) (((cfg0.win 5).blk t).view.emb j) = V c (Pipeline.arrRef spec0 5) j
  refine congrArg _ (funext fun a => Fin.ext ?_)
  match a with
  | ⟨0, _⟩ => show win0_5.index t (0 : Fin 2) * 1 + 1 * (j 0).val = (j 0).val; rw [e0]; omega
  | ⟨1, _⟩ => show win0_5.index t (1 : Fin 2) * 4 + 1 * (j 1).val = (j 1).val; rw [e1]; omega

/-- Window 6 (the geometry layer's weights) is whole at every point: its block is the array. -/
theorem whole6_eq (c : Dev nD) (t : Fin cfg0.N) : (iblk0 V c 6 t : Vec Ideal S4x128 .bf16) = posW V c := by
  obtain ⟨e0, e1⟩ := idx0_6 t
  funext j
  show V c (Pipeline.arrRef spec0 6) (((cfg0.win 6).blk t).view.emb j) = V c (Pipeline.arrRef spec0 6) j
  refine congrArg _ (funext fun a => Fin.ext ?_)
  match a with
  | ⟨0, _⟩ => show win0_6.index t (0 : Fin 2) * 4 + 1 * (j 0).val = (j 0).val; rw [e0]; omega
  | ⟨1, _⟩ => show win0_6.index t (1 : Fin 2) * 128 + 1 * (j 1).val = (j 1).val; rw [e1]; omega

/-- Window 7 (the geometry layer's bias row) is whole at every point: its block is the array. -/
theorem whole7_eq (c : Dev nD) (t : Fin cfg0.N) : (iblk0 V c 7 t : Vec Ideal S1x128 .f32) = posB V c := by
  obtain ⟨e0, e1⟩ := idx0_7 t
  funext j
  show V c (Pipeline.arrRef spec0 7) (((cfg0.win 7).blk t).view.emb j) = V c (Pipeline.arrRef spec0 7) j
  refine congrArg _ (funext fun a => Fin.ext ?_)
  match a with
  | ⟨0, _⟩ => show win0_7.index t (0 : Fin 2) * 1 + 1 * (j 0).val = (j 0).val; rw [e0]; omega
  | ⟨1, _⟩ => show win0_7.index t (1 : Fin 2) * 128 + 1 * (j 1).val = (j 1).val; rw [e1]; omega

/-- Window 8 (the geometry's column means) is whole at every point: its block is the array. -/
theorem whole8_eq (c : Dev nD) (t : Fin cfg0.N) : (iblk0 V c 8 t : Vec Ideal S1x4 .f32) = posMean V c := by
  obtain ⟨e0, e1⟩ := idx0_8 t
  funext j
  show V c (Pipeline.arrRef spec0 8) (((cfg0.win 8).blk t).view.emb j) = V c (Pipeline.arrRef spec0 8) j
  refine congrArg _ (funext fun a => Fin.ext ?_)
  match a with
  | ⟨0, _⟩ => show win0_8.index t (0 : Fin 2) * 1 + 1 * (j 0).val = (j 0).val; rw [e0]; omega
  | ⟨1, _⟩ => show win0_8.index t (1 : Fin 2) * 4 + 1 * (j 1).val = (j 1).val; rw [e1]; omega

/-- Window 9 (the geometry's column variances) is whole at every point: its block is the array. -/
theorem whole9_eq (c : Dev nD) (t : Fin cfg0.N) : (iblk0 V c 9 t : Vec Ideal S1x4 .f32) = posVar V c := by
  obtain ⟨e0, e1⟩ := idx0_9 t
  funext j
  show V c (Pipeline.arrRef spec0 9) (((cfg0.win 9).blk t).view.emb j) = V c (Pipeline.arrRef spec0 9) j
  refine congrArg _ (funext fun a => Fin.ext ?_)
  match a with
  | ⟨0, _⟩ => show win0_9.index t (0 : Fin 2) * 1 + 1 * (j 0).val = (j 0).val; rw [e0]; omega
  | ⟨1, _⟩ => show win0_9.index t (1 : Fin 2) * 4 + 1 * (j 1).val = (j 1).val; rw [e1]; omega

/-- Window 10 (the first row band of the hidden weights) is whole at every point: its block is the array. -/
theorem whole10_eq (c : Dev nD) (t : Fin cfg0.N) : (iblk0 V c 10 t : Vec Ideal S2048x1024 .bf16) = band1 V c := by
  obtain ⟨e0, e1⟩ := idx0_10 t
  funext j
  show V c (Pipeline.arrRef spec0 10) (((cfg0.win 10).blk t).view.emb j) = V c (Pipeline.arrRef spec0 10) j
  refine congrArg _ (funext fun a => Fin.ext ?_)
  match a with
  | ⟨0, _⟩ => show win0_10.index t (0 : Fin 2) * 2048 + 1 * (j 0).val = (j 0).val; rw [e0]; omega
  | ⟨1, _⟩ => show win0_10.index t (1 : Fin 2) * 1024 + 1 * (j 1).val = (j 1).val; rw [e1]; omega

/-- Window 11 (the second row band of the hidden weights) is whole at every point: its block is the array. -/
theorem whole11_eq (c : Dev nD) (t : Fin cfg0.N) : (iblk0 V c 11 t : Vec Ideal S200x1024 .bf16) = band2 V c := by
  obtain ⟨e0, e1⟩ := idx0_11 t
  funext j
  show V c (Pipeline.arrRef spec0 11) (((cfg0.win 11).blk t).view.emb j) = V c (Pipeline.arrRef spec0 11) j
  refine congrArg _ (funext fun a => Fin.ext ?_)
  match a with
  | ⟨0, _⟩ => show win0_11.index t (0 : Fin 2) * 200 + 1 * (j 0).val = (j 0).val; rw [e0]; omega
  | ⟨1, _⟩ => show win0_11.index t (1 : Fin 2) * 1024 + 1 * (j 1).val = (j 1).val; rw [e1]; omega

/-- Window 12 (the third row band of the hidden weights) is whole at every point: its block is the array. -/
theorem whole12_eq (c : Dev nD) (t : Fin cfg0.N) : (iblk0 V c 12 t : Vec Ideal S128x1024 .bf16) = band3 V c := by
  obtain ⟨e0, e1⟩ := idx0_12 t
  funext j
  show V c (Pipeline.arrRef spec0 12) (((cfg0.win 12).blk t).view.emb j) = V c (Pipeline.arrRef spec0 12) j
  refine congrArg _ (funext fun a => Fin.ext ?_)
  match a with
  | ⟨0, _⟩ => show win0_12.index t (0 : Fin 2) * 128 + 1 * (j 0).val = (j 0).val; rw [e0]; omega
  | ⟨1, _⟩ => show win0_12.index t (1 : Fin 2) * 1024 + 1 * (j 1).val = (j 1).val; rw [e1]; omega

/-- Window 13 (the hidden layer's bias row) is whole at every point: its block is the array. -/
theorem whole13_eq (c : Dev nD) (t : Fin cfg0.N) : (iblk0 V c 13 t : Vec Ideal S1x1024 .f32) = hidB V c := by
  obtain ⟨e0, e1⟩ := idx0_13 t
  funext j
  show V c (Pipeline.arrRef spec0 13) (((cfg0.win 13).blk t).view.emb j) = V c (Pipeline.arrRef spec0 13) j
  refine congrArg _ (funext fun a => Fin.ext ?_)
  match a with
  | ⟨0, _⟩ => show win0_13.index t (0 : Fin 2) * 1 + 1 * (j 0).val = (j 0).val; rw [e0]; omega
  | ⟨1, _⟩ => show win0_13.index t (1 : Fin 2) * 1024 + 1 * (j 1).val = (j 1).val; rw [e1]; omega

/-- Entry (p, q) of the output's block at point t sits at entry (400·t + p, q) of the output array. -/
theorem out_block_emb (t : Fin cfg0.N) (p : Fin 400) (q : Fin 1024) (r : Fin 50000) (hr : r.val = 400 * t.val + p.val) :
    ((cfg0.win 14).blk t).view.emb (ix2 p q) = (ix2 r q : S50000x1024.Idx) := by
  obtain ⟨e0, e1⟩ := idx0_14 t
  refine funext fun a => Fin.ext ?_
  match a with
  | ⟨0, _⟩ => show win0_14.index t (0 : Fin 2) * 400 + 1 * p.val = r.val; rw [e0, hr]; omega
  | ⟨1, _⟩ => show win0_14.index t (1 : Fin 2) * 1024 + 1 * q.val = q.val; rw [e1]; omega

/-- What point t writes back is block t of `preacts`. -/
theorem written_block_eq (c : Dev nD) (t : Fin cfg0.N) :
    (dat0 V c).flushed 14 t = ((cfg0.win 14).blk t).view.read (Elt Ideal) (preacts V c) := by
  show (cfg0.win 14).cut (grid0.coords t) ((dat0 V c).after 14 t) = _
  rw [after0_14, out0_14_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t),
    whole3_eq V c t, whole4_eq V c t, whole5_eq V c t, whole6_eq V c t, whole7_eq V c t, whole8_eq V c t, whole9_eq V c t, whole10_eq V c t, whole11_eq V c t, whole12_eq V c t, whole13_eq V c t]
  funext j
  obtain ⟨p, q, rfl⟩ : ∃ (p : Fin 400) (q : Fin 1024), j = ix2 p q := ⟨j 0, j 1, eq_ix2 j⟩
  have ht : t.val < 125 := lt_of_lt_of_eq t.isLt N_0
  have hr : 400 * t.val + p.val < 50000 := by omega
  rw [View.read_apply, out_block_emb t p q ⟨_, hr⟩ rfl]
  show Cert.Spec.projAt (iblk0 V c 0 t : Vec Ideal S400x36 .f32) (iblk0 V c 1 t : Vec Ideal S400x4 .f32) (iblk0 V c 2 t : Vec Ideal S400x2048 .f32)
      (embTab V c) (posScale V c) (posShift V c) (posW V c) (posB V c) (posMean V c) (posVar V c) (band1 V c) (band2 V c) (band3 V c) (hidB V c) p q
    = Cert.Spec.projAt (distArr V c) (boxArr V c) (featArr V c) (embTab V c) (posScale V c) (posShift V c) (posW V c) (posB V c) (posMean V c) (posVar V c) (band1 V c) (band2 V c) (band3 V c) (hidB V c) ⟨_, hr⟩ q
  exact Cert.Spec.projAt_rows (iblk0 V c 0 t : Vec Ideal S400x36 .f32) (iblk0 V c 1 t : Vec Ideal S400x4 .f32) (iblk0 V c 2 t : Vec Ideal S400x2048 .f32)
    (distArr V c) (boxArr V c) (featArr V c) (embTab V c) (posScale V c) (posShift V c) (posW V c) (posB V c) (posMean V c) (posVar V c) (band1 V c) (band2 V c) (band3 V c) (hidB V c) p ⟨_, hr⟩ q
    (fun l => rows0_apply V c t p l ⟨_, hr⟩ rfl) (fun l => rows1_apply V c t p l ⟨_, hr⟩ rfl) (fun k => rows2_apply V c t p k ⟨_, hr⟩ rfl)

/-- An index of the output array is in point t's block iff each coordinate is in the block's range on its axis. -/
theorem mem_out_block (t : Fin cfg0.N) (i : S50000x1024.Idx) :
    i ∈ ((cfg0.win 14).blk t).view.set ↔ ∀ a : Fin 2, win0_14.index t a * S400x1024.size a ≤ (i a).val ∧ (i a).val < win0_14.index t a * S400x1024.size a + S400x1024.size a := by
  show i ∈ ((View.whole main_v29).slice (win0_14.rect t)).set ↔ _
  rw [View.set_slice_whole, Rect.mem_set_unit]
  exact Iff.rfl

/-- The 125 blocks of 400 rows tile the 50000 rows: row r is in the block of point r / 400, and every point writes back. -/
theorem out_blocks_cover (i : S50000x1024.Idx) : ∃ t : Fin cfg0.N, (cfg0.win 14).flush t = true ∧ i ∈ ((cfg0.win 14).blk t).view.set := by
  have hi0 : (i 0).val < 50000 := (i 0).isLt
  have hi1 : (i 1).val < 1024 := (i 1).isLt
  have hlt : (i 0).val / 400 < cfg0.N := by rw [show cfg0.N = 125 from N_0]; omega
  obtain ⟨t, ht⟩ : ∃ t : Fin cfg0.N, t.val = (i 0).val / 400 := ⟨⟨_, hlt⟩, rfl⟩
  refine ⟨t, flush0_14 t, ?_⟩
  rw [mem_out_block]
  obtain ⟨e0, e1⟩ := idx0_14 t
  intro a
  match a with
  | ⟨0, _⟩ => show win0_14.index t (0 : Fin 2) * 400 ≤ (i 0).val ∧ (i 0).val < win0_14.index t (0 : Fin 2) * 400 + 400; rw [e0, ht]; omega
  | ⟨1, _⟩ => show win0_14.index t (1 : Fin 2) * 1024 ≤ (i 1).val ∧ (i 1).val < win0_14.index t (1 : Fin 2) * 1024 + 1024; rw [e1]; omega

end Region

/-- The output array after the region, as a function of the arrays the region was entered with. -/
theorem arr0_14 (V : (c : Dev nD) → (b : Ref sig .tc) → Buf (Elt Ideal) ((c : Thread nD τ).loc b)) (c : Dev nD) :
    (dat0 (F := Ideal) V c).arrAt 14 cfg0.N
      = Cert.Spec.projW 50000 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6))
          (V c (Pipeline.arrRef spec0 7)) (V c (Pipeline.arrRef spec0 8)) (V c (Pipeline.arrRef spec0 9)) (V c (Pipeline.arrRef spec0 10))
          (V c (Pipeline.arrRef spec0 11)) (V c (Pipeline.arrRef spec0 12)) (V c (Pipeline.arrRef spec0 13)) := by
  exact (dat0 V c).arrAt_eq_of_cover 14 (preacts V c) (fun t _ => written_block_eq V c t) out_blocks_cover

end Cert.KernelIdeal.KVal0

end
-- ==== Proof.K1.lean ====
/-
  The second kernel region, read as values on the extended reals.
  (1) One grid point: what the body stores into the output block is stage two of Spec on the point's 2000 rows.
  (2) The whole region: grid point t handles rows 2000·t .. 2000·t+1999 of the hidden pre-activation and of the output
      (25 row blocks; every other operand is whole at every point), stage two sees only row r of the pre-activation, and
      the 25 output blocks tile the output array: so the output array after the region is stage two of Spec on all 50000
      rows of the arrays the region was entered with.
-/
import proofs.«154883_j74363063763324_1_alg».proof.Proof.Gen.KernelIdeal.Frame
import proofs.«154883_j74363063763324_1_alg».proof.Proof.Spec
import proofs.«154883_j74363063763324_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The offsets of a whole-block access are zero on both axes. -/
theorem hz : (![0, 0] : Fin 2 → Nat) = fun _ => 0 := funext fun a => by fin_cases a <;> rfl

/-- One row broadcast over the block's 2000 rows reads, at row p and column k, the row's entry at column k. -/
theorem bcast_row (v : Vec Ideal S1x1024 .f32) (p : Fin 2000) (k : Fin 1024) :
    broadcastTo S2000x1024 v broadcasts_S1x1024_S2000x1024 (ix2 p k) = v (ix2 (0 : Fin 1) k) :=
  broadcastTo_1b_ab_apply v broadcasts_S1x1024_S2000x1024 p k

/-- The left operand of the body's product at row p and column k is the hidden unit h[p,k] of Spec: every operation
    before the product is pointwise or a row broadcast, so the entry depends on row p of the pre-activation and on
    column k of the four statistics rows only; rounding to the product's operand type is the identity on the
    extended reals. -/
theorem hidden_apply (v0 : Vec Ideal S2000x1024 .f32) (v2 v6 v13 v17 : Vec Ideal S1x1024 .f32) (p : Fin 2000) (k : Fin 1024) :
    (truncf FTy.bf16
          (maximumf
            (addf
              (mulf
                (mulf
                  (subf (shapeCast S2000x1024 v0 shapeCasts_S2000x1024_S2000x1024)
                    (broadcastTo S2000x1024 (shapeCast S1x1024 v2 shapeCasts_S1x1024_S1x1024)
                      broadcasts_S1x1024_S2000x1024))
                  (broadcastTo S2000x1024
                    (rsqrt
                      (addf (shapeCast S1x1024 v6 shapeCasts_S1x1024_S1x1024)
                        (broadcast S1x1024 (Scalar.ofBits (F := Ideal) FTy.f32 0x3727C5AC#32))))
                    broadcasts_S1x1024_S2000x1024))
                (broadcastTo S2000x1024 (shapeCast S1x1024 v13 shapeCasts_S1x1024_S1x1024)
                  broadcasts_S1x1024_S2000x1024))
              (broadcastTo S2000x1024 (shapeCast S1x1024 v17 shapeCasts_S1x1024_S1x1024) broadcasts_S1x1024_S2000x1024))
            (broadcast S2000x1024 (Scalar.ofBits (F := Ideal) FTy.f32 0x00000000#32)))
          bitsLt_bf16_f32 : FVec Ideal S2000x1024 .bf16) (ix2 p k)
      = Cert.Spec.hidden v0 v2 v6 v13 v17 p k := by
  rw [shapeCast_self, shapeCast_self, shapeCast_self, shapeCast_self, shapeCast_self]
  show max ((((v0 (ix2 p k) - broadcastTo S2000x1024 v2 broadcasts_S1x1024_S2000x1024 (ix2 p k))
        * broadcastTo S2000x1024 (rsqrt (addf v6 (broadcast S1x1024 (Scalar.ofBits (F := Ideal) FTy.f32 0x3727C5AC#32)))) broadcasts_S1x1024_S2000x1024 (ix2 p k))
        * broadcastTo S2000x1024 v13 broadcasts_S1x1024_S2000x1024 (ix2 p k))
        + broadcastTo S2000x1024 v17 broadcasts_S1x1024_S2000x1024 (ix2 p k)) (Ideal.ofBits .f32 0x00000000#32) = _
  rw [bcast_row, bcast_row, bcast_row, bcast_row]
  rfl

/-- The body's stored value at row p and class q is the class score of Spec: the product into the zero accumulator
    is the sum over the 1024 hidden columns of h[p,k]·Wd[k,q], and the bias row is broadcast over the rows. -/
theorem pay_apply (v0 : Vec Ideal S2000x1024 .f32) (v2 v6 v13 v17 : Vec Ideal S1x1024 .f32) (v24 : Vec Ideal S1024x37 .bf16)
    (v27 : Vec Ideal S1x37 .f32) (p : Fin 2000) (q : Fin 37) :
    k1_pay1 (F := Ideal) v0 v2 v6 v13 v17 v24 v27 (ix2 p q) = Cert.Spec.decAt v0 v2 v6 v13 v17 v24 v27 p q := by
  unfold k1_pay1
  unfold Cert.Spec.decAt
  refine congrArg₂ (· + ·) ?_ ?_
  · refine (Cert.LibPlainDot.matmul_zero_apply dot_S2000x1024_S1024x37_S2000x37_1_0_0_1_n_n rfl rfl rfl rfl rfl rfl none _ _ p q).trans ?_
    refine Finset.sum_congr rfl fun k _ => ?_
    refine congrArg₂ (· * ·) (hidden_apply v0 v2 v6 v13 v17 p k) ?_
    rw [shapeCast_self]
  · rw [shapeCast_self]
    exact broadcastTo_1b_ab_apply v27 broadcasts_S1x37_S2000x37 p q

/-- The output block a grid point stores, as a function of the point's input blocks. -/
theorem out1_7_eq (x0 : Vec Ideal S2000x1024 .f32) (x1 : Vec Ideal S1x1024 .f32) (x2 : Vec Ideal S1x1024 .f32) (x3 : Vec Ideal S1x1024 .f32)
    (x4 : Vec Ideal S1x1024 .f32) (x5 : Vec Ideal S1024x37 .bf16) (x6 : Vec Ideal S1x37 .f32) :
    out1_7 (F := Ideal) x0 x1 x2 x3 x4 x5 x6 = Cert.Spec.bnDecW 2000 x0 x1 x2 x3 x4 x5 x6 := by
  funext j
  obtain ⟨p, q, rfl⟩ : ∃ (p : Fin 2000) (q : Fin 37), j = ix2 p q := ⟨j 0, j 1, eq_ix2 j⟩
  unfold out1_7
  rw [View.canon_unit_zero hz]
  simp only [View.ld_unit_zero (S := S2000x1024) hz, View.ld_unit_zero (S := S1x1024) hz, View.ld_unit_zero (S := S1024x37) hz,
    View.ld_unit_zero (S := S1x37) hz]
  exact (pay_apply x0 x1 x2 x3 x4 x5 x6 p q).trans (Cert.Spec.bnDecW_apply x0 x1 x2 x3 x4 x5 x6 p q).symm

/-- The block indices over the 25 grid points: the pre-activation's window and the output's window sit at row block t
    and column block 0; the six other windows sit at block (0, 0) at every point. -/
theorem block_index : ∀ t : Fin cfg1.N,
      win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

section Region

variable (V : (c : Dev nD) → (b : Ref sig .tc) → Buf (Elt Ideal) ((c : Thread nD τ).loc b))

/-- The seven arrays the region is entered with, each under its literal type: the hidden pre-activation, the four
    rows of column statistics and scale and shift, the decoder's weight matrix and its bias row. -/
abbrev preact (c : Dev nD) : FVec Ideal S50000x1024 .f32 := V c (Pipeline.arrRef spec1 0)
abbrev meanRow (c : Dev nD) : FVec Ideal S1x1024 .f32 := V c (Pipeline.arrRef spec1 1)
abbrev varRow (c : Dev nD) : FVec Ideal S1x1024 .f32 := V c (Pipeline.arrRef spec1 2)
abbrev scaleRow (c : Dev nD) : FVec Ideal S1x1024 .f32 := V c (Pipeline.arrRef spec1 3)
abbrev shiftRow (c : Dev nD) : FVec Ideal S1x1024 .f32 := V c (Pipeline.arrRef spec1 4)
abbrev decW (c : Dev nD) : FVec Ideal S1024x37 .bf16 := V c (Pipeline.arrRef spec1 5)
abbrev decB (c : Dev nD) : FVec Ideal S1x37 .f32 := V c (Pipeline.arrRef spec1 6)

/-- Stage two of Spec on all 50000 rows of those arrays. -/
abbrev scores (c : Dev nD) : FVec Ideal S50000x37 .f32 :=
  Cert.Spec.bnDecW 50000 (preact V c) (meanRow V c) (varRow V c) (scaleRow V c) (shiftRow V c) (decW V c) (decB V c)

/-- Row p of the pre-activation's block at point t is row 2000·t + p of the array: a block's coordinate in the array
    is the block index times the block's extent plus the coordinate inside the block. -/
theorem preact_block_apply (c : Dev nD) (t : Fin cfg1.N) (p : Fin 2000) (k : Fin 1024) (r : Fin 50000) (hr : r.val = 2000 * t.val + p.val) :
    (iblk1 V c 0 t : Vec Ideal S2000x1024 .f32) (ix2 p k) = preact V c (ix2 r k) := by
  obtain ⟨e0, e1, -⟩ := block_index t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 1024 + 1 * k.val = k.val; rw [e1]; omega

/-- Window 1 (the column means) is whole at every point: its block is the array. -/
theorem whole1_eq (c : Dev nD) (t : Fin cfg1.N) : (iblk1 V c 1 t : Vec Ideal S1x1024 .f32) = meanRow V c := by
  obtain ⟨-, -, -, -, e0, e1, -⟩ := block_index t
  funext j
  show V c (Pipeline.arrRef spec1 1) (((cfg1.win 1).blk t).view.emb j) = V c (Pipeline.arrRef spec1 1) j
  refine congrArg _ (funext fun a => Fin.ext ?_)
  match a with
  | ⟨0, _⟩ => show win1_1.index t (0 : Fin 2) * 1 + 1 * (j 0).val = (j 0).val; rw [e0]; omega
  | ⟨1, _⟩ => show win1_1.index t (1 : Fin 2) * 1024 + 1 * (j 1).val = (j 1).val; rw [e1]; omega

/-- Window 2 (the column variances) is whole at every point: its block is the array. -/
theorem whole2_eq (c : Dev nD) (t : Fin cfg1.N) : (iblk1 V c 2 t : Vec Ideal S1x1024 .f32) = varRow V c := by
  obtain ⟨-, -, -, -, -, -, e0, e1, -⟩ := block_index t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 2) * 1 + 1 * (j 0).val = (j 0).val; rw [e0]; omega
  | ⟨1, _⟩ => show win1_2.index t (1 : Fin 2) * 1024 + 1 * (j 1).val = (j 1).val; rw [e1]; omega

/-- Window 3 (the scale row) is whole at every point: its block is the array. -/
theorem whole3_eq (c : Dev nD) (t : Fin cfg1.N) : (iblk1 V c 3 t : Vec Ideal S1x1024 .f32) = scaleRow V c := by
  obtain ⟨-, -, -, -, -, -, -, -, e0, e1, -⟩ := block_index t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * 1 + 1 * (j 0).val = (j 0).val; rw [e0]; omega
  | ⟨1, _⟩ => show win1_3.index t (1 : Fin 2) * 1024 + 1 * (j 1).val = (j 1).val; rw [e1]; omega

/-- Window 4 (the shift row) is whole at every point: its block is the array. -/
theorem whole4_eq (c : Dev nD) (t : Fin cfg1.N) : (iblk1 V c 4 t : Vec Ideal S1x1024 .f32) = shiftRow V c := by
  obtain ⟨-, -, -, -, -, -, -, -, -, -, e0, e1, -⟩ := block_index t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 2) * 1 + 1 * (j 0).val = (j 0).val; rw [e0]; omega
  | ⟨1, _⟩ => show win1_4.index t (1 : Fin 2) * 1024 + 1 * (j 1).val = (j 1).val; rw [e1]; omega

/-- Window 5 (the decoder's weights) is whole at every point: its block is the array. -/
theorem whole5_eq (c : Dev nD) (t : Fin cfg1.N) : (iblk1 V c 5 t : Vec Ideal S1024x37 .bf16) = decW V c := by
  obtain ⟨-, -, -, -, -, -, -, -, -, -, -, -, e0, e1, -⟩ := block_index t
  funext j
  show V c (Pipeline.arrRef spec1 5) (((cfg1.win 5).blk t).view.emb j) = V c (Pipeline.arrRef spec1 5) j
  refine congrArg _ (funext fun a => Fin.ext ?_)
  match a with
  | ⟨0, _⟩ => show win1_5.index t (0 : Fin 2) * 1024 + 1 * (j 0).val = (j 0).val; rw [e0]; omega
  | ⟨1, _⟩ => show win1_5.index t (1 : Fin 2) * 37 + 1 * (j 1).val = (j 1).val; rw [e1]; omega

/-- Window 6 (the decoder's bias row) is whole at every point: its block is the array. -/
theorem whole6_eq (c : Dev nD) (t : Fin cfg1.N) : (iblk1 V c 6 t : Vec Ideal S1x37 .f32) = decB V c := by
  obtain ⟨-, -, -, -, -, -, -, -, -, -, -, -, -, -, e0, e1⟩ := block_index t
  funext j
  show V c (Pipeline.arrRef spec1 6) (((cfg1.win 6).blk t).view.emb j) = V c (Pipeline.arrRef spec1 6) j
  refine congrArg _ (funext fun a => Fin.ext ?_)
  match a with
  | ⟨0, _⟩ => show win1_6.index t (0 : Fin 2) * 1 + 1 * (j 0).val = (j 0).val; rw [e0]; omega
  | ⟨1, _⟩ => show win1_6.index t (1 : Fin 2) * 37 + 1 * (j 1).val = (j 1).val; rw [e1]; omega

/-- Entry (p, q) of the output's block at point t sits at entry (2000·t + p, q) of the output array. -/
theorem out_block_emb (t : Fin cfg1.N) (p : Fin 2000) (q : Fin 37) (r : Fin 50000) (hr : r.val = 2000 * t.val + p.val) :
    ((cfg1.win 7).blk t).view.emb (ix2 p q) = (ix2 r q : S50000x37.Idx) := by
  obtain ⟨-, -, e0, e1, -⟩ := block_index t
  refine funext fun a => Fin.ext ?_
  match a with
  | ⟨0, _⟩ => show win1_7.index t (0 : Fin 2) * 2000 + 1 * p.val = r.val; rw [e0, hr]; omega
  | ⟨1, _⟩ => show win1_7.index t (1 : Fin 2) * 37 + 1 * q.val = q.val; rw [e1]; omega

/-- What point t writes back is block t of `scores`: the stored block is stage two on the point's 2000 rows, the six
    whole operands are the arrays themselves, and stage two at row p of the block sees row 2000·t + p of the
    pre-activation only, which is where entry (p, q) of the block lands in the output array. -/
theorem written_block_eq (c : Dev nD) (t : Fin cfg1.N) :
    (dat1 V c).flushed 7 t = ((cfg1.win 7).blk t).view.read (Elt Ideal) (scores V c) := by
  show (cfg1.win 7).cut (grid1.coords t) ((dat1 V c).after 7 t) = _
  rw [after1_7, out1_7_eq (iblk1 V c 0 t) (iblk1 V c 1 t) (iblk1 V c 2 t) (iblk1 V c 3 t) (iblk1 V c 4 t) (iblk1 V c 5 t) (iblk1 V c 6 t),
    whole1_eq V c t, whole2_eq V c t, whole3_eq V c t, whole4_eq V c t, whole5_eq V c t, whole6_eq V c t]
  funext j
  obtain ⟨p, q, rfl⟩ : ∃ (p : Fin 2000) (q : Fin 37), j = ix2 p q := ⟨j 0, j 1, eq_ix2 j⟩
  have ht : t.val < 25 := lt_of_lt_of_eq t.isLt N_1
  have hr : 2000 * t.val + p.val < 50000 := by omega
  rw [View.read_apply, out_block_emb t p q ⟨_, hr⟩ rfl]
  show Cert.Spec.decAt (iblk1 V c 0 t : Vec Ideal S2000x1024 .f32) (meanRow V c) (varRow V c) (scaleRow V c) (shiftRow V c) (decW V c) (decB V c) p q
    = Cert.Spec.decAt (preact V c) (meanRow V c) (varRow V c) (scaleRow V c) (shiftRow V c) (decW V c) (decB V c) ⟨_, hr⟩ q
  exact Cert.Spec.decAt_rows (iblk1 V c 0 t : Vec Ideal S2000x1024 .f32) (preact V c) (meanRow V c) (varRow V c) (scaleRow V c) (shiftRow V c)
    (decW V c) (decB V c) p ⟨_, hr⟩ q (fun k => preact_block_apply V c t p k ⟨_, hr⟩ rfl)

/-- An index of the output array is in point t's block iff each coordinate is in the block's range on its axis. -/
theorem mem_out_block (t : Fin cfg1.N) (i : S50000x37.Idx) :
    i ∈ ((cfg1.win 7).blk t).view.set ↔ ∀ a : Fin 2, win1_7.index t a * S2000x37.size a ≤ (i a).val ∧ (i a).val < win1_7.index t a * S2000x37.size a + S2000x37.size a := by
  show i ∈ ((View.whole main_v35).slice (win1_7.rect t)).set ↔ _
  rw [View.set_slice_whole, Rect.mem_set_unit]
  exact Iff.rfl

/-- The 25 blocks of 2000 rows tile the 50000 rows: row r is in the block of point r / 2000, and every point writes back. -/
theorem out_blocks_cover (i : S50000x37.Idx) : ∃ t : Fin cfg1.N, (cfg1.win 7).flush t = true ∧ i ∈ ((cfg1.win 7).blk t).view.set := by
  have hi0 : (i 0).val < 50000 := (i 0).isLt
  have hi1 : (i 1).val < 37 := (i 1).isLt
  have hlt : (i 0).val / 2000 < cfg1.N := by rw [show cfg1.N = 25 from N_1]; omega
  obtain ⟨t, ht⟩ : ∃ t : Fin cfg1.N, t.val = (i 0).val / 2000 := ⟨⟨_, hlt⟩, rfl⟩
  refine ⟨t, flush1_7 t, ?_⟩
  rw [mem_out_block]
  obtain ⟨-, -, e0, e1, -⟩ := block_index t
  intro a
  match a with
  | ⟨0, _⟩ => show win1_7.index t (0 : Fin 2) * 2000 ≤ (i 0).val ∧ (i 0).val < win1_7.index t (0 : Fin 2) * 2000 + 2000; rw [e0, ht]; omega
  | ⟨1, _⟩ => show win1_7.index t (1 : Fin 2) * 37 ≤ (i 1).val ∧ (i 1).val < win1_7.index t (1 : Fin 2) * 37 + 37; rw [e1]; omega

end Region

/-- The output array after the region, as a function of the arrays the region was entered with. -/
theorem arr1_7 (V : (c : Dev nD) → (b : Ref sig .tc) → Buf (Elt Ideal) ((c : Thread nD τ).loc b)) (c : Dev nD) :
    (dat1 (F := Ideal) V c).arrAt 7 cfg1.N
      = Cert.Spec.bnDecW 50000 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (V c (Pipeline.arrRef spec1 6)) := by
  exact (dat1 V c).arrAt_eq_of_cover 7 (scores V c) (fun t _ => written_block_eq V c t) out_blocks_cover

end Cert.KernelIdeal.KVal1

end
-- ==== Proof.Model.lean ====
/-
  The whole model as ONE function of the fifteen argument arrays, on the extended reals.

  Both programs compute the same small host-side quantities with the same operations in the same order, so they are
  written here once, as operations on whole arrays that are never opened:
    * the box geometry P = [ (xy1 + xy2)·½ | xy2 − xy1 + 1 ] from the box table's last four columns;
    * for a 50000×C array x, its column mean  Σ_r x[r,·] / 50000  and its column variance
      Σ_r (x[r,·] − mean)² / (50000 − ddof)  with ddof = 0, guarded by the test 50000 − ddof > 0 as the
      numerical library writes it.
  Around them the two stages of Spec: U = stage one of the arguments with P's statistics, and the result = stage two
  of U with U's own statistics. The weight matrices enter as half-precision copies (the identity on the extended
  reals), the hidden layer's matrix as its three row bands, and the vectors as one-row arrays.
-/
import proofs.«154883_j74363063763324_1_alg».proof.Proof.Spec

noncomputable section

namespace Cert.Model

open Idealize.ShloMosaic Cert.Spec

abbrev S_ : Shape := ⟨0, ![]⟩
abbrev V1 (C : Nat) : Shape := ⟨1, ![C]⟩

theorem h_S_ : 0 < S_.numel := by decide
theorem bitsLt : FTy.bits .bf16 < FTy.bits .f32 := by decide

section Chains
variable {F : FTy → Type} [FloatOps F]

/-- The column mean of a 50000×C array: the column sums over the row count. -/
def colMean {C : Nat} (hr : (Rx 50000 C).ReducesTo [0] (V1 C))
    (hb1 : (V1 C).BroadcastsInDim (Rx 1 C) (![1] : Fin 1 → Fin (Rx 1 C).rank))
    (hb0 : S_.BroadcastsInDim (Rx 1 C) (![] : Fin 0 → Fin (Rx 1 C).rank))
    (x : FVec F (Rx 50000 C) .f32) : FVec F (Rx 1 C) .f32 :=
  Host.divf (broadcastInDim (Rx 1 C) ![1] hb1 (Host.reduceAdd x (constant S_ .f32 0x00000000#32) hr h_S_))
    (broadcastInDim (Rx 1 C) ![] hb0 (constant S_ .f32 0x47435000#32))

/-- The column variance of a 50000×C array: the column sums of the squared deviations from the column mean, over
    50000 − ddof (ddof = 0), where that divisor is positive; the numerical library's not-a-number word otherwise. -/
def colVar {C : Nat} (hr : (Rx 50000 C).ReducesTo [0] (V1 C))
    (hb1 : (V1 C).BroadcastsInDim (Rx 1 C) (![1] : Fin 1 → Fin (Rx 1 C).rank))
    (hb0 : S_.BroadcastsInDim (Rx 1 C) (![] : Fin 0 → Fin (Rx 1 C).rank))
    (hbN : (Rx 1 C).BroadcastsInDim (Rx 50000 C) (![0, 1] : Fin 2 → Fin (Rx 50000 C).rank))
    (x : FVec F (Rx 50000 C) .f32) : FVec F (Rx 1 C) .f32 :=
  select
    (broadcastInDim (Rx 1 C) ![] hb0
      (cmpf .ogt (subf (constant (F := F) S_ .f32 0x47435000#32) (sitofp .f32 (constantI S_ 32 0#32))) (constant (F := F) S_ .f32 0x00000000#32)))
    (Host.divf
      (broadcastInDim (Rx 1 C) ![1] hb1
        (Host.reduceAdd
          (mulf (subf x (broadcastInDim (Rx 50000 C) ![0, 1] hbN (colMean hr hb1 hb0 x)))
            (subf x (broadcastInDim (Rx 50000 C) ![0, 1] hbN (colMean hr hb1 hb0 x))))
          (constant S_ .f32 0x00000000#32) hr h_S_))
      (broadcastInDim (Rx 1 C) ![] hb0 (subf (constant S_ .f32 0x47435000#32) (sitofp .f32 (constantI S_ 32 0#32)))))
    (broadcastInDim (Rx 1 C) ![] hb0 (id (constant S_ .f32 0x7FC00000#32)))

theorem red4 : (Rx 50000 4).ReducesTo [0] (V1 4) := by decide
theorem b1_4 : (V1 4).BroadcastsInDim (Rx 1 4) (![1] : Fin 1 → Fin (Rx 1 4).rank) := by decide
theorem b0_4 : S_.BroadcastsInDim (Rx 1 4) (![] : Fin 0 → Fin (Rx 1 4).rank) := by decide
theorem bN_4 : (Rx 1 4).BroadcastsInDim (Rx 50000 4) (![0, 1] : Fin 2 → Fin (Rx 50000 4).rank) := by decide
theorem red1024 : (Rx 50000 1024).ReducesTo [0] (V1 1024) := by decide
theorem b1_1024 : (V1 1024).BroadcastsInDim (Rx 1 1024) (![1] : Fin 1 → Fin (Rx 1 1024).rank) := by decide
theorem b0_1024 : S_.BroadcastsInDim (Rx 1 1024) (![] : Fin 0 → Fin (Rx 1 1024).rank) := by decide
theorem bN_1024 : (Rx 1 1024).BroadcastsInDim (Rx 50000 1024) (![0, 1] : Fin 2 → Fin (Rx 50000 1024).rank) := by decide

/-- The geometry's column means and variances (4 columns), and the hidden layer's (1024 columns). -/
def mean4 (P : FVec F (Rx 50000 4) .f32) : FVec F (Rx 1 4) .f32 := colMean red4 b1_4 b0_4 P
def var4 (P : FVec F (Rx 50000 4) .f32) : FVec F (Rx 1 4) .f32 := colVar red4 b1_4 b0_4 bN_4 P
def meanH (U : FVec F (Rx 50000 1024) .f32) : FVec F (Rx 1 1024) .f32 := colMean red1024 b1_1024 b0_1024 U
def varH (U : FVec F (Rx 50000 1024) .f32) : FVec F (Rx 1 1024) .f32 := colVar red1024 b1_1024 b0_1024 bN_1024 U

theorem sl_5_4 : (Rx 50000 5).Slices ![0, 1] (Rx 50000 4) := by decide
theorem sl_4_2a : (Rx 50000 4).Slices ![0, 0] (Rx 50000 2) := by decide
theorem sl_4_2b : (Rx 50000 4).Slices ![0, 2] (Rx 50000 2) := by decide
theorem b0_N2 : S_.BroadcastsInDim (Rx 50000 2) (![] : Fin 0 → Fin (Rx 50000 2).rank) := by decide
theorem cat22 : Shape.Concatenates [Rx 50000 2, Rx 50000 2] (Rx 50000 4) 1 := by decide

/-- The box geometry: centre (xy1 + xy2)·½ beside extent xy2 − xy1 + 1, from the box table's columns 1..4. -/
def posRaw (boxes : FVec F (Rx 50000 5) .f32) : FVec F (Rx 50000 4) .f32 :=
  concatenate (Rx 50000 4) 1
    [⟨Rx 50000 2,
        mulf
          (addf (extractStridedSlice (Rx 50000 2) ![0, 0] (extractStridedSlice (Rx 50000 4) ![0, 1] boxes sl_5_4) sl_4_2a)
            (extractStridedSlice (Rx 50000 2) ![0, 2] (extractStridedSlice (Rx 50000 4) ![0, 1] boxes sl_5_4) sl_4_2b))
          (broadcastInDim (Rx 50000 2) ![] b0_N2 (constant S_ .f32 0x3F000000#32))⟩,
      ⟨Rx 50000 2,
        addf
          (subf (extractStridedSlice (Rx 50000 2) ![0, 2] (extractStridedSlice (Rx 50000 4) ![0, 1] boxes sl_5_4) sl_4_2b)
            (extractStridedSlice (Rx 50000 2) ![0, 0] (extractStridedSlice (Rx 50000 4) ![0, 1] boxes sl_5_4) sl_4_2a))
          (broadcastInDim (Rx 50000 2) ![] b0_N2 (constant S_ .f32 0x3F800000#32))⟩]
    cat22

theorem band1_sl : (Rx 2376 1024).Slices ![0, 0] (Rx 2048 1024) := by decide
theorem band2_sl : (Rx 2376 1024).Slices ![2048, 0] (Rx 200 1024) := by decide
theorem band3_sl : (Rx 2376 1024).Slices ![2248, 0] (Rx 128 1024) := by decide
theorem row4_sc : (V1 4).ShapeCasts (Rx 1 4) := by decide
theorem row128_sc : (V1 128).ShapeCasts (Rx 1 128) := by decide
theorem row1024_sc : (V1 1024).ShapeCasts (Rx 1 1024) := by decide
theorem row37_sc : (V1 37).ShapeCasts (Rx 1 37) := by decide

/-- A half-precision copy of an array (the identity on the extended reals). -/
def toBf {s : Shape} (x : FVec F s .f32) : FVec F s .bf16 := truncf .bf16 x bitsLt
/-- The three row bands of the hidden layer's weight matrix, in half precision: rows 0..2047, 2048..2247, 2248..2375. -/
def band1 (W : FVec F (Rx 2376 1024) .f32) : FVec F (Rx 2048 1024) .bf16 := extractStridedSlice (Rx 2048 1024) ![0, 0] (toBf W) band1_sl
def band2 (W : FVec F (Rx 2376 1024) .f32) : FVec F (Rx 200 1024) .bf16 := extractStridedSlice (Rx 200 1024) ![2048, 0] (toBf W) band2_sl
def band3 (W : FVec F (Rx 2376 1024) .f32) : FVec F (Rx 128 1024) .bf16 := extractStridedSlice (Rx 128 1024) ![2248, 0] (toBf W) band3_sl
/-- A vector as a one-row array. -/
def row4 (v : FVec F (V1 4) .f32) : FVec F (Rx 1 4) .f32 := shapeCast (Rx 1 4) v row4_sc
def row128 (v : FVec F (V1 128) .f32) : FVec F (Rx 1 128) .f32 := shapeCast (Rx 1 128) v row128_sc
def row1024 (v : FVec F (V1 1024) .f32) : FVec F (Rx 1 1024) .f32 := shapeCast (Rx 1 1024) v row1024_sc
def row37 (v : FVec F (V1 37) .f32) : FVec F (Rx 1 37) .f32 := shapeCast (Rx 1 37) v row37_sc

end Chains

/-- The hidden pre-activation of all 50000 rows, from the arguments. -/
def hiddenPre (dist : FVec Ideal (Rx 50000 36) .f32) (boxes : FVec Ideal (Rx 50000 5) .f32) (feat : FVec Ideal (Rx 50000 2048) .f32)
    (We : FVec Ideal (Rx 36 200) .f32) (γp βp : FVec Ideal (V1 4) .f32) (Wp : FVec Ideal (Rx 4 128) .f32) (bp : FVec Ideal (V1 128) .f32)
    (W : FVec Ideal (Rx 2376 1024) .f32) (b : FVec Ideal (V1 1024) .f32) : FVec Ideal (Rx 50000 1024) .f32 :=
  projW 50000 dist (posRaw boxes) feat (toBf We) (row4 γp) (row4 βp) (toBf Wp) (row128 bp) (mean4 (posRaw boxes)) (var4 (posRaw boxes))
    (band1 W) (band2 W) (band3 W) (row1024 b)

/-- The class scores of all 50000 rows, from the arguments (the label argument plays no part). -/
def out (dist : FVec Ideal (Rx 50000 36) .f32) (boxes : FVec Ideal (Rx 50000 5) .f32) (feat : FVec Ideal (Rx 50000 2048) .f32)
    (We : FVec Ideal (Rx 36 200) .f32) (γp βp : FVec Ideal (V1 4) .f32) (Wp : FVec Ideal (Rx 4 128) .f32) (bp : FVec Ideal (V1 128) .f32)
    (W : FVec Ideal (Rx 2376 1024) .f32) (b γh βh : FVec Ideal (V1 1024) .f32)
    (Wd : FVec Ideal (Rx 1024 37) .f32) (bd : FVec Ideal (V1 37) .f32) : FVec Ideal (Rx 50000 37) .f32 :=
  bnDecW 50000 (hiddenPre dist boxes feat We γp βp Wp bp W b)
    (meanH (hiddenPre dist boxes feat We γp βp Wp bp W b)) (varH (hiddenPre dist boxes feat We γp βp Wp bp W b))
    (row1024 γh) (row1024 βh) (toBf Wd) (row37 bd)

end Cert.Model

end
-- ==== Proof.KHost.lean ====
/-
  The idealized kernel program's result buffer at the end of its run, as the model of the launch memory's arguments.

  The run's buffer contents are a fold through the program: host operations, the first region, host operations, the
  second region. Read backwards from the result buffer: it is the second region's output array, which is stage two of
  the arrays that region was entered with; those are the first region's output array (carried unchanged through the
  host operations between the regions), its column mean and variance (those host operations), and four arrays the
  first stretch of host operations made from the arguments. The first region's output array is stage one of the arrays
  it was entered with: three arguments, the box geometry and its column statistics, and nine plumbed copies of
  arguments. Composed, that is Model.out of the fifteen arguments.
-/
import proofs.«154883_j74363063763324_1_alg».proof.Proof.Gen.KernelIdeal.Frame
import proofs.«154883_j74363063763324_1_alg».proof.Proof.K0
import proofs.«154883_j74363063763324_1_alg».proof.Proof.K1
import proofs.«154883_j74363063763324_1_alg».proof.Proof.Model
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## Equal arguments give equal stage values

Each stage is a function of its operand arrays, so arrays that are equal one by one give the same stage array. -/

theorem projW_congr {R : Nat} {a0 b0 : FVec Ideal (Cert.Spec.Rx R 36) .f32} {a1 b1 : FVec Ideal (Cert.Spec.Rx R 4) .f32}
    {a2 b2 : FVec Ideal (Cert.Spec.Rx R 2048) .f32} {a3 b3 : FVec Ideal (Cert.Spec.Rx 36 200) .bf16}
    {a4 b4 a5 b5 : FVec Ideal (Cert.Spec.Rx 1 4) .f32} {a6 b6 : FVec Ideal (Cert.Spec.Rx 4 128) .bf16}
    {a7 b7 : FVec Ideal (Cert.Spec.Rx 1 128) .f32} {a8 b8 a9 b9 : FVec Ideal (Cert.Spec.Rx 1 4) .f32}
    {a10 b10 : FVec Ideal (Cert.Spec.Rx 2048 1024) .bf16} {a11 b11 : FVec Ideal (Cert.Spec.Rx 200 1024) .bf16}
    {a12 b12 : FVec Ideal (Cert.Spec.Rx 128 1024) .bf16} {a13 b13 : FVec Ideal (Cert.Spec.Rx 1 1024) .f32}
    (h0 : a0 = b0) (h1 : a1 = b1) (h2 : a2 = b2) (h3 : a3 = b3) (h4 : a4 = b4) (h5 : a5 = b5) (h6 : a6 = b6)
    (h7 : a7 = b7) (h8 : a8 = b8) (h9 : a9 = b9) (h10 : a10 = b10) (h11 : a11 = b11) (h12 : a12 = b12) (h13 : a13 = b13) :
    Cert.Spec.projW R a0 a1 a2 a3 a4 a5 a6 a7 a8 a9 a10 a11 a12 a13
      = Cert.Spec.projW R b0 b1 b2 b3 b4 b5 b6 b7 b8 b9 b10 b11 b12 b13 := by
  subst h0 h1 h2 h3 h4 h5 h6 h7 h8 h9 h10 h11 h12 h13; rfl

theorem bnDecW_congr {R : Nat} {a0 b0 : FVec Ideal (Cert.Spec.Rx R 1024) .f32}
    {a1 b1 a2 b2 a3 b3 a4 b4 : FVec Ideal (Cert.Spec.Rx 1 1024) .f32}
    {a5 b5 : FVec Ideal (Cert.Spec.Rx 1024 37) .bf16} {a6 b6 : FVec Ideal (Cert.Spec.Rx 1 37) .f32}
    (h0 : a0 = b0) (h1 : a1 = b1) (h2 : a2 = b2) (h3 : a3 = b3) (h4 : a4 = b4) (h5 : a5 = b5) (h6 : a6 = b6) :
    Cert.Spec.bnDecW R a0 a1 a2 a3 a4 a5 a6 = Cert.Spec.bnDecW R b0 b1 b2 b3 b4 b5 b6 := by
  subst h0 h1 h2 h3 h4 h5 h6; rfl

/-! ## The host operations before the first region, read at one buffer

Three stretches of host operations run before the first region. From ANY buffer contents `W` before them, each buffer
read below holds afterwards either what it held (no operation writes an argument) or the model's chain applied to
what the arguments held: the box geometry and its column mean and variance from argument 1, half-precision copies of
the weight matrices, the three row bands of the hidden layer's matrix, and each vector as a one-row array. -/

theorem e_arg0 (W : Valuation τ sig (Elt Ideal)) :
    StableHlo.after hostOps0_2 (StableHlo.after hostOps0_1 (StableHlo.after hostOps0 W)) (Proc.devRef .tc main_arg0) = W (Proc.devRef .tc main_arg0) := by
  after_results_simp

theorem e_v9 (W : Valuation τ sig (Elt Ideal)) :
    StableHlo.after hostOps0_2 (StableHlo.after hostOps0_1 (StableHlo.after hostOps0 W)) (Proc.devRef .tc main_v9)
      = Cert.Model.posRaw (F := Ideal) (W (Proc.devRef .tc main_arg1)) := by
  after_results_simp
  try simp only [StableHlo.TRef.ofBuf, StableHlo.TRef.toBuf, cast_eq]
  unfold Cert.Model.posRaw
  rfl

theorem e_arg2 (W : Valuation τ sig (Elt Ideal)) :
    StableHlo.after hostOps0_2 (StableHlo.after hostOps0_1 (StableHlo.after hostOps0 W)) (Proc.devRef .tc main_arg2) = W (Proc.devRef .tc main_arg2) := by
  after_results_simp

theorem e_v15 (W : Valuation τ sig (Elt Ideal)) :
    StableHlo.after hostOps0_2 (StableHlo.after hostOps0_1 (StableHlo.after hostOps0 W)) (Proc.devRef .tc main_v15)
      = Cert.Model.toBf (F := Ideal) (W (Proc.devRef .tc main_arg4)) := by
  after_results_simp
  try simp only [StableHlo.TRef.ofBuf, StableHlo.TRef.toBuf, cast_eq]
  unfold Cert.Model.toBf
  rfl

theorem e_v22 (W : Valuation τ sig (Elt Ideal)) :
    StableHlo.after hostOps0_2 (StableHlo.after hostOps0_1 (StableHlo.after hostOps0 W)) (Proc.devRef .tc main_v22)
      = Cert.Model.row4 (F := Ideal) (W (Proc.devRef .tc main_arg5)) := by
  after_results_simp
  try simp only [StableHlo.TRef.ofBuf, StableHlo.TRef.toBuf, cast_eq]
  unfold Cert.Model.row4
  rfl

theorem e_v23 (W : Valuation τ sig (Elt Ideal)) :
    StableHlo.after hostOps0_2 (StableHlo.after hostOps0_1 (StableHlo.after hostOps0 W)) (Proc.devRef .tc main_v23)
      = Cert.Model.row4 (F := Ideal) (W (Proc.devRef .tc main_arg6)) := by
  after_results_simp
  try simp only [StableHlo.TRef.ofBuf, StableHlo.TRef.toBuf, cast_eq]
  unfold Cert.Model.row4
  rfl

theorem e_v16 (W : Valuation τ sig (Elt Ideal)) :
    StableHlo.after hostOps0_2 (StableHlo.after hostOps0_1 (StableHlo.after hostOps0 W)) (Proc.devRef .tc main_v16)
      = Cert.Model.toBf (F := Ideal) (W (Proc.devRef .tc main_arg7)) := by
  after_results_simp
  try simp only [StableHlo.TRef.ofBuf, StableHlo.TRef.toBuf, cast_eq]
  unfold Cert.Model.toBf
  rfl

theorem e_v24 (W : Valuation τ sig (Elt Ideal)) :
    StableHlo.after hostOps0_2 (StableHlo.after hostOps0_1 (StableHlo.after hostOps0 W)) (Proc.devRef .tc main_v24)
      = Cert.Model.row128 (F := Ideal) (W (Proc.devRef .tc main_arg8)) := by
  after_results_simp
  try simp only [StableHlo.TRef.ofBuf, StableHlo.TRef.toBuf, cast_eq]
  unfold Cert.Model.row128
  rfl

theorem e_v13 (W : Valuation τ sig (Elt Ideal)) :
    StableHlo.after hostOps0_2 (StableHlo.after hostOps0_1 (StableHlo.after hostOps0 W)) (Proc.devRef .tc main_v13)
      = Cert.Model.mean4 (F := Ideal) (Cert.Model.posRaw (F := Ideal) (W (Proc.devRef .tc main_arg1))) := by
  after_results_simp
  try simp only [StableHlo.TRef.ofBuf, StableHlo.TRef.toBuf, cast_eq]
  unfold Cert.Model.mean4 Cert.Model.colMean Cert.Model.posRaw
  rfl

theorem e_v14 (W : Valuation τ sig (Elt Ideal)) :
    StableHlo.after hostOps0_2 (StableHlo.after hostOps0_1 (StableHlo.after hostOps0 W)) (Proc.devRef .tc main_v14)
      = Cert.Model.var4 (F := Ideal) (Cert.Model.posRaw (F := Ideal) (W (Proc.devRef .tc main_arg1))) := by
  after_results_simp
  try simp only [StableHlo.TRef.ofBuf, StableHlo.TRef.toBuf, cast_eq]
  unfold Cert.Model.var4 Cert.Model.colVar Cert.Model.colMean Cert.Model.posRaw
  rfl

theorem e_v18 (W : Valuation τ sig (Elt Ideal)) :
    StableHlo.after hostOps0_2 (StableHlo.after hostOps0_1 (StableHlo.after hostOps0 W)) (Proc.devRef .tc main_v18)
      = Cert.Model.band1 (F := Ideal) (W (Proc.devRef .tc main_arg9)) := by
  after_results_simp
  try simp only [StableHlo.TRef.ofBuf, StableHlo.TRef.toBuf, cast_eq]
  unfold Cert.Model.band1 Cert.Model.toBf
  rfl

theorem e_v19 (W : Valuation τ sig (Elt Ideal)) :
    StableHlo.after hostOps0_2 (StableHlo.after hostOps0_1 (StableHlo.after hostOps0 W)) (Proc.devRef .tc main_v19)
      = Cert.Model.band2 (F := Ideal) (W (Proc.devRef .tc main_arg9)) := by
  after_results_simp
  try simp only [StableHlo.TRef.ofBuf, StableHlo.TRef.toBuf, cast_eq]
  unfold Cert.Model.band2 Cert.Model.toBf
  rfl

theorem e_v20 (W : Valuation τ sig (Elt Ideal)) :
    StableHlo.after hostOps0_2 (StableHlo.after hostOps0_1 (StableHlo.after hostOps0 W)) (Proc.devRef .tc main_v20)
      = Cert.Model.band3 (F := Ideal) (W (Proc.devRef .tc main_arg9)) := by
  after_results_simp
  try simp only [StableHlo.TRef.ofBuf, StableHlo.TRef.toBuf, cast_eq]
  unfold Cert.Model.band3 Cert.Model.toBf
  rfl

theorem e_v25 (W : Valuation τ sig (Elt Ideal)) :
    StableHlo.after hostOps0_2 (StableHlo.after hostOps0_1 (StableHlo.after hostOps0 W)) (Proc.devRef .tc main_v25)
      = Cert.Model.row1024 (F := Ideal) (W (Proc.devRef .tc main_arg10)) := by
  after_results_simp
  try simp only [StableHlo.TRef.ofBuf, StableHlo.TRef.toBuf, cast_eq]
  unfold Cert.Model.row1024
  rfl

theorem e_v26 (W : Valuation τ sig (Elt Ideal)) :
    StableHlo.after hostOps0_2 (StableHlo.after hostOps0_1 (StableHlo.after hostOps0 W)) (Proc.devRef .tc main_v26)
      = Cert.Model.row1024 (F := Ideal) (W (Proc.devRef .tc main_arg11)) := by
  after_results_simp
  try simp only [StableHlo.TRef.ofBuf, StableHlo.TRef.toBuf, cast_eq]
  unfold Cert.Model.row1024
  rfl

theorem e_v27 (W : Valuation τ sig (Elt Ideal)) :
    StableHlo.after hostOps0_2 (StableHlo.after hostOps0_1 (StableHlo.after hostOps0 W)) (Proc.devRef .tc main_v27)
      = Cert.Model.row1024 (F := Ideal) (W (Proc.devRef .tc main_arg12)) := by
  after_results_simp
  try simp only [StableHlo.TRef.ofBuf, StableHlo.TRef.toBuf, cast_eq]
  unfold Cert.Model.row1024
  rfl

theorem e_v21 (W : Valuation τ sig (Elt Ideal)) :
    StableHlo.after hostOps0_2 (StableHlo.after hostOps0_1 (StableHlo.after hostOps0 W)) (Proc.devRef .tc main_v21)
      = Cert.Model.toBf (F := Ideal) (W (Proc.devRef .tc main_arg13)) := by
  after_results_simp
  try simp only [StableHlo.TRef.ofBuf, StableHlo.TRef.toBuf, cast_eq]
  unfold Cert.Model.toBf
  rfl

theorem e_v28 (W : Valuation τ sig (Elt Ideal)) :
    StableHlo.after hostOps0_2 (StableHlo.after hostOps0_1 (StableHlo.after hostOps0 W)) (Proc.devRef .tc main_v28)
      = Cert.Model.row37 (F := Ideal) (W (Proc.devRef .tc main_arg14)) := by
  after_results_simp
  try simp only [StableHlo.TRef.ofBuf, StableHlo.TRef.toBuf, cast_eq]
  unfold Cert.Model.row37
  rfl

/-! ## The host operations between the regions, read at one buffer

Two stretches of host operations run between the regions. From any buffer contents `W` before them: the hidden
pre-activation and the four arrays made earlier are not written; the two new arrays are the column mean and the column
variance of the hidden pre-activation as `W` holds it (the variance's divisor 50000 − 0 is computed from the integer
constant the first of the two stretches writes). -/

theorem f_v29 (W : Valuation τ sig (Elt Ideal)) :
    StableHlo.after hostOps1_1 (StableHlo.after hostOps1 W) (Proc.devRef .tc main_v29) = W (Proc.devRef .tc main_v29) := by
  after_results_simp

theorem f_v33 (W : Valuation τ sig (Elt Ideal)) :
    StableHlo.after hostOps1_1 (StableHlo.after hostOps1 W) (Proc.devRef .tc main_v33)
      = Cert.Model.meanH (F := Ideal) (W (Proc.devRef .tc main_v29)) := by
  after_results_simp
  unfold Cert.Model.meanH Cert.Model.colMean
  rfl

theorem f_v34 (W : Valuation τ sig (Elt Ideal)) :
    StableHlo.after hostOps1_1 (StableHlo.after hostOps1 W) (Proc.devRef .tc main_v34)
      = Cert.Model.varH (F := Ideal) (W (Proc.devRef .tc main_v29)) := by
  after_results_simp
  simp only [StableHlo.TRef.ofBuf, StableHlo.TRef.toBuf, cast_eq]
  unfold Cert.Model.varH Cert.Model.colVar Cert.Model.colMean
  rfl

theorem f_v26 (W : Valuation τ sig (Elt Ideal)) :
    StableHlo.after hostOps1_1 (StableHlo.after hostOps1 W) (Proc.devRef .tc main_v26) = W (Proc.devRef .tc main_v26) := by
  after_results_simp

theorem f_v27 (W : Valuation τ sig (Elt Ideal)) :
    StableHlo.after hostOps1_1 (StableHlo.after hostOps1 W) (Proc.devRef .tc main_v27) = W (Proc.devRef .tc main_v27) := by
  after_results_simp

theorem f_v21 (W : Valuation τ sig (Elt Ideal)) :
    StableHlo.after hostOps1_1 (StableHlo.after hostOps1 W) (Proc.devRef .tc main_v21) = W (Proc.devRef .tc main_v21) := by
  after_results_simp

theorem f_v28 (W : Valuation τ sig (Elt Ideal)) :
    StableHlo.after hostOps1_1 (StableHlo.after hostOps1 W) (Proc.devRef .tc main_v28) = W (Proc.devRef .tc main_v28) := by
  after_results_simp

/-! ## The arrays the first region is entered with

The contents at the first region's entry are the three stretches applied to the launch memory, and the launch memory
at an argument's buffer is that argument. -/

/-- Input 0 of the first region: argument 0 itself. -/
theorem r0_w0 (c : Dev nD) : V3 (F := Ideal) m ρ c (Pipeline.arrRef spec0 0) = (m ((c.tc : Thread nD τ).loc main_arg0)) :=
  e_arg0 (W0 m ρ c)
/-- Input 1 of the first region: the box geometry. -/
theorem r0_w1 (c : Dev nD) : V3 (F := Ideal) m ρ c (Pipeline.arrRef spec0 1) = (Cert.Model.posRaw (F := Ideal) (m ((c.tc : Thread nD τ).loc main_arg1))) :=
  e_v9 (W0 m ρ c)
/-- Input 2 of the first region: argument 2 itself. -/
theorem r0_w2 (c : Dev nD) : V3 (F := Ideal) m ρ c (Pipeline.arrRef spec0 2) = (m ((c.tc : Thread nD τ).loc main_arg2)) :=
  e_arg2 (W0 m ρ c)
/-- Input 3 of the first region: the embedding matrix in half precision. -/
theorem r0_w3 (c : Dev nD) : V3 (F := Ideal) m ρ c (Pipeline.arrRef spec0 3) = (Cert.Model.toBf (F := Ideal) (m ((c.tc : Thread nD τ).loc main_arg4))) :=
  e_v15 (W0 m ρ c)
/-- Input 4 of the first region: the geometry's scale as a row. -/
theorem r0_w4 (c : Dev nD) : V3 (F := Ideal) m ρ c (Pipeline.arrRef spec0 4) = (Cert.Model.row4 (F := Ideal) (m ((c.tc : Thread nD τ).loc main_arg5))) :=
  e_v22 (W0 m ρ c)
/-- Input 5 of the first region: the geometry's shift as a row. -/
theorem r0_w5 (c : Dev nD) : V3 (F := Ideal) m ρ c (Pipeline.arrRef spec0 5) = (Cert.Model.row4 (F := Ideal) (m ((c.tc : Thread nD τ).loc main_arg6))) :=
  e_v23 (W0 m ρ c)
/-- Input 6 of the first region: the geometry's matrix in half precision. -/
theorem r0_w6 (c : Dev nD) : V3 (F := Ideal) m ρ c (Pipeline.arrRef spec0 6) = (Cert.Model.toBf (F := Ideal) (m ((c.tc : Thread nD τ).loc main_arg7))) :=
  e_v16 (W0 m ρ c)
/-- Input 7 of the first region: the geometry's bias as a row. -/
theorem r0_w7 (c : Dev nD) : V3 (F := Ideal) m ρ c (Pipeline.arrRef spec0 7) = (Cert.Model.row128 (F := Ideal) (m ((c.tc : Thread nD τ).loc main_arg8))) :=
  e_v24 (W0 m ρ c)
/-- Input 8 of the first region: the geometry's column mean. -/
theorem r0_w8 (c : Dev nD) : V3 (F := Ideal) m ρ c (Pipeline.arrRef spec0 8) = (Cert.Model.mean4 (F := Ideal) (Cert.Model.posRaw (F := Ideal) (m ((c.tc : Thread nD τ).loc main_arg1)))) :=
  e_v13 (W0 m ρ c)
/-- Input 9 of the first region: the geometry's column variance. -/
theorem r0_w9 (c : Dev nD) : V3 (F := Ideal) m ρ c (Pipeline.arrRef spec0 9) = (Cert.Model.var4 (F := Ideal) (Cert.Model.posRaw (F := Ideal) (m ((c.tc : Thread nD τ).loc main_arg1)))) :=
  e_v14 (W0 m ρ c)
/-- Input 10 of the first region: rows 0..2047 of the hidden matrix. -/
theorem r0_w10 (c : Dev nD) : V3 (F := Ideal) m ρ c (Pipeline.arrRef spec0 10) = (Cert.Model.band1 (F := Ideal) (m ((c.tc : Thread nD τ).loc main_arg9))) :=
  e_v18 (W0 m ρ c)
/-- Input 11 of the first region: rows 2048..2247 of the hidden matrix. -/
theorem r0_w11 (c : Dev nD) : V3 (F := Ideal) m ρ c (Pipeline.arrRef spec0 11) = (Cert.Model.band2 (F := Ideal) (m ((c.tc : Thread nD τ).loc main_arg9))) :=
  e_v19 (W0 m ρ c)
/-- Input 12 of the first region: rows 2248..2375 of the hidden matrix. -/
theorem r0_w12 (c : Dev nD) : V3 (F := Ideal) m ρ c (Pipeline.arrRef spec0 12) = (Cert.Model.band3 (F := Ideal) (m ((c.tc : Thread nD τ).loc main_arg9))) :=
  e_v20 (W0 m ρ c)
/-- Input 13 of the first region: the hidden bias as a row. -/
theorem r0_w13 (c : Dev nD) : V3 (F := Ideal) m ρ c (Pipeline.arrRef spec0 13) = (Cert.Model.row1024 (F := Ideal) (m ((c.tc : Thread nD τ).loc main_arg10))) :=
  e_v25 (W0 m ρ c)

/-! ## The hidden pre-activation

At the first region's exit its output array is stage one of the arrays the region was entered with; with the entry
arrays as above that is the model's hidden pre-activation of the arguments. -/

theorem hidden_eq (c : Dev nD) :
    W4 (F := Ideal) m ρ c (Proc.devRef .tc main_v29) = (Cert.Model.hiddenPre (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  ((W4_arr m ρ c 14).trans (Cert.KernelIdeal.KVal0.arr0_14 (V3 m ρ) c)).trans
    (projW_congr (r0_w0 m ρ c) (r0_w1 m ρ c) (r0_w2 m ρ c) (r0_w3 m ρ c) (r0_w4 m ρ c) (r0_w5 m ρ c) (r0_w6 m ρ c) (r0_w7 m ρ c) (r0_w8 m ρ c) (r0_w9 m ρ c) (r0_w10 m ρ c) (r0_w11 m ρ c) (r0_w12 m ρ c) (r0_w13 m ρ c))

/-! ## The arrays the second region is entered with

The contents at the second region's entry are the two middle stretches applied to the contents at the first region's
exit. The hidden pre-activation is the first region's output array; its column mean and variance are taken of that same
array; the other four arrays were made before the first region, are none of its arrays, and so pass through it as
entered. -/

/-- Input 0 of the second region: the hidden pre-activation. -/
theorem r1_w0 (c : Dev nD) : V6 (F := Ideal) m ρ c (Pipeline.arrRef spec1 0) = (Cert.Model.hiddenPre (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :=
  (f_v29 (W4 m ρ c)).trans (hidden_eq m ρ c)
/-- Input 1 of the second region: the hidden pre-activation's column mean. -/
theorem r1_w1 (c : Dev nD) : V6 (F := Ideal) m ρ c (Pipeline.arrRef spec1 1) = Cert.Model.meanH (F := Ideal) (Cert.Model.hiddenPre (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine (f_v33 (W4 m ρ c)).trans ?_
  rw [hidden_eq m ρ c]
/-- Input 2 of the second region: the hidden pre-activation's column variance. -/
theorem r1_w2 (c : Dev nD) : V6 (F := Ideal) m ρ c (Pipeline.arrRef spec1 2) = Cert.Model.varH (F := Ideal) (Cert.Model.hiddenPre (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine (f_v34 (W4 m ρ c)).trans ?_
  rw [hidden_eq m ρ c]
/-- Input 3 of the second region: the normalization's scale as a row. -/
theorem r1_w3 (c : Dev nD) : V6 (F := Ideal) m ρ c (Pipeline.arrRef spec1 3) = Cert.Model.row1024 (F := Ideal) (m ((c.tc : Thread nD τ).loc main_arg11)) :=
  (f_v26 (W4 m ρ c)).trans ((W4_of_ne m ρ c main_v26 (by decide)).trans (e_v26 (W0 m ρ c)))
/-- Input 4 of the second region: the normalization's shift as a row. -/
theorem r1_w4 (c : Dev nD) : V6 (F := Ideal) m ρ c (Pipeline.arrRef spec1 4) = Cert.Model.row1024 (F := Ideal) (m ((c.tc : Thread nD τ).loc main_arg12)) :=
  (f_v27 (W4 m ρ c)).trans ((W4_of_ne m ρ c main_v27 (by decide)).trans (e_v27 (W0 m ρ c)))
/-- Input 5 of the second region: the decoder's matrix in half precision. -/
theorem r1_w5 (c : Dev nD) : V6 (F := Ideal) m ρ c (Pipeline.arrRef spec1 5) = Cert.Model.toBf (F := Ideal) (m ((c.tc : Thread nD τ).loc main_arg13)) :=
  (f_v21 (W4 m ρ c)).trans ((W4_of_ne m ρ c main_v21 (by decide)).trans (e_v21 (W0 m ρ c)))
/-- Input 6 of the second region: the decoder's bias as a row. -/
theorem r1_w6 (c : Dev nD) : V6 (F := Ideal) m ρ c (Pipeline.arrRef spec1 6) = Cert.Model.row37 (F := Ideal) (m ((c.tc : Thread nD τ).loc main_arg14)) :=
  (f_v28 (W4 m ρ c)).trans ((W4_of_ne m ρ c main_v28 (by decide)).trans (e_v28 (W0 m ρ c)))

/-! ## The result buffer

It is the second region's output array, which is stage two of the arrays that region was entered with; with the entry
arrays as above that is the model's value at the arguments. -/

/-- The result buffer's contents at the last boundary of the run are the model's value at the launch memory's arguments. -/
theorem W7_out (c : Dev nD) :
    W7 (F := Ideal) m ρ c (Proc.devRef .tc main_v35)
      = Cert.Model.out (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)) :=
  ((W7_arr m ρ c 7).trans (Cert.KernelIdeal.KVal1.arr1_7 (V6 m ρ) c)).trans
    (bnDecW_congr (r1_w0 m ρ c) (r1_w1 m ρ c) (r1_w2 m ρ c) (r1_w3 m ρ c) (r1_w4 m ρ c) (r1_w5 m ρ c) (r1_w6 m ρ c))

end Cert.KernelIdeal.KHost

end
-- ==== Proof.RROps.lean ====
/-
  The reference program's host operations as literal lists, in program order, each called function's operations written at
  its call site over that call's own buffers: the whole line, the same line cut into 6 consecutive stretches, and for each
  stretch the buffers its operations write. A table only; what is proved of it is in the module that imports it.
-/
import proofs.«154883_j74363063763324_1_alg».proof.Proof.Gen.ReferenceIdeal
import Idealize.ShloMosaic.Lib.StableHlo.Run

noncomputable section

namespace Cert.ReferenceIdeal.RRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 1 … 13 of 120, in order. -/
abbrev s1 : List (HloOp τ sig (Elt F)) :=
  [ StableHlo.binary main_arg0 main_arg4 main_v0 ((fun l r => Host.dotGeneral dot_S50000x36_S36x200_S50000x200_1_0_0_1_n_n none l r) : (⟨S50000x36, .f32⟩ : BufTy).Contents (Elt F) → (⟨S36x200, .f32⟩ : BufTy).Contents (Elt F) → (⟨S50000x200, .f32⟩ : BufTy).Contents (Elt F)),
    StableHlo.unary main_arg1 main_v1 ((extractStridedSlice S50000x4 ![0, 1] · slices_S50000x5_S50000x4_0_1) : (⟨S50000x5, .f32⟩ : BufTy).Contents (Elt F) → (⟨S50000x4, .f32⟩ : BufTy).Contents (Elt F)),
    StableHlo.unary main_v1 main_v2 ((extractStridedSlice S50000x2 ![0, 0] · slices_S50000x4_S50000x2_0_0) : (⟨S50000x4, .f32⟩ : BufTy).Contents (Elt F) → (⟨S50000x2, .f32⟩ : BufTy).Contents (Elt F)),
    StableHlo.unary main_v1 main_v3 ((extractStridedSlice S50000x2 ![0, 2] · slices_S50000x4_S50000x2_0_2) : (⟨S50000x4, .f32⟩ : BufTy).Contents (Elt F) → (⟨S50000x2, .f32⟩ : BufTy).Contents (Elt F)),
    StableHlo.binary main_v2 main_v3 main_v4 (addf : (⟨S50000x2, .f32⟩ : BufTy).Contents (Elt F) → (⟨S50000x2, .f32⟩ : BufTy).Contents (Elt F) → (⟨S50000x2, .f32⟩ : BufTy).Contents (Elt F)),
    StableHlo.nullary main_cst (constant S_ .f32 0x3F000000#32),
    StableHlo.unary main_cst main_v5 (broadcastInDim S50000x2 ![] bcast_S_S50000x2 : (⟨S_, .f32⟩ : BufTy).Contents (Elt F) → (⟨S50000x2, .f32⟩ : BufTy).Contents (Elt F)),
    StableHlo.binary main_v4 main_v5 main_v6 (mulf : (⟨S50000x2, .f32⟩ : BufTy).Contents (Elt F) → (⟨S50000x2, .f32⟩ : BufTy).Contents (Elt F) → (⟨S50000x2, .f32⟩ : BufTy).Contents (Elt F)),
    StableHlo.binary main_v3 main_v2 main_v7 (subf : (⟨S50000x2, .f32⟩ : BufTy).Contents (Elt F) → (⟨S50000x2, .f32⟩ : BufTy).Contents (Elt F) → (⟨S50000x2, .f32⟩ : BufTy).Contents (Elt F)),
    StableHlo.nullary main_cst_0 (constant S_ .f32 0x3F800000#32),
    StableHlo.unary main_cst_0 main_v8 (broadcastInDim S50000x2 ![] bcast_S_S50000x2 : (⟨S_, .f32⟩ : BufTy).Contents (Elt F) → (⟨S50000x2, .f32⟩ : BufTy).Contents (Elt F)),
    StableHlo.binary main_v7 main_v8 main_v9 (addf : (⟨S50000x2, .f32⟩ : BufTy).Contents (Elt F) → (⟨S50000x2, .f32⟩ : BufTy).Contents (Elt F) → (⟨S50000x2, .f32⟩ : BufTy).Contents (Elt F)),
    StableHlo.binary main_v6 main_v9 main_v10 ((fun a b => concatenate S50000x4 1 [⟨S50000x2, a⟩, ⟨S50000x2, b⟩] concatenates_S50000x2_S50000x2_S50000x4_d1) : (⟨S50000x2, .f32⟩ : BufTy).Contents (Elt F) → (⟨S50000x2, .f32⟩ : BufTy).Contents (Elt F) → (⟨S50000x4, .f32⟩ : BufTy).Contents (Elt F)) ]

/-- The buffers those operations write. -/
abbrev W1 : List (Ref sig .tc) :=
  [main_v0, main_v1, main_v2, main_v3, main_v4, main_cst, main_v5, main_v6, main_v7, main_cst_0, main_v8, main_v9, main_v10]

/-- Operations 14 … 43 of 120, in order. -/
abbrev s2 : List (HloOp τ sig (Elt F)) :=
  [ StableHlo.nullary main_cst_1 (constant S_ .f32 0x00000000#32),
    StableHlo.binary main_v10 main_cst_1 main_v11 ((fun x v => Host.reduceAdd x v reducesTo_S50000x4_S4_d0 h_S_) : (⟨S50000x4, .f32⟩ : BufTy).Contents (Elt F) → (⟨S_, .f32⟩ : BufTy).Contents (Elt F) → (⟨S4, .f32⟩ : BufTy).Contents (Elt F)),
    StableHlo.unary main_v11 main_v12 (broadcastInDim S1x4 ![1] bcast_S4_S1x4_1 : (⟨S4, .f32⟩ : BufTy).Contents (Elt F) → (⟨S1x4, .f32⟩ : BufTy).Contents (Elt F)),
    StableHlo.nullary main_cst_2 (constant S_ .f32 0x47435000#32),
    StableHlo.unary main_cst_2 main_v13 (broadcastInDim S1x4 ![] bcast_S_S1x4 : (⟨S_, .f32⟩ : BufTy).Contents (Elt F) → (⟨S1x4, .f32⟩ : BufTy).Contents (Elt F)),
    StableHlo.binary main_v12 main_v13 main_v14 (Host.divf : (⟨S1x4, .f32⟩ : BufTy).Contents (Elt F) → (⟨S1x4, .f32⟩ : BufTy).Contents (Elt F) → (⟨S1x4, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v10 : StableHlo.TRef sig ⟨S50000x4, .f32⟩) (.of main_call0_cst : StableHlo.TRef sig ⟨S_, .f32⟩) (.of main_call0_v0 : StableHlo.TRef sig ⟨S4, .f32⟩) (fun x v => Host.reduceAdd x v reducesTo_S50000x4_S4_d0 h_S_),
    StableHlo.TRef.unary (.of main_call0_v0 : StableHlo.TRef sig ⟨S4, .f32⟩) (.of main_call0_v1 : StableHlo.TRef sig ⟨S1x4, .f32⟩) (broadcastInDim S1x4 ![1] bcast_S4_S1x4_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x4, .f32⟩) (broadcastInDim S1x4 ![] bcast_S_S1x4),
    StableHlo.TRef.binary (.of main_call0_v1 : StableHlo.TRef sig ⟨S1x4, .f32⟩) (.of main_call0_v2 : StableHlo.TRef sig ⟨S1x4, .f32⟩) (.of main_call0_v3 : StableHlo.TRef sig ⟨S1x4, .f32⟩) Host.divf,
    StableHlo.TRef.unary (.of main_call0_v3 : StableHlo.TRef sig ⟨S1x4, .f32⟩) (.of main_call0_v4 : StableHlo.TRef sig ⟨S50000x4, .f32⟩) (broadcastInDim S50000x4 ![0, 1] bcast_S1x4_S50000x4_0_1),
    StableHlo.TRef.binary (.of main_v10 : StableHlo.TRef sig ⟨S50000x4, .f32⟩) (.of main_call0_v4 : StableHlo.TRef sig ⟨S50000x4, .f32⟩) (.of main_call0_v5 : StableHlo.TRef sig ⟨S50000x4, .f32⟩) subf,
    StableHlo.TRef.binary (.of main_call0_v5 : StableHlo.TRef sig ⟨S50000x4, .f32⟩) (.of main_call0_v5 : StableHlo.TRef sig ⟨S50000x4, .f32⟩) (.of main_call0_v6 : StableHlo.TRef sig ⟨S50000x4, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x4, .f32⟩) (.of main_call0_cst_2 : StableHlo.TRef sig ⟨S_, .f32⟩) (.of main_call0_v9 : StableHlo.TRef sig ⟨S4, .f32⟩) (fun x v => Host.reduceAdd x v reducesTo_S50000x4_S4_d0 h_S_),
    StableHlo.TRef.unary (.of main_call0_v9 : StableHlo.TRef sig ⟨S4, .f32⟩) (.of main_call0_v10 : StableHlo.TRef sig ⟨S1x4, .f32⟩) (broadcastInDim S1x4 ![1] bcast_S4_S1x4_1),
    StableHlo.TRef.unary (.of main_call0_v8 : StableHlo.TRef sig ⟨S_, .f32⟩) (.of main_call0_v11 : StableHlo.TRef sig ⟨S1x4, .f32⟩) (broadcastInDim S1x4 ![] bcast_S_S1x4),
    StableHlo.TRef.binary (.of main_call0_v10 : StableHlo.TRef sig ⟨S1x4, .f32⟩) (.of main_call0_v11 : StableHlo.TRef sig ⟨S1x4, .f32⟩) (.of main_call0_v12 : StableHlo.TRef sig ⟨S1x4, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S1x4, .f32⟩) (broadcastInDim S1x4 ![] bcast_S_S1x4),
    StableHlo.TRef.ternary (.of main_call0_v13 : StableHlo.TRef sig ⟨S_, .i1⟩) (.of main_call0_v12 : StableHlo.TRef sig ⟨S1x4, .f32⟩) (.of main_call0_call0_v1 : StableHlo.TRef sig ⟨S1x4, .f32⟩) (.of main_v15 : StableHlo.TRef sig ⟨S1x4, .f32⟩) (fun p a b => select (broadcastInDim S1x4 ![] bcast_S_S1x4 p) a b) ]

/-- The buffers those operations write. -/
abbrev W2 : List (Ref sig .tc) :=
  [main_cst_1, main_v11, main_v12, main_cst_2, main_v13, main_v14, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v15]

/-- Operations 44 … 64 of 120, in order. -/
abbrev s3 : List (HloOp τ sig (Elt F)) :=
  [ StableHlo.unary main_v14 main_v16 (broadcastInDim S50000x4 ![0, 1] bcast_S1x4_S50000x4_0_1 : (⟨S1x4, .f32⟩ : BufTy).Contents (Elt F) → (⟨S50000x4, .f32⟩ : BufTy).Contents (Elt F)),
    StableHlo.binary main_v10 main_v16 main_v17 (subf : (⟨S50000x4, .f32⟩ : BufTy).Contents (Elt F) → (⟨S50000x4, .f32⟩ : BufTy).Contents (Elt F) → (⟨S50000x4, .f32⟩ : BufTy).Contents (Elt F)),
    StableHlo.nullary main_cst_3 (constant S_ .f32 0x3727C5AC#32),
    StableHlo.unary main_cst_3 main_v18 (broadcastInDim S1x4 ![] bcast_S_S1x4 : (⟨S_, .f32⟩ : BufTy).Contents (Elt F) → (⟨S1x4, .f32⟩ : BufTy).Contents (Elt F)),
    StableHlo.binary main_v15 main_v18 main_v19 (addf : (⟨S1x4, .f32⟩ : BufTy).Contents (Elt F) → (⟨S1x4, .f32⟩ : BufTy).Contents (Elt F) → (⟨S1x4, .f32⟩ : BufTy).Contents (Elt F)),
    StableHlo.unary main_v19 main_v20 (Host.rsqrt : (⟨S1x4, .f32⟩ : BufTy).Contents (Elt F) → (⟨S1x4, .f32⟩ : BufTy).Contents (Elt F)),
    StableHlo.unary main_v20 main_v21 (broadcastInDim S50000x4 ![0, 1] bcast_S1x4_S50000x4_0_1 : (⟨S1x4, .f32⟩ : BufTy).Contents (Elt F) → (⟨S50000x4, .f32⟩ : BufTy).Contents (Elt F)),
    StableHlo.binary main_v17 main_v21 main_v22 (mulf : (⟨S50000x4, .f32⟩ : BufTy).Contents (Elt F) → (⟨S50000x4, .f32⟩ : BufTy).Contents (Elt F) → (⟨S50000x4, .f32⟩ : BufTy).Contents (Elt F)),
    StableHlo.unary main_arg5 main_v23 (broadcastInDim S1x4 ![1] bcast_S4_S1x4_1 : (⟨S4, .f32⟩ : BufTy).Contents (Elt F) → (⟨S1x4, .f32⟩ : BufTy).Contents (Elt F)),
    StableHlo.unary main_v23 main_v24 (broadcastInDim S50000x4 ![0, 1] bcast_S1x4_S50000x4_0_1 : (⟨S1x4, .f32⟩ : BufTy).Contents (Elt F) → (⟨S50000x4, .f32⟩ : BufTy).Contents (Elt F)),
    StableHlo.binary main_v22 main_v24 main_v25 (mulf : (⟨S50000x4, .f32⟩ : BufTy).Contents (Elt F) → (⟨S50000x4, .f32⟩ : BufTy).Contents (Elt F) → (⟨S50000x4, .f32⟩ : BufTy).Contents (Elt F)),
    StableHlo.unary main_arg6 main_v26 (broadcastInDim S1x4 ![1] bcast_S4_S1x4_1 : (⟨S4, .f32⟩ : BufTy).Contents (Elt F) → (⟨S1x4, .f32⟩ : BufTy).Contents (Elt F)),
    StableHlo.unary main_v26 main_v27 (broadcastInDim S50000x4 ![0, 1] bcast_S1x4_S50000x4_0_1 : (⟨S1x4, .f32⟩ : BufTy).Contents (Elt F) → (⟨S50000x4, .f32⟩ : BufTy).Contents (Elt F)),
    StableHlo.binary main_v25 main_v27 main_v28 (addf : (⟨S50000x4, .f32⟩ : BufTy).Contents (Elt F) → (⟨S50000x4, .f32⟩ : BufTy).Contents (Elt F) → (⟨S50000x4, .f32⟩ : BufTy).Contents (Elt F)),
    StableHlo.binary main_v28 main_arg7 main_v29 ((fun l r => Host.dotGeneral dot_S50000x4_S4x128_S50000x128_1_0_0_1_n_n none l r) : (⟨S50000x4, .f32⟩ : BufTy).Contents (Elt F) → (⟨S4x128, .f32⟩ : BufTy).Contents (Elt F) → (⟨S50000x128, .f32⟩ : BufTy).Contents (Elt F)),
    StableHlo.unary main_arg8 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v32 : StableHlo.TRef sig ⟨S50000x128, .f32⟩) (.of main_call1_v0 : StableHlo.TRef sig ⟨S50000x128, .f32⟩) (.of main_v33 : StableHlo.TRef sig ⟨S50000x128, .f32⟩) maximumf ]

/-- The buffers those operations write. -/
abbrev W3 : List (Ref sig .tc) :=
  [main_v16, main_v17, main_cst_3, main_v18, main_v19, main_v20, main_v21, main_v22, main_v23, main_v24, main_v25, main_v26, main_v27, main_v28, main_v29, main_v30, main_v31, main_v32, main_call1_cst, main_call1_v0, main_v33]

/-- Operations 65 … 69 of 120, in order. -/
abbrev s4 : List (HloOp τ sig (Elt F)) :=
  [ StableHlo.nary ![main_arg2, main_v0, main_v33] main_v34 (fun u => concatenate S50000x2376 1 [⟨S50000x2048, u 0⟩, ⟨S50000x200, u 1⟩, ⟨S50000x128, u 2⟩] concatenates_S50000x2048_S50000x200_S50000x128_S50000x2376_d1),
    StableHlo.binary main_v34 main_arg9 main_v35 ((fun l r => Host.dotGeneral dot_S50000x2376_S2376x1024_S50000x1024_1_0_0_1_n_n none l r) : (⟨S50000x2376, .f32⟩ : BufTy).Contents (Elt F) → (⟨S2376x1024, .f32⟩ : BufTy).Contents (Elt F) → (⟨S50000x1024, .f32⟩ : BufTy).Contents (Elt F)),
    StableHlo.unary main_arg10 main_v36 (broadcastInDim S1x1024 ![1] bcast_S1024_S1x1024_1 : (⟨S1024, .f32⟩ : BufTy).Contents (Elt F) → (⟨S1x1024, .f32⟩ : BufTy).Contents (Elt F)),
    StableHlo.unary main_v36 main_v37 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v35 main_v37 main_v38 (addf : (⟨S50000x1024, .f32⟩ : BufTy).Contents (Elt F) → (⟨S50000x1024, .f32⟩ : BufTy).Contents (Elt F) → (⟨S50000x1024, .f32⟩ : BufTy).Contents (Elt F)) ]

/-- The buffers those operations write. -/
abbrev W4 : List (Ref sig .tc) :=
  [main_v34, main_v35, main_v36, main_v37, main_v38]

/-- Operations 70 … 99 of 120, in order. -/
abbrev s5 : List (HloOp τ sig (Elt F)) :=
  [ StableHlo.nullary main_cst_4 (constant S_ .f32 0x00000000#32),
    StableHlo.binary main_v38 main_cst_4 main_v39 ((fun x v => Host.reduceAdd x v reducesTo_S50000x1024_S1024_d0 h_S_) : (⟨S50000x1024, .f32⟩ : BufTy).Contents (Elt F) → (⟨S_, .f32⟩ : BufTy).Contents (Elt F) → (⟨S1024, .f32⟩ : BufTy).Contents (Elt F)),
    StableHlo.unary main_v39 main_v40 (broadcastInDim S1x1024 ![1] bcast_S1024_S1x1024_1 : (⟨S1024, .f32⟩ : BufTy).Contents (Elt F) → (⟨S1x1024, .f32⟩ : BufTy).Contents (Elt F)),
    StableHlo.nullary main_cst_5 (constant S_ .f32 0x47435000#32),
    StableHlo.unary main_cst_5 main_v41 (broadcastInDim S1x1024 ![] bcast_S_S1x1024 : (⟨S_, .f32⟩ : BufTy).Contents (Elt F) → (⟨S1x1024, .f32⟩ : BufTy).Contents (Elt F)),
    StableHlo.binary main_v40 main_v41 main_v42 (Host.divf : (⟨S1x1024, .f32⟩ : BufTy).Contents (Elt F) → (⟨S1x1024, .f32⟩ : BufTy).Contents (Elt F) → (⟨S1x1024, .f32⟩ : BufTy).Contents (Elt F)),
    StableHlo.nullary main_c_6 (constantI S_ 32 0#32),
    StableHlo.TRef.nullary (.of main_call2_cst : StableHlo.TRef sig ⟨S_, .f32⟩) (constant S_ .f32 0x00000000#32),
    StableHlo.TRef.binary (.of main_v38 : StableHlo.TRef sig ⟨S50000x1024, .f32⟩) (.of main_call2_cst : StableHlo.TRef sig ⟨S_, .f32⟩) (.of main_call2_v0 : StableHlo.TRef sig ⟨S1024, .f32⟩) (fun x v => Host.reduceAdd x v reducesTo_S50000x1024_S1024_d0 h_S_),
    StableHlo.TRef.unary (.of main_call2_v0 : StableHlo.TRef sig ⟨S1024, .f32⟩) (.of main_call2_v1 : StableHlo.TRef sig ⟨S1x1024, .f32⟩) (broadcastInDim S1x1024 ![1] bcast_S1024_S1x1024_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x1024, .f32⟩) (broadcastInDim S1x1024 ![] bcast_S_S1x1024),
    StableHlo.TRef.binary (.of main_call2_v1 : StableHlo.TRef sig ⟨S1x1024, .f32⟩) (.of main_call2_v2 : StableHlo.TRef sig ⟨S1x1024, .f32⟩) (.of main_call2_v3 : StableHlo.TRef sig ⟨S1x1024, .f32⟩) Host.divf,
    StableHlo.TRef.unary (.of main_call2_v3 : StableHlo.TRef sig ⟨S1x1024, .f32⟩) (.of main_call2_v4 : StableHlo.TRef sig ⟨S50000x1024, .f32⟩) (broadcastInDim S50000x1024 ![0, 1] bcast_S1x1024_S50000x1024_0_1),
    StableHlo.TRef.binary (.of main_v38 : StableHlo.TRef sig ⟨S50000x1024, .f32⟩) (.of main_call2_v4 : StableHlo.TRef sig ⟨S50000x1024, .f32⟩) (.of main_call2_v5 : StableHlo.TRef sig ⟨S50000x1024, .f32⟩) subf,
    StableHlo.TRef.binary (.of main_call2_v5 : StableHlo.TRef sig ⟨S50000x1024, .f32⟩) (.of main_call2_v5 : StableHlo.TRef sig ⟨S50000x1024, .f32⟩) (.of main_call2_v6 : StableHlo.TRef sig ⟨S50000x1024, .f32⟩) mulf,
    StableHlo.TRef.unary (.of main_c_6 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x1024, .f32⟩) (.of main_call2_cst_2 : StableHlo.TRef sig ⟨S_, .f32⟩) (.of main_call2_v9 : StableHlo.TRef sig ⟨S1024, .f32⟩) (fun x v => Host.reduceAdd x v reducesTo_S50000x1024_S1024_d0 h_S_),
    StableHlo.TRef.unary (.of main_call2_v9 : StableHlo.TRef sig ⟨S1024, .f32⟩) (.of main_call2_v10 : StableHlo.TRef sig ⟨S1x1024, .f32⟩) (broadcastInDim S1x1024 ![1] bcast_S1024_S1x1024_1),
    StableHlo.TRef.unary (.of main_call2_v8 : StableHlo.TRef sig ⟨S_, .f32⟩) (.of main_call2_v11 : StableHlo.TRef sig ⟨S1x1024, .f32⟩) (broadcastInDim S1x1024 ![] bcast_S_S1x1024),
    StableHlo.TRef.binary (.of main_call2_v10 : StableHlo.TRef sig ⟨S1x1024, .f32⟩) (.of main_call2_v11 : StableHlo.TRef sig ⟨S1x1024, .f32⟩) (.of main_call2_v12 : StableHlo.TRef sig ⟨S1x1024, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x1024, .f32⟩) (broadcastInDim S1x1024 ![] bcast_S_S1x1024),
    StableHlo.TRef.ternary (.of main_call2_v13 : StableHlo.TRef sig ⟨S_, .i1⟩) (.of main_call2_v12 : StableHlo.TRef sig ⟨S1x1024, .f32⟩) (.of main_call2_call0_v1 : StableHlo.TRef sig ⟨S1x1024, .f32⟩) (.of main_v43 : StableHlo.TRef sig ⟨S1x1024, .f32⟩) (fun p a b => select (broadcastInDim S1x1024 ![] bcast_S_S1x1024 p) a b) ]

/-- The buffers those operations write. -/
abbrev W5 : List (Ref sig .tc) :=
  [main_cst_4, main_v39, main_v40, main_cst_5, main_v41, main_v42, main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v43]

/-- Operations 100 … 120 of 120, in order. -/
abbrev s6 : List (HloOp τ sig (Elt F)) :=
  [ StableHlo.unary main_v42 main_v44 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v38 main_v44 main_v45 (subf : (⟨S50000x1024, .f32⟩ : BufTy).Contents (Elt F) → (⟨S50000x1024, .f32⟩ : BufTy).Contents (Elt F) → (⟨S50000x1024, .f32⟩ : BufTy).Contents (Elt F)),
    StableHlo.nullary main_cst_7 (constant S_ .f32 0x3727C5AC#32),
    StableHlo.unary main_cst_7 main_v46 (broadcastInDim S1x1024 ![] bcast_S_S1x1024 : (⟨S_, .f32⟩ : BufTy).Contents (Elt F) → (⟨S1x1024, .f32⟩ : BufTy).Contents (Elt F)),
    StableHlo.binary main_v43 main_v46 main_v47 (addf : (⟨S1x1024, .f32⟩ : BufTy).Contents (Elt F) → (⟨S1x1024, .f32⟩ : BufTy).Contents (Elt F) → (⟨S1x1024, .f32⟩ : BufTy).Contents (Elt F)),
    StableHlo.unary main_v47 main_v48 (Host.rsqrt : (⟨S1x1024, .f32⟩ : BufTy).Contents (Elt F) → (⟨S1x1024, .f32⟩ : BufTy).Contents (Elt F)),
    StableHlo.unary main_v48 main_v49 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v45 main_v49 main_v50 (mulf : (⟨S50000x1024, .f32⟩ : BufTy).Contents (Elt F) → (⟨S50000x1024, .f32⟩ : BufTy).Contents (Elt F) → (⟨S50000x1024, .f32⟩ : BufTy).Contents (Elt F)),
    StableHlo.unary main_arg11 main_v51 (broadcastInDim S1x1024 ![1] bcast_S1024_S1x1024_1 : (⟨S1024, .f32⟩ : BufTy).Contents (Elt F) → (⟨S1x1024, .f32⟩ : BufTy).Contents (Elt F)),
    StableHlo.unary main_v51 main_v52 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v50 main_v52 main_v53 (mulf : (⟨S50000x1024, .f32⟩ : BufTy).Contents (Elt F) → (⟨S50000x1024, .f32⟩ : BufTy).Contents (Elt F) → (⟨S50000x1024, .f32⟩ : BufTy).Contents (Elt F)),
    StableHlo.unary main_arg12 main_v54 (broadcastInDim S1x1024 ![1] bcast_S1024_S1x1024_1 : (⟨S1024, .f32⟩ : BufTy).Contents (Elt F) → (⟨S1x1024, .f32⟩ : BufTy).Contents (Elt F)),
    StableHlo.unary main_v54 main_v55 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v53 main_v55 main_v56 (addf : (⟨S50000x1024, .f32⟩ : BufTy).Contents (Elt F) → (⟨S50000x1024, .f32⟩ : BufTy).Contents (Elt F) → (⟨S50000x1024, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x1024, .f32⟩) (broadcastInDim S50000x1024 ![] bcast_S_S50000x1024),
    StableHlo.TRef.binary (.of main_v56 : StableHlo.TRef sig ⟨S50000x1024, .f32⟩) (.of main_call3_v0 : StableHlo.TRef sig ⟨S50000x1024, .f32⟩) (.of main_v57 : StableHlo.TRef sig ⟨S50000x1024, .f32⟩) maximumf,
    StableHlo.binary main_v57 main_arg13 main_v58 ((fun l r => Host.dotGeneral dot_S50000x1024_S1024x37_S50000x37_1_0_0_1_n_n none l r) : (⟨S50000x1024, .f32⟩ : BufTy).Contents (Elt F) → (⟨S1024x37, .f32⟩ : BufTy).Contents (Elt F) → (⟨S50000x37, .f32⟩ : BufTy).Contents (Elt F)),
    StableHlo.unary main_arg14 main_v59 (broadcastInDim S1x37 ![1] bcast_S37_S1x37_1 : (⟨S37, .f32⟩ : BufTy).Contents (Elt F) → (⟨S1x37, .f32⟩ : BufTy).Contents (Elt F)),
    StableHlo.unary main_v59 main_v60 (broadcastInDim S50000x37 ![0, 1] bcast_S1x37_S50000x37_0_1 : (⟨S1x37, .f32⟩ : BufTy).Contents (Elt F) → (⟨S50000x37, .f32⟩ : BufTy).Contents (Elt F)),
    StableHlo.binary main_v58 main_v60 main_v61 (addf : (⟨S50000x37, .f32⟩ : BufTy).Contents (Elt F) → (⟨S50000x37, .f32⟩ : BufTy).Contents (Elt F) → (⟨S50000x37, .f32⟩ : BufTy).Contents (Elt F)) ]

/-- The buffers those operations write. -/
abbrev W6 : List (Ref sig .tc) :=
  [main_v44, main_v45, main_cst_7, main_v46, main_v47, main_v48, main_v49, main_v50, main_v51, main_v52, main_v53, main_v54, main_v55, main_v56, main_call3_cst, main_call3_v0, main_v57, main_v58, main_v59, main_v60, main_v61]

/-- All 120 operations, in order. -/
abbrev ops : List (HloOp τ sig (Elt F)) :=
  [ StableHlo.binary main_arg0 main_arg4 main_v0 ((fun l r => Host.dotGeneral dot_S50000x36_S36x200_S50000x200_1_0_0_1_n_n none l r) : (⟨S50000x36, .f32⟩ : BufTy).Contents (Elt F) → (⟨S36x200, .f32⟩ : BufTy).Contents (Elt F) → (⟨S50000x200, .f32⟩ : BufTy).Contents (Elt F)),
    StableHlo.unary main_arg1 main_v1 ((extractStridedSlice S50000x4 ![0, 1] · slices_S50000x5_S50000x4_0_1) : (⟨S50000x5, .f32⟩ : BufTy).Contents (Elt F) → (⟨S50000x4, .f32⟩ : BufTy).Contents (Elt F)),
    StableHlo.unary main_v1 main_v2 ((extractStridedSlice S50000x2 ![0, 0] · slices_S50000x4_S50000x2_0_0) : (⟨S50000x4, .f32⟩ : BufTy).Contents (Elt F) → (⟨S50000x2, .f32⟩ : BufTy).Contents (Elt F)),
    StableHlo.unary main_v1 main_v3 ((extractStridedSlice S50000x2 ![0, 2] · slices_S50000x4_S50000x2_0_2) : (⟨S50000x4, .f32⟩ : BufTy).Contents (Elt F) → (⟨S50000x2, .f32⟩ : BufTy).Contents (Elt F)),
    StableHlo.binary main_v2 main_v3 main_v4 (addf : (⟨S50000x2, .f32⟩ : BufTy).Contents (Elt F) → (⟨S50000x2, .f32⟩ : BufTy).Contents (Elt F) → (⟨S50000x2, .f32⟩ : BufTy).Contents (Elt F)),
    StableHlo.nullary main_cst (constant S_ .f32 0x3F000000#32),
    StableHlo.unary main_cst main_v5 (broadcastInDim S50000x2 ![] bcast_S_S50000x2 : (⟨S_, .f32⟩ : BufTy).Contents (Elt F) → (⟨S50000x2, .f32⟩ : BufTy).Contents (Elt F)),
    StableHlo.binary main_v4 main_v5 main_v6 (mulf : (⟨S50000x2, .f32⟩ : BufTy).Contents (Elt F) → (⟨S50000x2, .f32⟩ : BufTy).Contents (Elt F) → (⟨S50000x2, .f32⟩ : BufTy).Contents (Elt F)),
    StableHlo.binary main_v3 main_v2 main_v7 (subf : (⟨S50000x2, .f32⟩ : BufTy).Contents (Elt F) → (⟨S50000x2, .f32⟩ : BufTy).Contents (Elt F) → (⟨S50000x2, .f32⟩ : BufTy).Contents (Elt F)),
    StableHlo.nullary main_cst_0 (constant S_ .f32 0x3F800000#32),
    StableHlo.unary main_cst_0 main_v8 (broadcastInDim S50000x2 ![] bcast_S_S50000x2 : (⟨S_, .f32⟩ : BufTy).Contents (Elt F) → (⟨S50000x2, .f32⟩ : BufTy).Contents (Elt F)),
    StableHlo.binary main_v7 main_v8 main_v9 (addf : (⟨S50000x2, .f32⟩ : BufTy).Contents (Elt F) → (⟨S50000x2, .f32⟩ : BufTy).Contents (Elt F) → (⟨S50000x2, .f32⟩ : BufTy).Contents (Elt F)),
    StableHlo.binary main_v6 main_v9 main_v10 ((fun a b => concatenate S50000x4 1 [⟨S50000x2, a⟩, ⟨S50000x2, b⟩] concatenates_S50000x2_S50000x2_S50000x4_d1) : (⟨S50000x2, .f32⟩ : BufTy).Contents (Elt F) → (⟨S50000x2, .f32⟩ : BufTy).Contents (Elt F) → (⟨S50000x4, .f32⟩ : BufTy).Contents (Elt F)),
    StableHlo.nullary main_cst_1 (constant S_ .f32 0x00000000#32),
    StableHlo.binary main_v10 main_cst_1 main_v11 ((fun x v => Host.reduceAdd x v reducesTo_S50000x4_S4_d0 h_S_) : (⟨S50000x4, .f32⟩ : BufTy).Contents (Elt F) → (⟨S_, .f32⟩ : BufTy).Contents (Elt F) → (⟨S4, .f32⟩ : BufTy).Contents (Elt F)),
    StableHlo.unary main_v11 main_v12 (broadcastInDim S1x4 ![1] bcast_S4_S1x4_1 : (⟨S4, .f32⟩ : BufTy).Contents (Elt F) → (⟨S1x4, .f32⟩ : BufTy).Contents (Elt F)),
    StableHlo.nullary main_cst_2 (constant S_ .f32 0x47435000#32),
    StableHlo.unary main_cst_2 main_v13 (broadcastInDim S1x4 ![] bcast_S_S1x4 : (⟨S_, .f32⟩ : BufTy).Contents (Elt F) → (⟨S1x4, .f32⟩ : BufTy).Contents (Elt F)),
    StableHlo.binary main_v12 main_v13 main_v14 (Host.divf : (⟨S1x4, .f32⟩ : BufTy).Contents (Elt F) → (⟨S1x4, .f32⟩ : BufTy).Contents (Elt F) → (⟨S1x4, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v10 : StableHlo.TRef sig ⟨S50000x4, .f32⟩) (.of main_call0_cst : StableHlo.TRef sig ⟨S_, .f32⟩) (.of main_call0_v0 : StableHlo.TRef sig ⟨S4, .f32⟩) (fun x v => Host.reduceAdd x v reducesTo_S50000x4_S4_d0 h_S_),
    StableHlo.TRef.unary (.of main_call0_v0 : StableHlo.TRef sig ⟨S4, .f32⟩) (.of main_call0_v1 : StableHlo.TRef sig ⟨S1x4, .f32⟩) (broadcastInDim S1x4 ![1] bcast_S4_S1x4_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x4, .f32⟩) (broadcastInDim S1x4 ![] bcast_S_S1x4),
    StableHlo.TRef.binary (.of main_call0_v1 : StableHlo.TRef sig ⟨S1x4, .f32⟩) (.of main_call0_v2 : StableHlo.TRef sig ⟨S1x4, .f32⟩) (.of main_call0_v3 : StableHlo.TRef sig ⟨S1x4, .f32⟩) Host.divf,
    StableHlo.TRef.unary (.of main_call0_v3 : StableHlo.TRef sig ⟨S1x4, .f32⟩) (.of main_call0_v4 : StableHlo.TRef sig ⟨S50000x4, .f32⟩) (broadcastInDim S50000x4 ![0, 1] bcast_S1x4_S50000x4_0_1),
    StableHlo.TRef.binary (.of main_v10 : StableHlo.TRef sig ⟨S50000x4, .f32⟩) (.of main_call0_v4 : StableHlo.TRef sig ⟨S50000x4, .f32⟩) (.of main_call0_v5 : StableHlo.TRef sig ⟨S50000x4, .f32⟩) subf,
    StableHlo.TRef.binary (.of main_call0_v5 : StableHlo.TRef sig ⟨S50000x4, .f32⟩) (.of main_call0_v5 : StableHlo.TRef sig ⟨S50000x4, .f32⟩) (.of main_call0_v6 : StableHlo.TRef sig ⟨S50000x4, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x4, .f32⟩) (.of main_call0_cst_2 : StableHlo.TRef sig ⟨S_, .f32⟩) (.of main_call0_v9 : StableHlo.TRef sig ⟨S4, .f32⟩) (fun x v => Host.reduceAdd x v reducesTo_S50000x4_S4_d0 h_S_),
    StableHlo.TRef.unary (.of main_call0_v9 : StableHlo.TRef sig ⟨S4, .f32⟩) (.of main_call0_v10 : StableHlo.TRef sig ⟨S1x4, .f32⟩) (broadcastInDim S1x4 ![1] bcast_S4_S1x4_1),
    StableHlo.TRef.unary (.of main_call0_v8 : StableHlo.TRef sig ⟨S_, .f32⟩) (.of main_call0_v11 : StableHlo.TRef sig ⟨S1x4, .f32⟩) (broadcastInDim S1x4 ![] bcast_S_S1x4),
    StableHlo.TRef.binary (.of main_call0_v10 : StableHlo.TRef sig ⟨S1x4, .f32⟩) (.of main_call0_v11 : StableHlo.TRef sig ⟨S1x4, .f32⟩) (.of main_call0_v12 : StableHlo.TRef sig ⟨S1x4, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S1x4, .f32⟩) (broadcastInDim S1x4 ![] bcast_S_S1x4),
    StableHlo.TRef.ternary (.of main_call0_v13 : StableHlo.TRef sig ⟨S_, .i1⟩) (.of main_call0_v12 : StableHlo.TRef sig ⟨S1x4, .f32⟩) (.of main_call0_call0_v1 : StableHlo.TRef sig ⟨S1x4, .f32⟩) (.of main_v15 : StableHlo.TRef sig ⟨S1x4, .f32⟩) (fun p a b => select (broadcastInDim S1x4 ![] bcast_S_S1x4 p) a b),
    StableHlo.unary main_v14 main_v16 (broadcastInDim S50000x4 ![0, 1] bcast_S1x4_S50000x4_0_1 : (⟨S1x4, .f32⟩ : BufTy).Contents (Elt F) → (⟨S50000x4, .f32⟩ : BufTy).Contents (Elt F)),
    StableHlo.binary main_v10 main_v16 main_v17 (subf : (⟨S50000x4, .f32⟩ : BufTy).Contents (Elt F) → (⟨S50000x4, .f32⟩ : BufTy).Contents (Elt F) → (⟨S50000x4, .f32⟩ : BufTy).Contents (Elt F)),
    StableHlo.nullary main_cst_3 (constant S_ .f32 0x3727C5AC#32),
    StableHlo.unary main_cst_3 main_v18 (broadcastInDim S1x4 ![] bcast_S_S1x4 : (⟨S_, .f32⟩ : BufTy).Contents (Elt F) → (⟨S1x4, .f32⟩ : BufTy).Contents (Elt F)),
    StableHlo.binary main_v15 main_v18 main_v19 (addf : (⟨S1x4, .f32⟩ : BufTy).Contents (Elt F) → (⟨S1x4, .f32⟩ : BufTy).Contents (Elt F) → (⟨S1x4, .f32⟩ : BufTy).Contents (Elt F)),
    StableHlo.unary main_v19 main_v20 (Host.rsqrt : (⟨S1x4, .f32⟩ : BufTy).Contents (Elt F) → (⟨S1x4, .f32⟩ : BufTy).Contents (Elt F)),
    StableHlo.unary main_v20 main_v21 (broadcastInDim S50000x4 ![0, 1] bcast_S1x4_S50000x4_0_1 : (⟨S1x4, .f32⟩ : BufTy).Contents (Elt F) → (⟨S50000x4, .f32⟩ : BufTy).Contents (Elt F)),
    StableHlo.binary main_v17 main_v21 main_v22 (mulf : (⟨S50000x4, .f32⟩ : BufTy).Contents (Elt F) → (⟨S50000x4, .f32⟩ : BufTy).Contents (Elt F) → (⟨S50000x4, .f32⟩ : BufTy).Contents (Elt F)),
    StableHlo.unary main_arg5 main_v23 (broadcastInDim S1x4 ![1] bcast_S4_S1x4_1 : (⟨S4, .f32⟩ : BufTy).Contents (Elt F) → (⟨S1x4, .f32⟩ : BufTy).Contents (Elt F)),
    StableHlo.unary main_v23 main_v24 (broadcastInDim S50000x4 ![0, 1] bcast_S1x4_S50000x4_0_1 : (⟨S1x4, .f32⟩ : BufTy).Contents (Elt F) → (⟨S50000x4, .f32⟩ : BufTy).Contents (Elt F)),
    StableHlo.binary main_v22 main_v24 main_v25 (mulf : (⟨S50000x4, .f32⟩ : BufTy).Contents (Elt F) → (⟨S50000x4, .f32⟩ : BufTy).Contents (Elt F) → (⟨S50000x4, .f32⟩ : BufTy).Contents (Elt F)),
    StableHlo.unary main_arg6 main_v26 (broadcastInDim S1x4 ![1] bcast_S4_S1x4_1 : (⟨S4, .f32⟩ : BufTy).Contents (Elt F) → (⟨S1x4, .f32⟩ : BufTy).Contents (Elt F)),
    StableHlo.unary main_v26 main_v27 (broadcastInDim S50000x4 ![0, 1] bcast_S1x4_S50000x4_0_1 : (⟨S1x4, .f32⟩ : BufTy).Contents (Elt F) → (⟨S50000x4, .f32⟩ : BufTy).Contents (Elt F)),
    StableHlo.binary main_v25 main_v27 main_v28 (addf : (⟨S50000x4, .f32⟩ : BufTy).Contents (Elt F) → (⟨S50000x4, .f32⟩ : BufTy).Contents (Elt F) → (⟨S50000x4, .f32⟩ : BufTy).Contents (Elt F)),
    StableHlo.binary main_v28 main_arg7 main_v29 ((fun l r => Host.dotGeneral dot_S50000x4_S4x128_S50000x128_1_0_0_1_n_n none l r) : (⟨S50000x4, .f32⟩ : BufTy).Contents (Elt F) → (⟨S4x128, .f32⟩ : BufTy).Contents (Elt F) → (⟨S50000x128, .f32⟩ : BufTy).Contents (Elt F)),
    StableHlo.unary main_arg8 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v32 : StableHlo.TRef sig ⟨S50000x128, .f32⟩) (.of main_call1_v0 : StableHlo.TRef sig ⟨S50000x128, .f32⟩) (.of main_v33 : StableHlo.TRef sig ⟨S50000x128, .f32⟩) maximumf,
    StableHlo.nary ![main_arg2, main_v0, main_v33] main_v34 (fun u => concatenate S50000x2376 1 [⟨S50000x2048, u 0⟩, ⟨S50000x200, u 1⟩, ⟨S50000x128, u 2⟩] concatenates_S50000x2048_S50000x200_S50000x128_S50000x2376_d1),
    StableHlo.binary main_v34 main_arg9 main_v35 ((fun l r => Host.dotGeneral dot_S50000x2376_S2376x1024_S50000x1024_1_0_0_1_n_n none l r) : (⟨S50000x2376, .f32⟩ : BufTy).Contents (Elt F) → (⟨S2376x1024, .f32⟩ : BufTy).Contents (Elt F) → (⟨S50000x1024, .f32⟩ : BufTy).Contents (Elt F)),
    StableHlo.unary main_arg10 main_v36 (broadcastInDim S1x1024 ![1] bcast_S1024_S1x1024_1 : (⟨S1024, .f32⟩ : BufTy).Contents (Elt F) → (⟨S1x1024, .f32⟩ : BufTy).Contents (Elt F)),
    StableHlo.unary main_v36 main_v37 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v35 main_v37 main_v38 (addf : (⟨S50000x1024, .f32⟩ : BufTy).Contents (Elt F) → (⟨S50000x1024, .f32⟩ : BufTy).Contents (Elt F) → (⟨S50000x1024, .f32⟩ : BufTy).Contents (Elt F)),
    StableHlo.nullary main_cst_4 (constant S_ .f32 0x00000000#32),
    StableHlo.binary main_v38 main_cst_4 main_v39 ((fun x v => Host.reduceAdd x v reducesTo_S50000x1024_S1024_d0 h_S_) : (⟨S50000x1024, .f32⟩ : BufTy).Contents (Elt F) → (⟨S_, .f32⟩ : BufTy).Contents (Elt F) → (⟨S1024, .f32⟩ : BufTy).Contents (Elt F)),
    StableHlo.unary main_v39 main_v40 (broadcastInDim S1x1024 ![1] bcast_S1024_S1x1024_1 : (⟨S1024, .f32⟩ : BufTy).Contents (Elt F) → (⟨S1x1024, .f32⟩ : BufTy).Contents (Elt F)),
    StableHlo.nullary main_cst_5 (constant S_ .f32 0x47435000#32),
    StableHlo.unary main_cst_5 main_v41 (broadcastInDim S1x1024 ![] bcast_S_S1x1024 : (⟨S_, .f32⟩ : BufTy).Contents (Elt F) → (⟨S1x1024, .f32⟩ : BufTy).Contents (Elt F)),
    StableHlo.binary main_v40 main_v41 main_v42 (Host.divf : (⟨S1x1024, .f32⟩ : BufTy).Contents (Elt F) → (⟨S1x1024, .f32⟩ : BufTy).Contents (Elt F) → (⟨S1x1024, .f32⟩ : BufTy).Contents (Elt F)),
    StableHlo.nullary main_c_6 (constantI S_ 32 0#32),
    StableHlo.TRef.nullary (.of main_call2_cst : StableHlo.TRef sig ⟨S_, .f32⟩) (constant S_ .f32 0x00000000#32),
    StableHlo.TRef.binary (.of main_v38 : StableHlo.TRef sig ⟨S50000x1024, .f32⟩) (.of main_call2_cst : StableHlo.TRef sig ⟨S_, .f32⟩) (.of main_call2_v0 : StableHlo.TRef sig ⟨S1024, .f32⟩) (fun x v => Host.reduceAdd x v reducesTo_S50000x1024_S1024_d0 h_S_),
    StableHlo.TRef.unary (.of main_call2_v0 : StableHlo.TRef sig ⟨S1024, .f32⟩) (.of main_call2_v1 : StableHlo.TRef sig ⟨S1x1024, .f32⟩) (broadcastInDim S1x1024 ![1] bcast_S1024_S1x1024_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x1024, .f32⟩) (broadcastInDim S1x1024 ![] bcast_S_S1x1024),
    StableHlo.TRef.binary (.of main_call2_v1 : StableHlo.TRef sig ⟨S1x1024, .f32⟩) (.of main_call2_v2 : StableHlo.TRef sig ⟨S1x1024, .f32⟩) (.of main_call2_v3 : StableHlo.TRef sig ⟨S1x1024, .f32⟩) Host.divf,
    StableHlo.TRef.unary (.of main_call2_v3 : StableHlo.TRef sig ⟨S1x1024, .f32⟩) (.of main_call2_v4 : StableHlo.TRef sig ⟨S50000x1024, .f32⟩) (broadcastInDim S50000x1024 ![0, 1] bcast_S1x1024_S50000x1024_0_1),
    StableHlo.TRef.binary (.of main_v38 : StableHlo.TRef sig ⟨S50000x1024, .f32⟩) (.of main_call2_v4 : StableHlo.TRef sig ⟨S50000x1024, .f32⟩) (.of main_call2_v5 : StableHlo.TRef sig ⟨S50000x1024, .f32⟩) subf,
    StableHlo.TRef.binary (.of main_call2_v5 : StableHlo.TRef sig ⟨S50000x1024, .f32⟩) (.of main_call2_v5 : StableHlo.TRef sig ⟨S50000x1024, .f32⟩) (.of main_call2_v6 : StableHlo.TRef sig ⟨S50000x1024, .f32⟩) mulf,
    StableHlo.TRef.unary (.of main_c_6 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x1024, .f32⟩) (.of main_call2_cst_2 : StableHlo.TRef sig ⟨S_, .f32⟩) (.of main_call2_v9 : StableHlo.TRef sig ⟨S1024, .f32⟩) (fun x v => Host.reduceAdd x v reducesTo_S50000x1024_S1024_d0 h_S_),
    StableHlo.TRef.unary (.of main_call2_v9 : StableHlo.TRef sig ⟨S1024, .f32⟩) (.of main_call2_v10 : StableHlo.TRef sig ⟨S1x1024, .f32⟩) (broadcastInDim S1x1024 ![1] bcast_S1024_S1x1024_1),
    StableHlo.TRef.unary (.of main_call2_v8 : StableHlo.TRef sig ⟨S_, .f32⟩) (.of main_call2_v11 : StableHlo.TRef sig ⟨S1x1024, .f32⟩) (broadcastInDim S1x1024 ![] bcast_S_S1x1024),
    StableHlo.TRef.binary (.of main_call2_v10 : StableHlo.TRef sig ⟨S1x1024, .f32⟩) (.of main_call2_v11 : StableHlo.TRef sig ⟨S1x1024, .f32⟩) (.of main_call2_v12 : StableHlo.TRef sig ⟨S1x1024, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x1024, .f32⟩) (broadcastInDim S1x1024 ![] bcast_S_S1x1024),
    StableHlo.TRef.ternary (.of main_call2_v13 : StableHlo.TRef sig ⟨S_, .i1⟩) (.of main_call2_v12 : StableHlo.TRef sig ⟨S1x1024, .f32⟩) (.of main_call2_call0_v1 : StableHlo.TRef sig ⟨S1x1024, .f32⟩) (.of main_v43 : StableHlo.TRef sig ⟨S1x1024, .f32⟩) (fun p a b => select (broadcastInDim S1x1024 ![] bcast_S_S1x1024 p) a b),
    StableHlo.unary main_v42 main_v44 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v38 main_v44 main_v45 (subf : (⟨S50000x1024, .f32⟩ : BufTy).Contents (Elt F) → (⟨S50000x1024, .f32⟩ : BufTy).Contents (Elt F) → (⟨S50000x1024, .f32⟩ : BufTy).Contents (Elt F)),
    StableHlo.nullary main_cst_7 (constant S_ .f32 0x3727C5AC#32),
    StableHlo.unary main_cst_7 main_v46 (broadcastInDim S1x1024 ![] bcast_S_S1x1024 : (⟨S_, .f32⟩ : BufTy).Contents (Elt F) → (⟨S1x1024, .f32⟩ : BufTy).Contents (Elt F)),
    StableHlo.binary main_v43 main_v46 main_v47 (addf : (⟨S1x1024, .f32⟩ : BufTy).Contents (Elt F) → (⟨S1x1024, .f32⟩ : BufTy).Contents (Elt F) → (⟨S1x1024, .f32⟩ : BufTy).Contents (Elt F)),
    StableHlo.unary main_v47 main_v48 (Host.rsqrt : (⟨S1x1024, .f32⟩ : BufTy).Contents (Elt F) → (⟨S1x1024, .f32⟩ : BufTy).Contents (Elt F)),
    StableHlo.unary main_v48 main_v49 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v45 main_v49 main_v50 (mulf : (⟨S50000x1024, .f32⟩ : BufTy).Contents (Elt F) → (⟨S50000x1024, .f32⟩ : BufTy).Contents (Elt F) → (⟨S50000x1024, .f32⟩ : BufTy).Contents (Elt F)),
    StableHlo.unary main_arg11 main_v51 (broadcastInDim S1x1024 ![1] bcast_S1024_S1x1024_1 : (⟨S1024, .f32⟩ : BufTy).Contents (Elt F) → (⟨S1x1024, .f32⟩ : BufTy).Contents (Elt F)),
    StableHlo.unary main_v51 main_v52 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v50 main_v52 main_v53 (mulf : (⟨S50000x1024, .f32⟩ : BufTy).Contents (Elt F) → (⟨S50000x1024, .f32⟩ : BufTy).Contents (Elt F) → (⟨S50000x1024, .f32⟩ : BufTy).Contents (Elt F)),
    StableHlo.unary main_arg12 main_v54 (broadcastInDim S1x1024 ![1] bcast_S1024_S1x1024_1 : (⟨S1024, .f32⟩ : BufTy).Contents (Elt F) → (⟨S1x1024, .f32⟩ : BufTy).Contents (Elt F)),
    StableHlo.unary main_v54 main_v55 (broadcastInDim S50000x1024 ![0, 1] bcast_S1x1024_S50000x1024_0_1 : (⟨S1x1024, .f32⟩ : BufTy).Contents (Elt F) → (⟨S50000x1024, .f32⟩ : BufTy).Contents (Elt F)),
    StableHlo.binary main_v53 main_v55 main_v56 (addf : (⟨S50000x1024, .f32⟩ : BufTy).Contents (Elt F) → (⟨S50000x1024, .f32⟩ : BufTy).Contents (Elt F) → (⟨S50000x1024, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x1024, .f32⟩) (broadcastInDim S50000x1024 ![] bcast_S_S50000x1024),
    StableHlo.TRef.binary (.of main_v56 : StableHlo.TRef sig ⟨S50000x1024, .f32⟩) (.of main_call3_v0 : StableHlo.TRef sig ⟨S50000x1024, .f32⟩) (.of main_v57 : StableHlo.TRef sig ⟨S50000x1024, .f32⟩) maximumf,
    StableHlo.binary main_v57 main_arg13 main_v58 ((fun l r => Host.dotGeneral dot_S50000x1024_S1024x37_S50000x37_1_0_0_1_n_n none l r) : (⟨S50000x1024, .f32⟩ : BufTy).Contents (Elt F) → (⟨S1024x37, .f32⟩ : BufTy).Contents (Elt F) → (⟨S50000x37, .f32⟩ : BufTy).Contents (Elt F)),
    StableHlo.unary main_arg14 main_v59 (broadcastInDim S1x37 ![1] bcast_S37_S1x37_1 : (⟨S37, .f32⟩ : BufTy).Contents (Elt F) → (⟨S1x37, .f32⟩ : BufTy).Contents (Elt F)),
    StableHlo.unary main_v59 main_v60 (broadcastInDim S50000x37 ![0, 1] bcast_S1x37_S50000x37_0_1 : (⟨S1x37, .f32⟩ : BufTy).Contents (Elt F) → (⟨S50000x37, .f32⟩ : BufTy).Contents (Elt F)),
    StableHlo.binary main_v58 main_v60 main_v61 (addf : (⟨S50000x37, .f32⟩ : BufTy).Contents (Elt F) → (⟨S50000x37, .f32⟩ : BufTy).Contents (Elt F) → (⟨S50000x37, .f32⟩ : BufTy).Contents (Elt F)) ]

end Cert.ReferenceIdeal.RRun

end
-- ==== Proof.RTerms.lean ====
/-
  The reference's stages as functions of arrays, in the reference's own operations: the class-distribution embedding,
  the normalised box geometry and its rectified linear layer, the concatenated feature row, the hidden layer's
  pre-activation, its normalisation and rectifier, and the class scores. The small shared quantities (the box geometry
  and the column statistics) are Model's, unopened. `refOut` is their composition: what the reference computes
  from its arguments.
-/
import proofs.«154883_j74363063763324_1_alg».proof.Proof.Gen.ReferenceIdeal
import proofs.«154883_j74363063763324_1_alg».proof.Proof.Model

noncomputable section

namespace Cert.ReferenceIdeal.RVal

open Cert.ReferenceIdeal Idealize.ShloMosaic
open Cert.ReferenceIdeal.Facts₀

variable {F : FTy → Type} [FloatOps F]

/-- emb = dist · We. -/
def rE (a0 : FVec F S50000x36 .f32) (a4 : FVec F S36x200 .f32) : FVec F S50000x200 .f32 :=
  Host.dotGeneral dot_S50000x36_S36x200_S50000x200_1_0_0_1_n_n none a0 a4

/-- n = ((P − μ)·rsqrt(σ² + ε))·γ + β, the statistics and the two vectors spread over the rows. -/
def rPn (P : FVec F S50000x4 .f32) (μ σ : FVec F S1x4 .f32) (a5 a6 : FVec F S4 .f32) : FVec F S50000x4 .f32 :=
  addf
    (mulf
      (mulf (subf P (broadcastInDim S50000x4 ![0, 1] bcast_S1x4_S50000x4_0_1 μ))
        (broadcastInDim S50000x4 ![0, 1] bcast_S1x4_S50000x4_0_1
          (Host.rsqrt (addf σ (broadcastInDim S1x4 ![] bcast_S_S1x4 (constant S_ .f32 0x3727C5AC#32))))))
      (broadcastInDim S50000x4 ![0, 1] bcast_S1x4_S50000x4_0_1 (broadcastInDim S1x4 ![1] bcast_S4_S1x4_1 a5)))
    (broadcastInDim S50000x4 ![0, 1] bcast_S1x4_S50000x4_0_1 (broadcastInDim S1x4 ![1] bcast_S4_S1x4_1 a6))

/-- pos = max(n · Wp + bp, 0). -/
def rPh (Pn : FVec F S50000x4 .f32) (a7 : FVec F S4x128 .f32) (a8 : FVec F S128 .f32) : FVec F S50000x128 .f32 :=
  maximumf
    (addf (Host.dotGeneral dot_S50000x4_S4x128_S50000x128_1_0_0_1_n_n none Pn a7)
      (broadcastInDim S50000x128 ![0, 1] bcast_S1x128_S50000x128_0_1 (broadcastInDim S1x128 ![1] bcast_S128_S1x128_1 a8)))
    (broadcastInDim S50000x128 ![] bcast_S_S50000x128 (constant S_ .f32 0x00000000#32))

/-- The feature row [feat | emb | pos]. -/
def rC (a2 : FVec F S50000x2048 .f32) (E : FVec F S50000x200 .f32) (Ph : FVec F S50000x128 .f32) : FVec F S50000x2376 .f32 :=
  concatenate S50000x2376 1 [⟨S50000x2048, a2⟩, ⟨S50000x200, E⟩, ⟨S50000x128, Ph⟩]
    concatenates_S50000x2048_S50000x200_S50000x128_S50000x2376_d1

/-- u = row · W + b. -/
def rU (C : FVec F S50000x2376 .f32) (a9 : FVec F S2376x1024 .f32) (a10 : FVec F S1024 .f32) : FVec F S50000x1024 .f32 :=
  addf (Host.dotGeneral dot_S50000x2376_S2376x1024_S50000x1024_1_0_0_1_n_n none C a9)
    (broadcastInDim S50000x1024 ![0, 1] bcast_S1x1024_S50000x1024_0_1 (broadcastInDim S1x1024 ![1] bcast_S1024_S1x1024_1 a10))

/-- h = max(((u − μh)·rsqrt(σh² + ε))·γh + βh, 0). -/
def rH (U : FVec F S50000x1024 .f32) (μh σh : FVec F S1x1024 .f32) (a11 a12 : FVec F S1024 .f32) : FVec F S50000x1024 .f32 :=
  maximumf
    (addf
      (mulf
        (mulf (subf U (broadcastInDim S50000x1024 ![0, 1] bcast_S1x1024_S50000x1024_0_1 μh))
          (broadcastInDim S50000x1024 ![0, 1] bcast_S1x1024_S50000x1024_0_1
            (Host.rsqrt (addf σh (broadcastInDim S1x1024 ![] bcast_S_S1x1024 (constant S_ .f32 0x3727C5AC#32))))))
        (broadcastInDim S50000x1024 ![0, 1] bcast_S1x1024_S50000x1024_0_1 (broadcastInDim S1x1024 ![1] bcast_S1024_S1x1024_1 a11)))
      (broadcastInDim S50000x1024 ![0, 1] bcast_S1x1024_S50000x1024_0_1 (broadcastInDim S1x1024 ![1] bcast_S1024_S1x1024_1 a12)))
    (broadcastInDim S50000x1024 ![] bcast_S_S50000x1024 (constant S_ .f32 0x00000000#32))

/-- out = h · Wd + bd. -/
def rOut (H : FVec F S50000x1024 .f32) (a13 : FVec F S1024x37 .f32) (a14 : FVec F S37 .f32) : FVec F S50000x37 .f32 :=
  addf (Host.dotGeneral dot_S50000x1024_S1024x37_S50000x37_1_0_0_1_n_n none H a13)
    (broadcastInDim S50000x37 ![0, 1] bcast_S1x37_S50000x37_0_1 (broadcastInDim S1x37 ![1] bcast_S37_S1x37_1 a14))

/-- The hidden pre-activation from the arguments. -/
def refU (a0 : FVec F S50000x36 .f32) (a1 : FVec F S50000x5 .f32) (a2 : FVec F S50000x2048 .f32) (a4 : FVec F S36x200 .f32)
    (a5 a6 : FVec F S4 .f32) (a7 : FVec F S4x128 .f32) (a8 : FVec F S128 .f32) (a9 : FVec F S2376x1024 .f32)
    (a10 : FVec F S1024 .f32) : FVec F S50000x1024 .f32 :=
  rU (rC a2 (rE a0 a4)
      (rPh (rPn (Cert.Model.posRaw a1) (Cert.Model.mean4 (Cert.Model.posRaw a1)) (Cert.Model.var4 (Cert.Model.posRaw a1)) a5 a6) a7 a8))
    a9 a10

/-- What the reference computes from its arguments. -/
def refOut (a0 : FVec F S50000x36 .f32) (a1 : FVec F S50000x5 .f32) (a2 : FVec F S50000x2048 .f32) (a4 : FVec F S36x200 .f32)
    (a5 a6 : FVec F S4 .f32) (a7 : FVec F S4x128 .f32) (a8 : FVec F S128 .f32) (a9 : FVec F S2376x1024 .f32)
    (a10 a11 a12 : FVec F S1024 .f32) (a13 : FVec F S1024x37 .f32) (a14 : FVec F S37 .f32) : FVec F S50000x37 .f32 :=
  rOut (rH (refU a0 a1 a2 a4 a5 a6 a7 a8 a9 a10) (Cert.Model.meanH (refU a0 a1 a2 a4 a5 a6 a7 a8 a9 a10))
      (Cert.Model.varH (refU a0 a1 a2 a4 a5 a6 a7 a8 a9 a10)) a11 a12) a13 a14

end Cert.ReferenceIdeal.RVal

end
-- ==== Proof.RRun.lean ====
/-
  The reference program's run, read back: its @main is a straight line of host operations (the functions it calls
  unfolded at their call sites), so every weakly fair execution terminates with each buffer at the operations' composed
  term of the launch memory. Read at the result buffer that term is `RVal.refOut` of the arguments; no operation writes
  an argument.

  The line is read in six consecutive stretches, each from ANY contents of the buffers: the box geometry and the
  class-distribution embedding; the geometry's column mean and variance; its normalisation, linear layer and rectifier;
  the feature row and the hidden pre-activation; that array's column mean and variance; its normalisation, rectifier
  and the class scores. A stretch's lemma names the few buffers it reads from before it, so the whole line's value at
  the result is the stretches' values substituted into one another, and a buffer a stretch does not write passes
  through it unchanged.
-/
import proofs.«154883_j74363063763324_1_alg».proof.Proof.Gen.ReferenceIdeal
import proofs.«154883_j74363063763324_1_alg».proof.Proof.RROps
import proofs.«154883_j74363063763324_1_alg».proof.Proof.RTerms
import Idealize.ShloMosaic.Lib.StableHlo.Run

noncomputable section

namespace Cert.ReferenceIdeal.RRun

open Cert.ReferenceIdeal Cert.ReferenceIdeal.Facts₀ Idealize.ShloMosaic Idealize.ShloMosaic.TcCoe Idealize.SL.Sem Idealize.ShloMosaic.StableHlo

variable {F : FTy → Type} [FloatOps F]

/-! ## The program is the line -/

-- one hundred and twenty binds re-associated: the rewrite under the chain recurses once per statement
set_option maxRecDepth 4096 in
/-- @main is the straight line `ops`: its two windows in order, each called function's body unfolded at its call over
    that call's buffers, and sequencing re-associated. -/
theorem main_eq (c : Dev nD) : main (F := F) c = seq ops := by
  simp only [main, main_part0, main_part1, fn_var.body, fn_where.body, fn_relu.body, fn_var_0.body, fn_where_1.body,
    fn_relu_2.body, seq, bind_assoc, pure_bind]

/-- The line is its six stretches one after the other. -/
theorem ops_eq : (ops : List (HloOp τ sig (Elt F))) = s1 ++ (s2 ++ (s3 ++ (s4 ++ (s5 ++ s6)))) := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig := by
  simp only [List.Forall, nullary_bufs_sub, unary_bufs_sub, binary_bufs_sub, ternary_bufs_sub, nary_bufs_sub, and_self]

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch computes, from any contents

Each equation is the stretch's operations composed at the buffer read (an operation's result at its own buffer is its
function of its operands' contents, at any other buffer what was there), and then the definition of the stage on the
right unfolded: the same operations in the same order, the shape facts equal as proofs of one proposition. -/

/-- The box geometry: centre beside extent, from the box table's last four columns. -/
theorem s1_v10 (V : Valuation τ sig (Elt F)) :
    after s1 V (main_v10 : DevRef τ sig) = Cert.Model.posRaw (V (main_arg1 : DevRef τ sig)) := by
  after_results
  rfl

/-- The class-distribution embedding. -/
theorem s1_v0 (V : Valuation τ sig (Elt F)) :
    after s1 V (main_v0 : DevRef τ sig) = RVal.rE (V (main_arg0 : DevRef τ sig)) (V (main_arg4 : DevRef τ sig)) := by
  after_results
  rfl

/-- The geometry's column mean. -/
theorem s2_v14 (V : Valuation τ sig (Elt F)) :
    after s2 V (main_v14 : DevRef τ sig) = Cert.Model.mean4 (V (main_v10 : DevRef τ sig)) := by
  after_results_simp
  rfl

/-- The geometry's column variance: the called function's twenty-three operations, the guard on the divisor included. -/
theorem s2_v15 (V : Valuation τ sig (Elt F)) :
    after s2 V (main_v15 : DevRef τ sig) = Cert.Model.var4 (V (main_v10 : DevRef τ sig)) := by
  after_results_simp
  rfl

/-- The geometry normalised with its statistics, through the linear layer and the rectifier. -/
theorem s3_v33 (V : Valuation τ sig (Elt F)) :
    after s3 V (main_v33 : DevRef τ sig)
      = RVal.rPh (RVal.rPn (V (main_v10 : DevRef τ sig)) (V (main_v14 : DevRef τ sig)) (V (main_v15 : DevRef τ sig))
            (V (main_arg5 : DevRef τ sig)) (V (main_arg6 : DevRef τ sig)))
          (V (main_arg7 : DevRef τ sig)) (V (main_arg8 : DevRef τ sig)) := by
  after_results_simp
  rfl

/-- The feature row (features, embedding, geometry features side by side) through the hidden layer: the pre-activation.
    The three-operand concatenation opens the stretch, so its operands are read straight from the entry contents. -/
theorem s4_v38 (V : Valuation τ sig (Elt F)) :
    after s4 V (main_v38 : DevRef τ sig)
      = RVal.rU (RVal.rC (V (main_arg2 : DevRef τ sig)) (V (main_v0 : DevRef τ sig)) (V (main_v33 : DevRef τ sig)))
          (V (main_arg9 : DevRef τ sig)) (V (main_arg10 : DevRef τ sig)) := by
  after_results
  rfl

/-- The pre-activation's column mean. -/
theorem s5_v42 (V : Valuation τ sig (Elt F)) :
    after s5 V (main_v42 : DevRef τ sig) = Cert.Model.meanH (V (main_v38 : DevRef τ sig)) := by
  after_results_simp
  rfl

/-- The pre-activation's column variance. -/
theorem s5_v43 (V : Valuation τ sig (Elt F)) :
    after s5 V (main_v43 : DevRef τ sig) = Cert.Model.varH (V (main_v38 : DevRef τ sig)) := by
  after_results_simp
  rfl

/-- The pre-activation normalised with its statistics, rectified, through the output layer: the class scores. -/
theorem s6_v61 (V : Valuation τ sig (Elt F)) :
    after s6 V (main_v61 : DevRef τ sig)
      = RVal.rOut (RVal.rH (V (main_v38 : DevRef τ sig)) (V (main_v42 : DevRef τ sig)) (V (main_v43 : DevRef τ sig))
            (V (main_arg11 : DevRef τ sig)) (V (main_arg12 : DevRef τ sig)))
          (V (main_arg13 : DevRef τ sig)) (V (main_arg14 : DevRef τ sig)) := by
  after_results_simp
  rfl

/-! ## What each stretch leaves alone

Every operation writes exactly one buffer; a buffer that is not among a stretch's written ones holds after the stretch
what it held before. Which reference is which is decided over the references. -/

/-- A buffer listed among those a line writes is, as a one-element set, inside the set of that list's device buffers. -/
theorem wr {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem s1_writes : (s1 : List (HloOp τ sig (Elt F))).Forall fun op => op.writes ⊆ (W1.map (Proc.devRef (τ := τ) .tc)).toFinset := by
  simp only [List.Forall]
  repeat' apply And.intro
  all_goals exact wr (by decide)

theorem s1_keep (V : Valuation τ sig (Elt F)) {r : Ref sig .tc} (h : r ∉ W1) :
    after s1 V (Proc.devRef .tc r) = V (Proc.devRef .tc r) := after_of_writes_sub s1 V s1_writes h

theorem s2_writes : (s2 : List (HloOp τ sig (Elt F))).Forall fun op => op.writes ⊆ (W2.map (Proc.devRef (τ := τ) .tc)).toFinset := by
  simp only [List.Forall]
  repeat' apply And.intro
  all_goals exact wr (by decide)

theorem s2_keep (V : Valuation τ sig (Elt F)) {r : Ref sig .tc} (h : r ∉ W2) :
    after s2 V (Proc.devRef .tc r) = V (Proc.devRef .tc r) := after_of_writes_sub s2 V s2_writes h

theorem s3_writes : (s3 : List (HloOp τ sig (Elt F))).Forall fun op => op.writes ⊆ (W3.map (Proc.devRef (τ := τ) .tc)).toFinset := by
  simp only [List.Forall]
  repeat' apply And.intro
  all_goals exact wr (by decide)

theorem s3_keep (V : Valuation τ sig (Elt F)) {r : Ref sig .tc} (h : r ∉ W3) :
    after s3 V (Proc.devRef .tc r) = V (Proc.devRef .tc r) := after_of_writes_sub s3 V s3_writes h

theorem s4_writes : (s4 : List (HloOp τ sig (Elt F))).Forall fun op => op.writes ⊆ (W4.map (Proc.devRef (τ := τ) .tc)).toFinset := by
  simp only [List.Forall]
  repeat' apply And.intro
  all_goals exact wr (by decide)

theorem s4_keep (V : Valuation τ sig (Elt F)) {r : Ref sig .tc} (h : r ∉ W4) :
    after s4 V (Proc.devRef .tc r) = V (Proc.devRef .tc r) := after_of_writes_sub s4 V s4_writes h

theorem s5_writes : (s5 : List (HloOp τ sig (Elt F))).Forall fun op => op.writes ⊆ (W5.map (Proc.devRef (τ := τ) .tc)).toFinset := by
  simp only [List.Forall]
  repeat' apply And.intro
  all_goals exact wr (by decide)

theorem s5_keep (V : Valuation τ sig (Elt F)) {r : Ref sig .tc} (h : r ∉ W5) :
    after s5 V (Proc.devRef .tc r) = V (Proc.devRef .tc r) := after_of_writes_sub s5 V s5_writes h

theorem s6_writes : (s6 : List (HloOp τ sig (Elt F))).Forall fun op => op.writes ⊆ (W6.map (Proc.devRef (τ := τ) .tc)).toFinset := by
  simp only [List.Forall]
  repeat' apply And.intro
  all_goals exact wr (by decide)

theorem s6_keep (V : Valuation τ sig (Elt F)) {r : Ref sig .tc} (h : r ∉ W6) :
    after s6 V (Proc.devRef .tc r) = V (Proc.devRef .tc r) := after_of_writes_sub s6 V s6_writes h

/-- A buffer no stretch writes holds after the whole line what it held before it. -/
theorem ops_keep (V : Valuation τ sig (Elt F)) {r : Ref sig .tc} (h1 : r ∉ W1) (h2 : r ∉ W2) (h3 : r ∉ W3) (h4 : r ∉ W4)
    (h5 : r ∉ W5) (h6 : r ∉ W6) : after ops V (Proc.devRef .tc r) = V (Proc.devRef .tc r) := by
  rw [ops_eq, after_app, after_app, after_app, after_app, after_app, s6_keep _ h6, s5_keep _ h5, s4_keep _ h4, s3_keep _ h3,
    s2_keep _ h2, s1_keep _ h1]

/-! ## The whole line at the result -/

/-- The result buffer after the line is the reference's composed term of the arguments: the last stretch's equation, then
    each buffer it names traced back — through the stretches that leave it alone to the stretch that computes it, or to
    the argument it is — and at the end the definitions of the composed term unfolded. The pre-activation's term stands
    three times in the result (itself and under its two statistics) and the geometry's three times in it; each is
    rewritten where it stands, as one term. -/
theorem out_eq (V : Valuation τ sig (Elt F)) :
    after ops V (main_v61 : DevRef τ sig)
      = RVal.refOut (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [ops_eq, after_app, after_app, after_app, after_app, after_app]
  -- the last stretch: scores from the pre-activation, its statistics and four arguments
  rw [s6_v61]
  -- the fifth stretch computes the statistics and leaves the pre-activation and the arguments alone
  rw [s5_v42, s5_v43, s5_keep _ (r := main_v38) (by decide), s5_keep _ (r := main_arg11) (by decide), s5_keep _ (r := main_arg12) (by decide), s5_keep _ (r := main_arg13) (by decide), s5_keep _ (r := main_arg14) (by decide)]
  -- the fourth stretch computes the pre-activation
  rw [s4_v38, s4_keep _ (r := main_arg11) (by decide), s4_keep _ (r := main_arg12) (by decide), s4_keep _ (r := main_arg13) (by decide), s4_keep _ (r := main_arg14) (by decide)]
  -- the third stretch computes the geometry features and leaves the embedding and the arguments alone
  rw [s3_v33, s3_keep _ (r := main_v0) (by decide), s3_keep _ (r := main_arg2) (by decide), s3_keep _ (r := main_arg9) (by decide), s3_keep _ (r := main_arg10) (by decide), s3_keep _ (r := main_arg11) (by decide), s3_keep _ (r := main_arg12) (by decide), s3_keep _ (r := main_arg13) (by decide), s3_keep _ (r := main_arg14) (by decide)]
  -- the second stretch computes the geometry's statistics
  rw [s2_v14, s2_v15, s2_keep _ (r := main_v10) (by decide), s2_keep _ (r := main_v0) (by decide), s2_keep _ (r := main_arg2) (by decide), s2_keep _ (r := main_arg5) (by decide), s2_keep _ (r := main_arg6) (by decide), s2_keep _ (r := main_arg7) (by decide), s2_keep _ (r := main_arg8) (by decide), s2_keep _ (r := main_arg9) (by decide), s2_keep _ (r := main_arg10) (by decide), s2_keep _ (r := main_arg11) (by decide), s2_keep _ (r := main_arg12) (by decide), s2_keep _ (r := main_arg13) (by decide), s2_keep _ (r := main_arg14) (by decide)]
  -- the first stretch computes the geometry and the embedding
  rw [s1_v10, s1_v0, s1_keep _ (r := main_arg2) (by decide), s1_keep _ (r := main_arg5) (by decide), s1_keep _ (r := main_arg6) (by decide), s1_keep _ (r := main_arg7) (by decide), s1_keep _ (r := main_arg8) (by decide), s1_keep _ (r := main_arg9) (by decide), s1_keep _ (r := main_arg10) (by decide), s1_keep _ (r := main_arg11) (by decide), s1_keep _ (r := main_arg12) (by decide), s1_keep _ (r := main_arg13) (by decide), s1_keep _ (r := main_arg14) (by decide)]
  rfl

/-! ## The run -/

/-- From any memory with zero counters every weakly fair execution of the reference terminates, nothing faulting, with
    the result buffer at the reference's composed term of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = Cert.ReferenceIdeal.RVal.refOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v61).trans (out_eq _),
      (h c main_arg0).trans (ops_keep _ (by decide) (by decide) (by decide) (by decide) (by decide) (by decide)),
      (h c main_arg1).trans (ops_keep _ (by decide) (by decide) (by decide) (by decide) (by decide) (by decide)),
      (h c main_arg2).trans (ops_keep _ (by decide) (by decide) (by decide) (by decide) (by decide) (by decide)),
      (h c main_arg3).trans (ops_keep _ (by decide) (by decide) (by decide) (by decide) (by decide) (by decide)),
      (h c main_arg4).trans (ops_keep _ (by decide) (by decide) (by decide) (by decide) (by decide) (by decide)),
      (h c main_arg5).trans (ops_keep _ (by decide) (by decide) (by decide) (by decide) (by decide) (by decide)),
      (h c main_arg6).trans (ops_keep _ (by decide) (by decide) (by decide) (by decide) (by decide) (by decide)),
      (h c main_arg7).trans (ops_keep _ (by decide) (by decide) (by decide) (by decide) (by decide) (by decide)),
      (h c main_arg8).trans (ops_keep _ (by decide) (by decide) (by decide) (by decide) (by decide) (by decide)),
      (h c main_arg9).trans (ops_keep _ (by decide) (by decide) (by decide) (by decide) (by decide) (by decide)),
      (h c main_arg10).trans (ops_keep _ (by decide) (by decide) (by decide) (by decide) (by decide) (by decide)),
      (h c main_arg11).trans (ops_keep _ (by decide) (by decide) (by decide) (by decide) (by decide) (by decide)),
      (h c main_arg12).trans (ops_keep _ (by decide) (by decide) (by decide) (by decide) (by decide) (by decide)),
      (h c main_arg13).trans (ops_keep _ (by decide) (by decide) (by decide) (by decide) (by decide) (by decide)),
      (h c main_arg14).trans (ops_keep _ (by decide) (by decide) (by decide) (by decide) (by decide) (by decide))⟩)
    (run_seq scopedRefs_eq scopedSems_eq defs main (fun _ => ops) main_eq (fun _ => ops_sub) m ρ)

end Cert.ReferenceIdeal.RRun

end
-- ==== Proof.RReadOut.lean ====
/-
  The reference's second stage read index by index on the extended reals, against Spec: the class score at (r, j) is the
  sum over the 1024 hidden units of the normalised, rectified unit times the decoder weight, plus the bias; a vector
  spread over the rows is read at its column, a half-precision copy is the identity.
-/
import proofs.«154883_j74363063763324_1_alg».proof.Proof.RTerms
import proofs.«154883_j74363063763324_1_alg».proof.Proof.Spec
import proofs.«154883_j74363063763324_1_alg».proof.Proof.LibPlainDot
import proofs.«154883_j74363063763324_1_alg».proof.Proof.Model
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RVal

open Cert.ReferenceIdeal Idealize.ShloMosaic Idealize.ShloMosaic.ValueIdx
open Cert.ReferenceIdeal.Facts₀

/-! ## The three ways a smaller array is spread over a larger one, read at an index -/

section Spread
variable {α : Type}

/-- A one-row array spread down R rows reads, at (r, k), the row's entry at column k: the row axis of the operand has
    extent one, so its coordinate is 0 whatever r is; the column axis is carried over (and when there is only one
    column, k is 0 anyway). -/
theorem spreadRows_apply {R C : Nat}
    (h : (⟨2, ![1, C]⟩ : Shape).BroadcastsInDim ⟨2, ![R, C]⟩ (![0, 1] : Fin 2 → Fin (⟨2, ![R, C]⟩ : Shape).rank))
    (x : (⟨2, ![1, C]⟩ : Shape).Idx → α) (r : Fin R) (k : Fin C) :
    broadcastInDim ⟨2, ![R, C]⟩ ![0, 1] h x (ix2 r k) = x (ix2 (0 : Fin 1) k) := by
  refine broadcastInDim_apply _ h x (ix2 r k) (ix2 (0 : Fin 1) k) fun a => ?_
  match a with
  | ⟨0, _⟩ => rfl
  | ⟨1, _⟩ =>
    show k.val = if C = 1 then 0 else k.val
    have := k.isLt
    split
    · omega
    · rfl

/-- A vector laid out as one row reads, at (0, k), the vector's entry k. -/
theorem vecAsRow_apply {C : Nat}
    (h : (⟨1, ![C]⟩ : Shape).BroadcastsInDim ⟨2, ![1, C]⟩ (![1] : Fin 1 → Fin (⟨2, ![1, C]⟩ : Shape).rank))
    (x : (⟨1, ![C]⟩ : Shape).Idx → α) (z : Fin 1) (k : Fin C) :
    broadcastInDim ⟨2, ![1, C]⟩ ![1] h x (ix2 z k) = x (ix1 k) := by
  refine broadcastInDim_apply _ h x (ix2 z k) (ix1 k) fun a => ?_
  match a with
  | ⟨0, _⟩ =>
    show k.val = if C = 1 then 0 else k.val
    have := k.isLt
    split
    · omega
    · rfl

/-- A scalar spread over any shape reads the scalar everywhere. -/
theorem spreadScalar_apply {t : Shape}
    (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply _ h x j ix0 fun a => a.elim0

/-- A vector recast as a one-row array reads, at (0, k), the vector's entry k: both sit at row-major position k. -/
theorem castRow_apply {C : Nat} (h : (⟨1, ![C]⟩ : Shape).ShapeCasts ⟨2, ![1, C]⟩)
    (x : (⟨1, ![C]⟩ : Shape).Idx → α) (z : Fin 1) (k : Fin C) :
    shapeCast ⟨2, ![1, C]⟩ x h (ix2 z k) = x (ix1 k) := by
  refine shapeCast_apply x h (ix2 z k) (ix1 k) ?_
  rw [Shape.rowMajor_val_one, Shape.rowMajor_val_two]
  show k.val = z.val * C + k.val
  have := z.isLt
  have hz : z.val = 0 := by omega
  rw [hz, Nat.zero_mul, Nat.zero_add]

end Spread

/-! ## The hidden unit and the class score of the reference, read at an index -/

/-- The reference's hidden unit at (r, k) is Spec's: the mean and variance rows are read at (0, k) whatever r is, the
    stabiliser and the floor are the scalars their words encode, and gamma, beta as one-row arrays read entry k. -/
theorem rH_apply (U : FVec Ideal S50000x1024 .f32) (μh σh : FVec Ideal S1x1024 .f32) (a11 a12 : FVec Ideal S1024 .f32)
    (r : Fin 50000) (k : Fin 1024) :
    rH U μh σh a11 a12 (ix2 r k)
      = Cert.Spec.hidden U μh σh (Cert.Model.row1024 a11) (Cert.Model.row1024 a12) r k := by
  unfold rH Cert.Spec.hidden Cert.Model.row1024
  rw [maximumf_apply, addf_apply, mulf_apply, mulf_apply, subf_apply]
  rw [spreadRows_apply, spreadRows_apply, spreadRows_apply, spreadRows_apply, spreadScalar_apply]
  rw [vecAsRow_apply, vecAsRow_apply, castRow_apply, castRow_apply]
  unfold Host.rsqrt
  rw [Ideal.hostUnary_rsqrt_def, addf_apply, spreadScalar_apply, constant_apply, constant_apply]

/-- The reference's class score at (r, j): the row of H against the column of the decoder matrix, plus the bias entry. -/
theorem rOut_apply (H : FVec Ideal S50000x1024 .f32) (a13 : FVec Ideal S1024x37 .f32) (a14 : FVec Ideal S37 .f32)
    (r : Fin 50000) (j : Fin 37) :
    rOut H a13 a14 (ix2 r j) = (∑ k : Fin 1024, H (ix2 r k) * a13 (ix2 k j)) + a14 (ix1 j) := by
  unfold rOut
  rw [addf_apply, spreadRows_apply, vecAsRow_apply]
  rw [Cert.LibPlainDot.dotGeneral_apply dot_S50000x1024_S1024x37_S50000x37_1_0_0_1_n_n rfl rfl rfl rfl rfl rfl none H a13 r j]

/-- The reference's class scores are stage two of Spec, for ANY pre-activation U and statistics μh, σh. -/
theorem rOut_eq (U : FVec Ideal S50000x1024 .f32) (μh σh : FVec Ideal S1x1024 .f32) (a11 a12 : FVec Ideal S1024 .f32)
    (a13 : FVec Ideal S1024x37 .f32) (a14 : FVec Ideal S37 .f32) :
    rOut (rH U μh σh a11 a12) a13 a14
      = Cert.Spec.bnDecW 50000 U μh σh (Cert.Model.row1024 a11) (Cert.Model.row1024 a12) (Cert.Model.toBf a13) (Cert.Model.row37 a14) := by
  funext i
  obtain ⟨r, j, rfl⟩ : ∃ (r : Fin 50000) (j : Fin 37), i = ix2 r j := ⟨i 0, i 1, eq_ix2 i⟩
  rw [Cert.Spec.bnDecW_apply, rOut_apply]
  unfold Cert.Spec.decAt
  have hb : Cert.Model.row37 a14 (ix2 (0 : Fin 1) j) = a14 (ix1 j) := by
    unfold Cert.Model.row37
    exact castRow_apply _ a14 0 j
  rw [hb]
  congr 1
  refine Finset.sum_congr rfl fun k _ => ?_
  rw [rH_apply]
  rfl

end Cert.ReferenceIdeal.RVal

end
-- ==== Proof.RCat.lean ====
/-
  The concatenated feature row and the three row bands of the hidden weight matrix, read band by band.

  The row has 2376 = 2048 + 200 + 128 columns: the features, the embedding, the geometry's layer, side by side. A sum over
  the 2376 columns is the sum over the first 2048, plus the sum over the next 200, plus the sum over the last 128
  (addition of extended reals is commutative and associative; nothing else is used). On each band the concatenation
  reads its own piece at the column's offset inside the band, and the matching row band of the weight matrix reads the
  whole matrix at the band's first row plus the offset.
-/
import proofs.«154883_j74363063763324_1_alg».proof.Proof.RTerms
import proofs.«154883_j74363063763324_1_alg».proof.Proof.Model
import Idealize.ShloMosaic.Lib.Pipeline.Value
import Idealize.ShloMosaic.Lib.ValueIdx
import Idealize.ShloMosaic.Lib.ValueLayout

noncomputable section

namespace Cert.ReferenceIdeal.RVal

open Cert.ReferenceIdeal Idealize.ShloMosaic Idealize.ShloMosaic.ValueIdx
open Cert.ReferenceIdeal.Facts₀

/-- A sum over the 2376 columns, band by band. -/
theorem sum_bands (f : Fin 2376 → EReal) :
    ∑ k : Fin 2376, f k
      = ((∑ k : Fin 2048, f ⟨k.val, by have := k.isLt; omega⟩) + ∑ k : Fin 200, f ⟨2048 + k.val, by have := k.isLt; omega⟩)
        + ∑ k : Fin 128, f ⟨2248 + k.val, by have := k.isLt; omega⟩ := by
  -- 2376 = 2248 + 128 and 2248 = 2048 + 200: split the range twice; the re-indexed columns are the same naturals
  have h1 := Fin.sum_univ_add (a := 2248) (b := 128) f
  have h2 := Fin.sum_univ_add (a := 2048) (b := 200) (fun i : Fin 2248 => f (Fin.castAdd 128 i))
  refine h1.trans ?_
  refine congrArg₂ (· + ·) (h2.trans ?_) ?_
  · refine congrArg₂ (· + ·) ?_ ?_
    · exact Finset.sum_congr rfl fun k _ => congrArg f (Fin.ext rfl)
    · exact Finset.sum_congr rfl fun k _ => congrArg f (Fin.ext rfl)
  · exact Finset.sum_congr rfl fun k _ => congrArg f (Fin.ext rfl)

/-- The feature row on its first band is the features. -/
theorem rC_band1 (a2 : FVec Ideal S50000x2048 .f32) (E : FVec Ideal S50000x200 .f32) (Ph : FVec Ideal S50000x128 .f32)
    (r : Fin 50000) (k : Fin 2048) :
    rC a2 E Ph (ix2 r (⟨k.val, by have := k.isLt; omega⟩ : Fin 2376)) = a2 (ix2 r k) := by
  -- column k < 2048 lies in the first piece, with no columns before it
  unfold rC
  refine concatenate_apply_piece (t := S50000x2376) 1 [⟨S50000x2048, a2⟩, ⟨S50000x200, E⟩, ⟨S50000x128, Ph⟩]
    concatenates_S50000x2048_S50000x200_S50000x128_S50000x2376_d1 _ 0 (show 0 < 3 by omega) S50000x2048 a2 rfl rfl 0 rfl (ix2 r k)
    (fun b => ?_) ?_
  · match b with
    | ⟨0, _⟩ => exact fun _ => rfl
    | ⟨1, _⟩ => exact fun hb => absurd rfl hb
  · exact Nat.zero_add _

/-- The feature row on its second band is the embedding. -/
theorem rC_band2 (a2 : FVec Ideal S50000x2048 .f32) (E : FVec Ideal S50000x200 .f32) (Ph : FVec Ideal S50000x128 .f32)
    (r : Fin 50000) (k : Fin 200) :
    rC a2 E Ph (ix2 r (⟨2048 + k.val, by have := k.isLt; omega⟩ : Fin 2376)) = E (ix2 r k) := by
  -- column 2048 + k lies in the second piece, after the first piece's 2048 columns
  unfold rC
  refine concatenate_apply_piece (t := S50000x2376) 1 [⟨S50000x2048, a2⟩, ⟨S50000x200, E⟩, ⟨S50000x128, Ph⟩]
    concatenates_S50000x2048_S50000x200_S50000x128_S50000x2376_d1 _ 1 (show 1 < 3 by omega) S50000x200 E rfl rfl 2048 rfl (ix2 r k)
    (fun b => ?_) ?_
  · match b with
    | ⟨0, _⟩ => exact fun _ => rfl
    | ⟨1, _⟩ => exact fun hb => absurd rfl hb
  · rfl

/-- The feature row on its third band is the geometry's layer. -/
theorem rC_band3 (a2 : FVec Ideal S50000x2048 .f32) (E : FVec Ideal S50000x200 .f32) (Ph : FVec Ideal S50000x128 .f32)
    (r : Fin 50000) (k : Fin 128) :
    rC a2 E Ph (ix2 r (⟨2248 + k.val, by have := k.isLt; omega⟩ : Fin 2376)) = Ph (ix2 r k) := by
  -- column 2248 + k lies in the third piece, after the 2048 + 200 columns of the first two
  unfold rC
  refine concatenate_apply_piece (t := S50000x2376) 1 [⟨S50000x2048, a2⟩, ⟨S50000x200, E⟩, ⟨S50000x128, Ph⟩]
    concatenates_S50000x2048_S50000x200_S50000x128_S50000x2376_d1 _ 2 (show 2 < 3 by omega) S50000x128 Ph rfl rfl 2248 rfl (ix2 r k)
    (fun b => ?_) ?_
  · match b with
    | ⟨0, _⟩ => exact fun _ => rfl
    | ⟨1, _⟩ => exact fun hb => absurd rfl hb
  · rfl

/-- The weight matrix's first row band reads the matrix at the same row. -/
theorem band1_apply (W : FVec Ideal S2376x1024 .f32) (k : Fin 2048) (j : Fin 1024) :
    Cert.Model.band1 W (ix2 k j) = W (ix2 (⟨k.val, by have := k.isLt; omega⟩ : Fin 2376) j) := by
  unfold Cert.Model.band1 Cert.Model.toBf
  refine (extractStridedSlice_apply _ _ _ (ix2 k j) (ix2 (⟨k.val, by have := k.isLt; omega⟩ : Fin 2376) j) fun a => ?_).trans rfl
  match a with
  | ⟨0, _⟩ => exact (Nat.zero_add _).symm
  | ⟨1, _⟩ => exact (Nat.zero_add _).symm

/-- Its second row band reads the matrix 2048 rows further down. -/
theorem band2_apply (W : FVec Ideal S2376x1024 .f32) (k : Fin 200) (j : Fin 1024) :
    Cert.Model.band2 W (ix2 k j) = W (ix2 (⟨2048 + k.val, by have := k.isLt; omega⟩ : Fin 2376) j) := by
  unfold Cert.Model.band2 Cert.Model.toBf
  refine (extractStridedSlice_apply _ _ _ (ix2 k j) (ix2 (⟨2048 + k.val, by have := k.isLt; omega⟩ : Fin 2376) j) fun a => ?_).trans rfl
  match a with
  | ⟨0, _⟩ => rfl
  | ⟨1, _⟩ => exact (Nat.zero_add _).symm

/-- Its third row band reads the matrix 2248 rows further down. -/
theorem band3_apply (W : FVec Ideal S2376x1024 .f32) (k : Fin 128) (j : Fin 1024) :
    Cert.Model.band3 W (ix2 k j) = W (ix2 (⟨2248 + k.val, by have := k.isLt; omega⟩ : Fin 2376) j) := by
  unfold Cert.Model.band3 Cert.Model.toBf
  refine (extractStridedSlice_apply _ _ _ (ix2 k j) (ix2 (⟨2248 + k.val, by have := k.isLt; omega⟩ : Fin 2376) j) fun a => ?_).trans rfl
  match a with
  | ⟨0, _⟩ => rfl
  | ⟨1, _⟩ => exact (Nat.zero_add _).symm

end Cert.ReferenceIdeal.RVal

end
-- ==== Proof.RReadU.lean ====
/-
  The reference's first stage read index by index on the extended reals, against Spec.

  The reference multiplies the concatenated feature row [feat | emb | pos] (2048 + 200 + 128 = 2376 columns) by the whole
  hidden weight matrix: Σ_{k<2376} row[r,k]·W[k,j]. Splitting the sum at 2048 and at 2248 and reading the concatenation on
  each band gives the three partial sums of Spec.projAt against the three row bands of W: a regrouping of one finite sum,
  which needs only that addition of extended reals is commutative and associative. Everything else matches term by term:
  a product read at an entry is the sum over its contracted index; a vector spread over the rows is read at its column;
  a half-precision copy is the identity.
-/
import proofs.«154883_j74363063763324_1_alg».proof.Proof.RTerms
import proofs.«154883_j74363063763324_1_alg».proof.Proof.Spec
import proofs.«154883_j74363063763324_1_alg».proof.Proof.LibPlainDot
import proofs.«154883_j74363063763324_1_alg».proof.Proof.Model
import proofs.«154883_j74363063763324_1_alg».proof.Proof.RReadOut
import proofs.«154883_j74363063763324_1_alg».proof.Proof.RCat
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RVal

open Cert.ReferenceIdeal Idealize.ShloMosaic Idealize.ShloMosaic.ValueIdx
open Cert.ReferenceIdeal.Facts₀

/-! ## The model's one-row arrays read at a column -/

/-- The scale and shift vectors of the geometry, as one-row arrays, read entry l at column l. -/
theorem rU_row4 (v : FVec Ideal S4 .f32) (l : Fin 4) : Cert.Model.row4 v (ix2 (0 : Fin 1) l) = v (ix1 l) := by
  unfold Cert.Model.row4
  exact castRow_apply _ v 0 l

/-- The geometry layer's bias, as a one-row array, reads entry k at column k. -/
theorem rU_row128 (v : FVec Ideal S128 .f32) (k : Fin 128) : Cert.Model.row128 v (ix2 (0 : Fin 1) k) = v (ix1 k) := by
  unfold Cert.Model.row128
  exact castRow_apply _ v 0 k

/-- The hidden layer's bias, as a one-row array, reads entry j at column j. -/
theorem rU_row1024 (v : FVec Ideal S1024 .f32) (j : Fin 1024) : Cert.Model.row1024 v (ix2 (0 : Fin 1) j) = v (ix1 j) := by
  unfold Cert.Model.row1024
  exact castRow_apply _ v 0 j

/-! ## The reference's stages read at an entry -/

/-- The hidden pre-activation at (r, j): row r of the feature row against column j of the weight matrix, plus the
    bias entry j (the bias is laid as one row and spread down the rows, so only its column matters). -/
theorem rU_apply (C : FVec Ideal S50000x2376 .f32) (a9 : FVec Ideal S2376x1024 .f32) (a10 : FVec Ideal S1024 .f32)
    (r : Fin 50000) (j : Fin 1024) :
    rU C a9 a10 (ix2 r j) = (∑ k : Fin 2376, C (ix2 r k) * a9 (ix2 k j)) + a10 (ix1 j) := by
  unfold rU
  rw [addf_apply, spreadRows_apply, vecAsRow_apply]
  rw [Cert.LibPlainDot.dotGeneral_apply dot_S50000x2376_S2376x1024_S50000x1024_1_0_0_1_n_n rfl rfl rfl rfl rfl rfl none C a9 r j]

/-- The embedding at (r, k) is Spec's: row r of the class distribution against column k of the table; the table's
    half-precision copy is the table. -/
theorem rE_apply (a0 : FVec Ideal S50000x36 .f32) (a4 : FVec Ideal S36x200 .f32) (r : Fin 50000) (k : Fin 200) :
    rE a0 a4 (ix2 r k) = Cert.Spec.embed a0 (Cert.Model.toBf a4) r k := by
  unfold rE Cert.Spec.embed
  rw [Cert.LibPlainDot.dotGeneral_apply dot_S50000x36_S36x200_S50000x200_1_0_0_1_n_n rfl rfl rfl rfl rfl rfl none a0 a4 r k]
  rfl

/-- The normalised geometry at (r, l) is Spec's: the mean and variance rows are read at (0, l) whatever r is, the
    stabiliser is the scalar its word encodes, and the scale and shift vectors read entry l. -/
theorem rPn_apply (P : FVec Ideal S50000x4 .f32) (μ σ : FVec Ideal S1x4 .f32) (a5 a6 : FVec Ideal S4 .f32)
    (r : Fin 50000) (l : Fin 4) :
    rPn P μ σ a5 a6 (ix2 r l) = Cert.Spec.posNorm P (Cert.Model.row4 a5) (Cert.Model.row4 a6) μ σ r l := by
  unfold rPn Cert.Spec.posNorm
  rw [rU_row4, rU_row4]
  rw [addf_apply, mulf_apply, mulf_apply, subf_apply]
  rw [spreadRows_apply, spreadRows_apply, spreadRows_apply, spreadRows_apply]
  rw [vecAsRow_apply, vecAsRow_apply]
  unfold Host.rsqrt
  rw [Ideal.hostUnary_rsqrt_def, addf_apply, spreadScalar_apply, constant_apply]

/-- The geometry's layer at (r, k), for ANY normalised geometry Pn: row r of Pn against column k of the layer's
    matrix, plus the bias entry k, floored at the scalar the floor's word encodes. -/
theorem rPh_apply (Pn : FVec Ideal S50000x4 .f32) (a7 : FVec Ideal S4x128 .f32) (a8 : FVec Ideal S128 .f32)
    (r : Fin 50000) (k : Fin 128) :
    rPh Pn a7 a8 (ix2 r k)
      = max ((∑ l : Fin 4, Pn (ix2 r l) * a7 (ix2 l k)) + a8 (ix1 k)) Cert.Spec.floor0 := by
  unfold rPh
  rw [maximumf_apply, addf_apply, spreadRows_apply, vecAsRow_apply, spreadScalar_apply, constant_apply]
  rw [Cert.LibPlainDot.dotGeneral_apply dot_S50000x4_S4x128_S50000x128_1_0_0_1_n_n rfl rfl rfl rfl rfl rfl none Pn a7 r k]

/-- The geometry's feature at (r, k) is Spec's: the layer above applied to the normalised geometry, term by term over
    the four geometry columns; the matrix's half-precision copy is the matrix. -/
theorem rPos_apply (P : FVec Ideal S50000x4 .f32) (μ σ : FVec Ideal S1x4 .f32) (a5 a6 : FVec Ideal S4 .f32)
    (a7 : FVec Ideal S4x128 .f32) (a8 : FVec Ideal S128 .f32) (r : Fin 50000) (k : Fin 128) :
    rPh (rPn P μ σ a5 a6) a7 a8 (ix2 r k)
      = Cert.Spec.posFeat P (Cert.Model.row4 a5) (Cert.Model.row4 a6) (Cert.Model.toBf a7) (Cert.Model.row128 a8) μ σ r k := by
  rw [rPh_apply]
  unfold Cert.Spec.posFeat
  rw [rU_row128]
  refine congrArg₂ max (congrArg₂ (· + ·) (Finset.sum_congr rfl fun l _ => ?_) rfl) rfl
  rw [rPn_apply]
  rfl

/-! ## The first stage -/

/-- The reference's hidden pre-activation is stage one of Spec, for ANY geometry array P and statistics μ, σ. -/
theorem rU_eq (a0 : FVec Ideal S50000x36 .f32) (P : FVec Ideal S50000x4 .f32) (a2 : FVec Ideal S50000x2048 .f32)
    (a4 : FVec Ideal S36x200 .f32) (a5 a6 : FVec Ideal S4 .f32) (a7 : FVec Ideal S4x128 .f32) (a8 : FVec Ideal S128 .f32)
    (μ σ : FVec Ideal S1x4 .f32) (a9 : FVec Ideal S2376x1024 .f32) (a10 : FVec Ideal S1024 .f32) :
    rU (rC a2 (rE a0 a4) (rPh (rPn P μ σ a5 a6) a7 a8)) a9 a10
      = Cert.Spec.projW 50000 a0 P a2 (Cert.Model.toBf a4) (Cert.Model.row4 a5) (Cert.Model.row4 a6) (Cert.Model.toBf a7)
          (Cert.Model.row128 a8) μ σ (Cert.Model.band1 a9) (Cert.Model.band2 a9) (Cert.Model.band3 a9) (Cert.Model.row1024 a10) := by
  funext i
  obtain ⟨r, j, rfl⟩ : ∃ (r : Fin 50000) (j : Fin 1024), i = ix2 r j := ⟨i 0, i 1, eq_ix2 i⟩
  rw [Cert.Spec.projW_apply, rU_apply, sum_bands]
  unfold Cert.Spec.projAt
  rw [rU_row1024]
  refine congrArg₂ (· + ·) (congrArg₂ (· + ·) (congrArg₂ (· + ·) ?_ ?_) ?_) rfl
  -- the first band: the features against rows 0..2047 of the weight matrix
  · exact Finset.sum_congr rfl fun k _ =>
      congrArg₂ (· * ·) (rC_band1 a2 _ _ r k) (band1_apply a9 k j).symm
  -- the second band: the embedding against rows 2048..2247
  · exact Finset.sum_congr rfl fun k _ =>
      congrArg₂ (· * ·) ((rC_band2 a2 _ _ r k).trans (rE_apply a0 a4 r k)) (band2_apply a9 k j).symm
  -- the third band: the geometry's feature against rows 2248..2375
  · exact Finset.sum_congr rfl fun k _ =>
      congrArg₂ (· * ·) ((rC_band3 a2 _ _ r k).trans (rPos_apply P μ σ a5 a6 a7 a8 r k)) (band3_apply a9 k j).symm

end Cert.ReferenceIdeal.RVal

end
-- ==== Proof.RRead.lean ====
/-
  The reference computes the model: its two stages are Spec's (read entry by entry in the two modules imported here), and
  the small shared quantities between them are Model's own.
-/
import proofs.«154883_j74363063763324_1_alg».proof.Proof.RReadU
import proofs.«154883_j74363063763324_1_alg».proof.Proof.RReadOut

noncomputable section

namespace Cert.ReferenceIdeal.RVal

open Cert.ReferenceIdeal Idealize.ShloMosaic

/-- So the reference computes the model. -/
theorem refOut_eq_model (a0 : FVec Ideal S50000x36 .f32) (a1 : FVec Ideal S50000x5 .f32) (a2 : FVec Ideal S50000x2048 .f32)
    (a4 : FVec Ideal S36x200 .f32) (a5 a6 : FVec Ideal S4 .f32) (a7 : FVec Ideal S4x128 .f32) (a8 : FVec Ideal S128 .f32)
    (a9 : FVec Ideal S2376x1024 .f32) (a10 a11 a12 : FVec Ideal S1024 .f32) (a13 : FVec Ideal S1024x37 .f32) (a14 : FVec Ideal S37 .f32) :
    refOut (F := Ideal) a0 a1 a2 a4 a5 a6 a7 a8 a9 a10 a11 a12 a13 a14 = Cert.Model.out a0 a1 a2 a4 a5 a6 a7 a8 a9 a10 a11 a12 a13 a14 := by
  unfold refOut refU Cert.Model.out Cert.Model.hiddenPre
  rw [rU_eq, rOut_eq]

end Cert.ReferenceIdeal.RVal

end
-- ==== Proof.lean ====
/-
  The certificate of the object classifier's kernel program against its reference.

  Both programs compute ONE function of the fifteen arguments, Model.out: box geometry, its column statistics, stage one
  (the hidden pre-activation as three partial products over the three column bands of the feature row), the hidden
  layer's column statistics, and stage two (normalise, rectify, decode). The kernel program reaches it region by region
  (each region's output array is its stage of Spec on all rows, because each grid point computes the stage on its own
  row block and a stage sees only its own row); the reference reaches it by reading its operations entry by entry,
  where the one real step is regrouping the sum over the 2376 concatenated columns into the sums over its three bands.
  No step needs the inputs finite: only commutativity and associativity of addition on the extended reals are used.

  The frames of the two kernel programs are the generated ones; the reference's frame is its run with the result
  dropped; the idealization rewrote nothing, so there is nothing to preserve.
-/
import proofs.«154883_j74363063763324_1_alg».proof.Defs
import proofs.«154883_j74363063763324_1_alg».proof.Proof.Gen.Kernel
import proofs.«154883_j74363063763324_1_alg».proof.Proof.Gen.Kernel.Skeleton
import proofs.«154883_j74363063763324_1_alg».proof.Proof.Gen.Kernel.Launch
import proofs.«154883_j74363063763324_1_alg».proof.Proof.Gen.Kernel.Points
import proofs.«154883_j74363063763324_1_alg».proof.Proof.Gen.Kernel.Frame
import proofs.«154883_j74363063763324_1_alg».proof.Proof.Gen.KernelIdeal
import proofs.«154883_j74363063763324_1_alg».proof.Proof.Gen.KernelIdeal.Skeleton
import proofs.«154883_j74363063763324_1_alg».proof.Proof.Gen.KernelIdeal.Launch
import proofs.«154883_j74363063763324_1_alg».proof.Proof.Gen.KernelIdeal.Points
import proofs.«154883_j74363063763324_1_alg».proof.Proof.Gen.KernelIdeal.Frame
import proofs.«154883_j74363063763324_1_alg».proof.Proof.Gen.ReferenceIdeal
import proofs.«154883_j74363063763324_1_alg».proof.Proof.Gen.Pre_finite_inputs
import proofs.«154883_j74363063763324_1_alg».proof.Proof.KRun
import proofs.«154883_j74363063763324_1_alg».proof.Proof.KHost
import proofs.«154883_j74363063763324_1_alg».proof.Proof.RRun
import proofs.«154883_j74363063763324_1_alg».proof.Proof.RRead
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RRun.ref_run (F := Ideal) m ρ)

/-- Both runs end with the result buffer at the model's value of the (agreeing) arguments, the labels passed through. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Model.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)),
      fun c => m ((c.tc : Thread Cert.KernelIdeal.nD Cert.KernelIdeal.τ).loc Cert.KernelIdeal.main_arg3), ?_, ?_⟩
  · refine (θ_run Cert.KernelIdeal.defs _ _).mono (fun r h c => ?_) (Cert.KernelIdeal.KRun.run_out (F := Ideal) m ρ)
    obtain ⟨hv, h0, h1, h2, h3, h4, h5, h6, h7, h8, h9, h10, h11, h12, h13, h14⟩ := h c
    exact ⟨hv.trans (Cert.KernelIdeal.KHost.W7_out m ρ c), h3, h0, h1, h2, h3, h4, h5, h6, h7, h8, h9, h10, h11, h12, h13, h14⟩
  · refine (θ_run Cert.ReferenceIdeal.defs _ _).mono (fun r h c => ?_) (Cert.ReferenceIdeal.RRun.ref_run (F := Ideal) m' ρ')
    obtain ⟨hv, h0, h1, h2, h3, h4, h5, h6, h7, h8, h9, h10, h11, h12, h13, h14⟩ := h c
    obtain ⟨e0, e1, e2, e3, e4, e5, e6, e7, e8, e9, e10, e11, e12, e13, e14⟩ := hagree c
    refine ⟨?_, h3.trans e3, h0, h1, h2, h3, h4, h5, h6, h7, h8, h9, h10, h11, h12, h13, h14⟩
    rw [hv, Cert.ReferenceIdeal.RVal.refOut_eq_model, e0, e1, e2, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
